-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x32768x2 : Shape := ⟨3, ![8, 32768, 2]⟩
abbrev S8x128x128x128 : Shape := ⟨4, ![8, 128, 128, 128]⟩
abbrev S_ : Shape := ⟨0, ![]⟩

class Facts : Prop where
  bcast_S_S8x32768x2 : S_.BroadcastsInDim S8x32768x2 (![] : Fin 0 → Fin S8x32768x2.rank)
  reducesTo_S8x32768x2_S_d0_1_2 : S8x32768x2.ReducesTo [0, 1, 2] S_
  h_S_ : 0 < S_.numel
  bcast_S_S8x128x128x128 : S_.BroadcastsInDim S8x128x128x128 (![] : Fin 0 → Fin S8x128x128x128.rank)
  reducesTo_S8x128x128x128_S_d0_1_2_3 : S8x128x128x128.ReducesTo [0, 1, 2, 3] S_

variable [Facts]

def fn {F : FTy → Type} [FloatOps F] (main_arg0 : FVec F S8x32768x2 .f32) (main_arg1 : FVec F S8x128x128x128 .f32) : IVec S_ 1 :=
  let main_v0 : FVec F S8x32768x2 .f32 := Host.absf main_arg0
  let main_cst : FVec F S_ .f32 := constant S_ .f32 0x7F800000#32
  let main_v1 : FVec F S8x32768x2 .f32 := broadcastInDim S8x32768x2 ![] bcast_S_S8x32768x2 main_cst
  let main_v2 : IVec S8x32768x2 1 := cmpf .olt main_v0 main_v1
  let main_c : IVec S_ 1 := constantI S_ 1 1#1
  let main_v3 : IVec S_ 1 := (fun x v => Host.reduce IntOp.andi x v reducesTo_S8x32768x2_S_d0_1_2 h_S_) main_v2 main_c
  let main_v4 : FVec F S8x128x128x128 .f32 := Host.absf main_arg1
  let main_cst_0 : FVec F S_ .f32 := constant S_ .f32 0x7F800000#32
  let main_v5 : FVec F S8x128x128x128 .f32 := broadcastInDim S8x128x128x128 ![] bcast_S_S8x128x128x128 main_cst_0
  let main_v6 : IVec S8x128x128x128 1 := cmpf .olt main_v4 main_v5
  let main_c_1 : IVec S_ 1 := constantI S_ 1 1#1
  let main_v7 : IVec S_ 1 := (fun x v => Host.reduce IntOp.andi x v reducesTo_S8x128x128x128_S_d0_1_2_3 h_S_) main_v6 main_c_1
  let main_v8 : IVec S_ 1 := andi main_v3 main_v7
  main_v8
-- ==== Kernel.lean ====
abbrev S8x32768x2 : Shape := ⟨3, ![8, 32768, 2]⟩
abbrev S8x128x128x128 : Shape := ⟨4, ![8, 128, 128, 128]⟩
abbrev S8x32768x128 : Shape := ⟨3, ![8, 32768, 128]⟩
abbrev S1x2048x2 : Shape := ⟨3, ![1, 2048, 2]⟩
abbrev S1x128x128x128 : Shape := ⟨4, ![1, 128, 128, 128]⟩
abbrev S1x2048x128 : Shape := ⟨3, ![1, 2048, 128]⟩
abbrev S16384x128 : Shape := ⟨2, ![16384, 128]⟩
abbrev S128x128x128 : Shape := ⟨3, ![128, 128, 128]⟩
abbrev S2048x2 : Shape := ⟨2, ![2048, 2]⟩
abbrev S2048x1 : Shape := ⟨2, ![2048, 1]⟩
abbrev S2048 : Shape := ⟨1, ![2048]⟩
abbrev S2048x128 : Shape := ⟨2, ![2048, 128]⟩
abbrev S256x128 : Shape := ⟨2, ![256, 128]⟩
abbrev S2048x256 : Shape := ⟨2, ![2048, 256]⟩

abbrev nBuf : Space → Nat
  | .hbm => 3
  | .vmem => 7
  | .smem => 0
  | _ => 0

abbrev bufTy : (tb : Table) → Fin (tcTables nBuf tb) → BufTy
  | .hbm, ⟨0, _⟩ => ⟨S8x32768x2, .f32⟩
  | .hbm, ⟨1, _⟩ => ⟨S8x128x128x128, .f32⟩
  | .hbm, ⟨2, _⟩ => ⟨S8x32768x128, .f32⟩
  | .local _ .vmem, ⟨0, _⟩ => ⟨S1x2048x2, .f32⟩
  | .local _ .vmem, ⟨1, _⟩ => ⟨S1x2048x2, .f32⟩
  | .local _ .vmem, ⟨2, _⟩ => ⟨S1x128x128x128, .f32⟩
  | .local _ .vmem, ⟨3, _⟩ => ⟨S1x128x128x128, .f32⟩
  | .local _ .vmem, ⟨4, _⟩ => ⟨S1x2048x128, .f32⟩
  | .local _ .vmem, ⟨5, _⟩ => ⟨S1x2048x128, .f32⟩
  | .local _ .vmem, ⟨6, _⟩ => ⟨S16384x128, .f32⟩
  | _, _ => ⟨S8x32768x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 16], ![false, false]⟩

@[reducible] def k0_t1_loop : Scf.Loop 32 :=
  let c0_i32_58 : BitVec 32 := 0#32
  let c64_i32 : BitVec 32 := 64#32
  let v174 : BitVec 32 := Scalar.addi c0_i32_58 c64_i32
  let c1_i32_59 : BitVec 32 := 1#32
  ⟨c0_i32_58, v174, c1_i32_59⟩
def k0_mult1 (k0_t1 : Fin k0_t1_loop.trips) : BitVec 32 :=
  let c0_i32_58 : BitVec 32 := 0#32
  let c1_i32_59 : BitVec 32 := 1#32
  let arg6 : BitVec 32 := Scf.iv c0_i32_58 c1_i32_59 k0_t1
  let c256_i32 : BitVec 32 := 256#32
  let v179 : BitVec 32 := Scalar.muli arg6 c256_i32
  v179
def k0_off1 (k0_t1 : Fin k0_t1_loop.trips) : Fin 2 → Nat :=
  let c0_i32_58 : BitVec 32 := 0#32
  let c1_i32_59 : BitVec 32 := 1#32
  let arg6 : BitVec 32 := Scf.iv c0_i32_58 c1_i32_59 k0_t1
  let c256_i32 : BitVec 32 := 256#32
  let v179 : BitVec 32 := Scalar.muli arg6 c256_i32
  let v180 : BitVec 32 := v179
  let v181 : Index := Scalar.indexCast v180
  let c0_64 : Index := 0#32
  ![v181.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x128x128x128_S1x128x128x128_0_0_0_0 : ∀ a, (![0, 0, 0, 0] : Fin 4 → Nat) a + S1x128x128x128.size a ≤ S1x128x128x128.size a
  h_S1x128x128x128 : 0 < S1x128x128x128.numel
  shapeCasts_S1x128x128x128_S128x128x128 : S1x128x128x128.ShapeCasts S128x128x128
  transposes_S128x128x128_p1_2_0_S128x128x128 : S128x128x128.Transposes [1, 2, 0] S128x128x128
  shapeCasts_S128x128x128_S16384x128 : S128x128x128.ShapeCasts S16384x128
  inb_S16384x128_S16384x128_0_0 : ∀ a, (![0, 0] : Fin 2 → Nat) a + S16384x128.size a ≤ S16384x128.size a
  h_S16384x128 : 0 < S16384x128.numel
  shapeCasts_S16384x128_S16384x128 : S16384x128.ShapeCasts S16384x128
  inb_S1x2048x2_S1x2048x2_0_0_0 : ∀ a, (![0, 0, 0] : Fin 3 → Nat) a + S1x2048x2.size a ≤ S1x2048x2.size a
  h_S1x2048x2 : 0 < S1x2048x2.numel
  shapeCasts_S1x2048x2_S2048x2 : S1x2048x2.ShapeCasts S2048x2
  slices_S2048x2_o0_0_S2048x1 : S2048x2.Slices ![0, 0] S2048x1
  shapeCasts_S2048x1_S2048 : S2048x1.ShapeCasts S2048
  slices_S2048x2_o0_1_S2048x1 : S2048x2.Slices ![0, 1] S2048x1
  natLt_1_32 : 1 < 32
  h_S256x128 : 0 < S256x128.numel
  bitsLt_bf16_f32 : FTy.bits .bf16 < FTy.bits .f32
  iota_S2048x256_d1_w32 : S2048x256.Iotas .tc 32 [1]
  shapeCasts_S2048_S2048x1 : S2048.ShapeCasts S2048x1
  broadcasts_S2048x1_S2048x256 : S2048x1.Broadcasts S2048x256
  shapeCasts_S2048x1_S2048x1 : S2048x1.ShapeCasts S2048x1
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  shapeCasts_S2048x128_S1x2048x128 : S2048x128.ShapeCasts S1x2048x128
  dot_S2048x256_S256x128_S2048x128_1_0_0_1_n_n_wf : DotDims.WF S2048x256 S256x128 S2048x128 [1] [0] [0] [1] [] []
  hrank0 : 0 < grid0.rank
  k0_t1_ok : k0_t1_loop.OK
  k0_mult1_dvd : ∀ k0_t1 : Fin k0_t1_loop.trips, 256 ∣ (k0_mult1 k0_t1).toNat
  k0_off1_inb : ∀ k0_t1 : Fin k0_t1_loop.trips, ∀ a, (k0_off1 k0_t1) a + S256x128.size a ≤ S16384x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x2.size a ≤ S8x32768x2.size a
  hwx0_0 : ∀ i : grid0.Coords, EltTy.bits .f32 = 32 ∨ (Rect.block (s := S8x32768x2) S1x2048x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x128x128.size a ≤ S8x128x128x128.size a
  hwx0_1 : ∀ i : grid0.Coords, EltTy.bits .f32 = 32 ∨ (Rect.block (s := S8x128x128x128) S1x128x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x128.size a ≤ S8x32768x128.size a
  hwx0_2 : ∀ i : grid0.Coords, EltTy.bits .f32 = 32 ∨ (Rect.block (s := S8x32768x128) S1x2048x128.size (cc0_transform_2 i) (hinb0_2 i)).WholeWords (EltTy.packing .f32)

variable [Facts₀]

def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf

abbrev win0_0 : Pipeline.Window sig grid0 :=
  Pipeline.Window.ofSpec (Memref.whole main_arg0) S1x2048x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2048x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x32768x2 : Shape := ⟨3, ![8, 32768, 2]⟩
abbrev S8x128x128x128 : Shape := ⟨4, ![8, 128, 128, 128]⟩
abbrev S2 : Shape := ⟨1, ![2]⟩
abbrev S1x1x2 : Shape := ⟨3, ![1, 1, 2]⟩
abbrev S8x32768x1 : Shape := ⟨3, ![8, 32768, 1]⟩
abbrev S8x32768 : Shape := ⟨2, ![8, 32768]⟩
abbrev S_ : Shape := ⟨0, ![]⟩
abbrev S8x32768x4 : Shape := ⟨3, ![8, 32768, 4]⟩
abbrev S8x16384x128 : Shape := ⟨3, ![8, 16384, 128]⟩
abbrev S8x131072x1 : Shape := ⟨3, ![8, 131072, 1]⟩
abbrev S1 : Shape := ⟨1, ![1]⟩
abbrev S1x1x1 : Shape := ⟨3, ![1, 1, 1]⟩
abbrev S8x131072 : Shape := ⟨2, ![8, 131072]⟩
abbrev S8x131072x128 : Shape := ⟨3, ![8, 131072, 128]⟩
abbrev S8x32768x4x128 : Shape := ⟨4, ![8, 32768, 4, 128]⟩
abbrev S8x32768x4x1 : Shape := ⟨4, ![8, 32768, 4, 1]⟩
abbrev S8x32768x128 : Shape := ⟨3, ![8, 32768, 128]⟩

abbrev nBuf : Space → Nat
  | .hbm => 136
  | .vmem => 0
  | .smem => 0
  | _ => 0

abbrev hbmTy0_0 (i : Nat) : BufTy := match i % 128 with
  | 0 => ⟨S8x32768x2, .f32⟩
  | 1 => ⟨S8x128x128x128, .f32⟩
  | 2 => ⟨S2, .f32⟩
  | 3 => ⟨S1x1x2, .f32⟩
  | 4 => ⟨S8x32768x2, .f32⟩
  | 5 => ⟨S8x32768x2, .f32⟩
  | 6 => ⟨S8x32768x1, .f32⟩
  | 7 => ⟨S8x32768, .f32⟩
  | 8 => ⟨S8x32768x1, .f32⟩
  | 9 => ⟨S8x32768, .f32⟩
  | 10 => ⟨S_, .f32⟩
  | 11 => ⟨S8x32768, .f32⟩
  | 12 => ⟨S8x32768, .i1⟩
  | 13 => ⟨S_, .f32⟩
  | 14 => ⟨S8x32768, .f32⟩
  | 15 => ⟨S8x32768, .i1⟩
  | 16 => ⟨S8x32768, .i1⟩
  | 17 => ⟨S_, .f32⟩
  | 18 => ⟨S8x32768, .f32⟩
  | 19 => ⟨S8x32768, .i1⟩
  | 20 => ⟨S8x32768, .i1⟩
  | 21 => ⟨S_, .f32⟩
  | 22 => ⟨S8x32768, .f32⟩
  | 23 => ⟨S8x32768, .i1⟩
  | 24 => ⟨S8x32768, .i1⟩
  | 25 => ⟨S8x32768, .f32⟩
  | 26 => ⟨S8x32768, .f32⟩
  | 27 => ⟨S8x32768, .f32⟩
  | 28 => ⟨S8x32768, .f32⟩
  | 29 => ⟨S8x32768x1, .f32⟩
  | 30 => ⟨S8x32768x1, .f32⟩
  | 31 => ⟨S8x32768x1, .f32⟩
  | 32 => ⟨S8x32768x1, .f32⟩
  | 33 => ⟨S8x32768x4, .f32⟩
  | 34 => ⟨S8x32768x1, .f32⟩
  | 35 => ⟨S8x32768x1, .f32⟩
  | 36 => ⟨S8x32768x1, .f32⟩
  | 37 => ⟨S8x32768x1, .f32⟩
  | 38 => ⟨S8x32768x4, .f32⟩
  | 39 => ⟨S8x32768x4, .i32⟩
  | 40 => ⟨S_, .i32⟩
  | 41 => ⟨S_, .i32⟩
  | 42 => ⟨S_, .i1⟩
  | 43 => ⟨S_, .i32⟩
  | 44 => ⟨S_, .i32⟩
  | 45 => ⟨S_, .i32⟩
  | 46 => ⟨S8x32768x4, .i32⟩
  | 47 => ⟨S8x32768x4, .i32⟩
  | 48 => ⟨S8x32768x4, .i32⟩
  | 49 => ⟨S_, .i32⟩
  | 50 => ⟨S_, .i32⟩
  | 51 => ⟨S_, .i1⟩
  | 52 => ⟨S_, .i32⟩
  | 53 => ⟨S_, .i32⟩
  | 54 => ⟨S_, .i32⟩
  | 55 => ⟨S8x32768x4, .i32⟩
  | 56 => ⟨S8x32768x4, .i32⟩
  | 57 => ⟨S_, .i32⟩
  | 58 => ⟨S8x32768x4, .i32⟩
  | 59 => ⟨S8x32768x4, .i32⟩
  | 60 => ⟨S_, .i32⟩
  | 61 => ⟨S8x32768x4, .i32⟩
  | 62 => ⟨S8x32768x4, .i32⟩
  | 63 => ⟨S8x32768x1, .f32⟩
  | 64 => ⟨S8x32768, .f32⟩
  | 65 => ⟨S8x32768x1, .f32⟩
  | 66 => ⟨S8x32768x4, .f32⟩
  | 67 => ⟨S8x32768x4, .f32⟩
  | 68 => ⟨S8x32768x4, .f32⟩
  | 69 => ⟨S8x32768x1, .f32⟩
  | 70 => ⟨S8x32768, .f32⟩
  | 71 => ⟨S8x32768x1, .f32⟩
  | 72 => ⟨S8x32768x4, .f32⟩
  | 73 => ⟨S8x32768x4, .f32⟩
  | 74 => ⟨S8x32768x4, .f32⟩
  | 75 => ⟨S8x32768x4, .f32⟩
  | 76 => ⟨S8x32768x4, .f32⟩
  | 77 => ⟨S8x32768x4, .f32⟩
  | 78 => ⟨S8x32768x4, .f32⟩
  | 79 => ⟨S_, .f32⟩
  | 80 => ⟨S8x32768x4, .f32⟩
  | 81 => ⟨S8x32768x4, .f32⟩
  | 82 => ⟨S_, .f32⟩
  | 83 => ⟨S8x32768x4, .f32⟩
  | 84 => ⟨S8x32768x4, .f32⟩
  | 85 => ⟨S8x32768x1, .i1⟩
  | 86 => ⟨S8x32768x1, .f32⟩
  | 87 => ⟨S8x32768x4, .f32⟩
  | 88 => ⟨S8x32768x4, .f32⟩
  | 89 => ⟨S_, .f32⟩
  | 90 => ⟨S8x32768, .f32⟩
  | 91 => ⟨S8x32768x1, .f32⟩
  | 92 => ⟨S_, .f32⟩
  | 93 => ⟨S8x32768x1, .f32⟩
  | 94 => ⟨S8x32768x1, .i1⟩
  | 95 => ⟨S_, .f32⟩
  | 96 => ⟨S_, .f32⟩
  | 97 => ⟨S8x32768x1, .f32⟩
  | 98 => ⟨S8x32768x1, .f32⟩
  | 99 => ⟨S8x32768x4, .f32⟩
  | 100 => ⟨S8x32768x4, .f32⟩
  | 101 => ⟨S_, .i32⟩
  | 102 => ⟨S8x32768x4, .i32⟩
  | 103 => ⟨S8x32768x4, .i32⟩
  | 104 => ⟨S8x32768x4, .i32⟩
  | 105 => ⟨S8x128x128x128, .f32⟩
  | 106 => ⟨S8x16384x128, .f32⟩
  | 107 => ⟨S8x131072x1, .i32⟩
  | 108 => ⟨S_, .i32⟩
  | 109 => ⟨S8x131072x1, .i32⟩
  | 110 => ⟨S8x131072x1, .i1⟩
  | 111 => ⟨S_, .i32⟩
  | 112 => ⟨S8x131072x1, .i32⟩
  | 113 => ⟨S8x131072x1, .i32⟩
  | 114 => ⟨S8x131072x1, .i32⟩
  | 115 => ⟨S1, .i32⟩
  | 116 => ⟨S_, .i32⟩
  | 117 => ⟨S8x131072x1, .i32⟩
  | 118 => ⟨S8x131072x1, .i1⟩
  | 119 => ⟨S1x1x1, .i32⟩
  | 120 => ⟨S8x131072x1, .i32⟩
  | 121 => ⟨S8x131072x1, .i1⟩
  | 122 => ⟨S8x131072x1, .i1⟩
  | 123 => ⟨S_, .i1⟩
  | 124 => ⟨S8x131072, .i1⟩
  | 125 => ⟨S8x131072x128, .f32⟩
  | 126 => ⟨S8x131072x128, .i1⟩
  | 127 => ⟨S_, .f32⟩
  | _ => ⟨S8x32768x2, .f32⟩

abbrev hbmTy0_1 (i : Nat) : BufTy := match i % 128 with
  | 0 => ⟨S8x131072x128, .f32⟩
  | 1 => ⟨S8x131072x128, .f32⟩
  | 2 => ⟨S8x32768x4x128, .f32⟩
  | 3 => ⟨S8x32768x4x1, .f32⟩
  | 4 => ⟨S8x32768x4x128, .f32⟩
  | 5 => ⟨S8x32768x4x128, .f32⟩
  | 6 => ⟨S_, .f32⟩
  | 7 => ⟨S8x32768x128, .f32⟩
  | _ => ⟨S8x32768x2, .f32⟩

abbrev hbmTy (i : Nat) : BufTy := match i / 128 with
  | 0 => hbmTy0_0 i
  | 1 => hbmTy0_1 i
  | _ => ⟨S8x32768x2, .f32⟩

abbrev bufTy : (tb : Table) → Fin (tcTables nBuf tb) → BufTy
  | .hbm, ⟨i, _⟩ => hbmTy i
  | _, _ => ⟨S8x32768x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_c : Ref sig .tc := ⟨.hbm, 40, rfl⟩
abbrev main_call0_c : Ref sig .tc := ⟨.hbm, 41, rfl⟩
abbrev main_call0_v0 : Ref sig .tc := ⟨.hbm, 42, rfl⟩
abbrev main_call0_c_0 : Ref sig .tc := ⟨.hbm, 43, rfl⟩
abbrev main_call0_v1 : Ref sig .tc := ⟨.hbm, 44, rfl⟩
abbrev main_call0_v2 : Ref sig .tc := ⟨.hbm, 45, rfl⟩
abbrev main_call0_v3 : Ref sig .tc := ⟨.hbm, 46, rfl⟩
abbrev main_v33 : Ref sig .tc := ⟨.hbm, 47, rfl⟩
abbrev main_v34 : Ref sig .tc := ⟨.hbm, 48, rfl⟩
abbrev main_c_4 : Ref sig .tc := ⟨.hbm, 49, rfl⟩
abbrev main_call1_c : Ref sig .tc := ⟨.hbm, 50, rfl⟩
abbrev main_call1_v0 : Ref sig .tc := ⟨.hbm, 51, rfl⟩
abbrev main_call1_c_0 : Ref sig .tc := ⟨.hbm, 52, rfl⟩
abbrev main_call1_v1 : Ref sig .tc := ⟨.hbm, 53, rfl⟩
abbrev main_call1_v2 : Ref sig .tc := ⟨.hbm, 54, rfl⟩
abbrev main_call1_v3 : Ref sig .tc := ⟨.hbm, 55, rfl⟩
abbrev main_v35 : Ref sig .tc := ⟨.hbm, 56, rfl⟩
abbrev main_c_5 : Ref sig .tc := ⟨.hbm, 57, rfl⟩
abbrev main_v36 : Ref sig .tc := ⟨.hbm, 58, rfl⟩
abbrev main_v37 : Ref sig .tc := ⟨.hbm, 59, rfl⟩
abbrev main_c_6 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_7 : Ref sig .tc := ⟨.hbm, 79, rfl⟩
abbrev main_v56 : Ref sig .tc := ⟨.hbm, 80, rfl⟩
abbrev main_v57 : Ref sig .tc := ⟨.hbm, 81, rfl⟩
abbrev main_cst_8 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_9 : Ref sig .tc := ⟨.hbm, 89, rfl⟩
abbrev main_v64 : Ref sig .tc := ⟨.hbm, 90, rfl⟩
abbrev main_v65 : Ref sig .tc := ⟨.hbm, 91, rfl⟩
abbrev main_cst_10 : Ref sig .tc := ⟨.hbm, 92, rfl⟩
abbrev main_v66 : Ref sig .tc := ⟨.hbm, 93, rfl⟩
abbrev main_v67 : Ref sig .tc := ⟨.hbm, 94, rfl⟩
abbrev main_cst_11 : Ref sig .tc := ⟨.hbm, 95, rfl⟩
abbrev main_call2_v0 : Ref sig .tc := ⟨.hbm, 96, rfl⟩
abbrev main_call2_v1 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_c_12 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_call3_c : Ref sig .tc := ⟨.hbm, 108, rfl⟩
abbrev main_call3_v0 : Ref sig .tc := ⟨.hbm, 109, rfl⟩
abbrev main_call3_v1 : Ref sig .tc := ⟨.hbm, 110, rfl⟩
abbrev main_call3_c_0 : Ref sig .tc := ⟨.hbm, 111, rfl⟩
abbrev main_call3_v2 : Ref sig .tc := ⟨.hbm, 112, rfl⟩
abbrev main_call3_v3 : Ref sig .tc := ⟨.hbm, 113, rfl⟩
abbrev main_call3_v4 : Ref sig .tc := ⟨.hbm, 114, rfl⟩
abbrev main_call3_c_1 : Ref sig .tc := ⟨.hbm, 115, rfl⟩
abbrev main_call3_c_2 : Ref sig .tc := ⟨.hbm, 116, rfl⟩
abbrev main_call3_v5 : Ref sig .tc := ⟨.hbm, 117, rfl⟩
abbrev main_call3_v6 : Ref sig .tc := ⟨.hbm, 118, rfl⟩
abbrev main_call3_v7 : Ref sig .tc := ⟨.hbm, 119, rfl⟩
abbrev main_call3_v8 : Ref sig .tc := ⟨.hbm, 120, rfl⟩
abbrev main_call3_v9 : Ref sig .tc := ⟨.hbm, 121, rfl⟩
abbrev main_call3_v10 : Ref sig .tc := ⟨.hbm, 122, rfl⟩
abbrev main_call3_c_3 : Ref sig .tc := ⟨.hbm, 123, rfl⟩
abbrev main_call3_v11 : Ref sig .tc := ⟨.hbm, 124, rfl⟩
abbrev main_call3_v12 : Ref sig .tc := ⟨.hbm, 125, rfl⟩
abbrev main_call3_v13 : Ref sig .tc := ⟨.hbm, 126, rfl⟩
abbrev main_call3_cst : Ref sig .tc := ⟨.hbm, 127, rfl⟩
abbrev main_call3_v14 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_cst_13 : Ref sig .tc := ⟨.hbm, 134, rfl⟩
abbrev main_v82 : Ref sig .tc := ⟨.hbm, 135, rfl⟩

abbrev nD : Nat := 1
abbrev τ : Topo := Topo.v7x

variable {F : FTy → Type} [FloatOps F]

class Facts₀ : Prop where
  bcast_S2_S1x1x2_2 : S2.BroadcastsInDim S1x1x2 (![2] : Fin 1 → Fin S1x1x2.rank)
  bcast_S1x1x2_S8x32768x2_0_1_2 : S1x1x2.BroadcastsInDim S8x32768x2 (![0, 1, 2] : Fin 3 → Fin S8x32768x2.rank)
  slices_S8x32768x2_S8x32768x1_0_0_0 : S8x32768x2.Slices ![0, 0, 0] S8x32768x1
  shapeCasts_S8x32768x1_S8x32768 : S8x32768x1.ShapeCasts S8x32768
  slices_S8x32768x2_S8x32768x1_0_0_1 : S8x32768x2.Slices ![0, 0, 1] S8x32768x1
  bcast_S_S8x32768 : S_.BroadcastsInDim S8x32768 (![] : Fin 0 → Fin S8x32768.rank)
  bcast_S8x32768_S8x32768x1_0_1 : S8x32768.BroadcastsInDim S8x32768x1 (![0, 1] : Fin 2 → Fin S8x32768x1.rank)
  concatenates_S8x32768x1_S8x32768x1_S8x32768x1_S8x32768x1_S8x32768x4_d2 : Shape.Concatenates [S8x32768x1, S8x32768x1, S8x32768x1, S8x32768x1] S8x32768x4 2
  bcast_S_S8x32768x4 : S_.BroadcastsInDim S8x32768x4 (![] : Fin 0 → Fin S8x32768x4.rank)
  bcast_S8x32768x1_S8x32768x4_0_1_2 : S8x32768x1.BroadcastsInDim S8x32768x4 (![0, 1, 2] : Fin 3 → Fin S8x32768x4.rank)
  reducesTo_S8x32768x4_S8x32768_d2 : S8x32768x4.ReducesTo [2] S8x32768
  h_S_ : 0 < S_.numel
  bcast_S_S8x32768x1 : S_.BroadcastsInDim S8x32768x1 (![] : Fin 0 → Fin S8x32768x1.rank)
  transposes_S8x128x128x128_S8x128x128x128_0_2_3_1 : S8x128x128x128.Transposes [0, 2, 3, 1] S8x128x128x128
  shapeCasts_S8x128x128x128_S8x16384x128 : S8x128x128x128.ShapeCasts S8x16384x128
  shapeCasts_S8x32768x4_S8x131072x1 : S8x32768x4.ShapeCasts S8x131072x1
  bcast_S_S8x131072x1 : S_.BroadcastsInDim S8x131072x1 (![] : Fin 0 → Fin S8x131072x1.rank)
  bcast_S1_S1x1x1_2 : S1.BroadcastsInDim S1x1x1 (![2] : Fin 1 → Fin S1x1x1.rank)
  bcast_S1x1x1_S8x131072x1_0_1_2 : S1x1x1.BroadcastsInDim S8x131072x1 (![0, 1, 2] : Fin 3 → Fin S8x131072x1.rank)
  reducesTo_S8x131072x1_S8x131072_d2 : S8x131072x1.ReducesTo [2] S8x131072
  bcast_S8x131072_S8x131072x128_0_1 : S8x131072.BroadcastsInDim S8x131072x128 (![0, 1] : Fin 2 → Fin S8x131072x128.rank)
  bcast_S_S8x131072x128 : S_.BroadcastsInDim S8x131072x128 (![] : Fin 0 → Fin S8x131072x128.rank)
  shapeCasts_S8x131072x128_S8x32768x4x128 : S8x131072x128.ShapeCasts S8x32768x4x128
  bcast_S8x32768x4_S8x32768x4x1_0_1_2 : S8x32768x4.BroadcastsInDim S8x32768x4x1 (![0, 1, 2] : Fin 3 → Fin S8x32768x4x1.rank)
  bcast_S8x32768x4x1_S8x32768x4x128_0_1_2_3 : S8x32768x4x1.BroadcastsInDim S8x32768x4x128 (![0, 1, 2, 3] : Fin 4 → Fin S8x32768x4x128.rank)
  reducesTo_S8x32768x4x128_S8x32768x128_d2 : S8x32768x4x128.ReducesTo [2] S8x32768x128
  gather_S8x16384x128_S8x131072x1_S8x131072x128_2_1_0_0_1_2_11128_wf : GatherDims.WF S8x16384x128 S8x131072x1 S8x131072x128 [2] [1] [0] [1] [0] 2 ![1, 1, 128]

variable [Facts₀]

def gather_S8x16384x128_S8x131072x1_S8x131072x128_2_1_0_0_1_2_11128 : GatherDims S8x16384x128 S8x131072x1 S8x131072x128 where
  offsetDims := [2]
  collapsedSliceDims := [1]
  operandBatchingDims := [0]
  startIndicesBatchingDims := [0]
  startIndexMap := [1]
  indexVectorDim := 2
  sliceSizes := ![1, 1, 128]
  wf := gather_S8x16384x128_S8x131072x1_S8x131072x128_2_1_0_0_1_2_11128_wf

class Facts : Prop extends Facts₀ where

variable [Facts]
-- ==== Proof.Spec.lean ====
import Idealize.ShloMosaic.PureOps.Ideal
import Idealize.ShloMosaic.PureOps.Ideal.Laws
import Idealize.ShloMosaic.Lib.ValueIdx
import Idealize.ShloMosaic.Lib.IdealHost

/-!
The common value of the two programs, point by point.

A point `(x, y)` of batch `b` has four corners: `x` rounded down or up, `y` rounded down or up, each rounded
coordinate taken to an integer word, reduced modulo 128 with the sign of the dividend and clamped below at 0, so
that it lies in `0 … 127`. Corner `k` has raw weight `[point inside the grid] / (distance to the corner + ε)`;
the weights are normalised by their sum (by 1 when the sum is 0). The result at channel `c` is the weighted sum over
the four corners of the feature at row `gy · 128 + gx` of the batch's feature table, the table being the grid with
its channel axis moved last and its two spatial axes merged.
-/

noncomputable section

namespace Cert.Spec

open Idealize.ShloMosaic Idealize.ShloMosaic.ValueIdx

abbrev STk : Shape := ⟨3, ![8, 32768, 2]⟩
abbrev SFg : Shape := ⟨4, ![8, 128, 128, 128]⟩
abbrev SOut : Shape := ⟨3, ![8, 32768, 128]⟩

/-- The float literals both programs share, as the extended reals their patterns denote. -/
def zeroF : EReal := Ideal.ofBits .f32 0x00000000#32
def oneF : EReal := Ideal.ofBits .f32 0x3F800000#32
def hiF : EReal := Ideal.ofBits .f32 0x42FE0000#32
def epsF : EReal := Ideal.ofBits .f32 0x2EDBE6FF#32

/-- Rounding down and up. -/
def fl (v : EReal) : EReal := Ideal.liftRound Int.floor v
def cl (v : EReal) : EReal := Ideal.liftRound Int.ceil v

/-- A rounded coordinate as a grid coordinate: to an integer word, remainder by 128, clamped below at 0. -/
def wrap (v : EReal) : BitVec 32 := IntOp.maxsi ((Ideal.fptosi 32 v).srem 128#32) 0#32

/-- The point lies inside the grid: `0 ≤ x ≤ 127` and `0 ≤ y ≤ 127`, as a one-bit word. -/
def inb (x y : EReal) : BitVec 1 :=
  IntOp.andi (IntOp.andi (IntOp.andi (Ideal.cmp .oge x zeroF) (Ideal.cmp .oge y zeroF)) (Ideal.cmp .ole x hiF))
    (Ideal.cmp .ole y hiF)

/-- … as 0 or 1. -/
def inbF (x y : EReal) : EReal := (((inb x y).toNat : ℝ) : EReal)

/-- The four corners' rounded coordinates, in the order (↓,↓), (↓,↑), (↑,↓), (↑,↑) on (x, y). -/
def cx (x : EReal) : Fin 4 → EReal := ![fl x, fl x, cl x, cl x]
def cy (y : EReal) : Fin 4 → EReal := ![fl y, cl y, fl y, cl y]

def gx (x : EReal) (k : Fin 4) : BitVec 32 := wrap (cx x k)
def gy (y : EReal) (k : Fin 4) : BitVec 32 := wrap (cy y k)

/-- A signed integer word as a real. -/
def toF (b : BitVec 32) : EReal := ((b.toInt : ℝ) : EReal)

/-- The distance from the point to corner `k`, plus ε. -/
def dist (x y : EReal) (k : Fin 4) : EReal :=
  Ideal.sqrt ((x - toF (gx x k)) * (x - toF (gx x k)) + (y - toF (gy y k)) * (y - toF (gy y k))) + epsF

/-- Corner `k`'s raw weight. -/
def raw (x y : EReal) (k : Fin 4) : EReal := inbF x y * Ideal.div oneF (dist x y k)

/-- The sum of the raw weights, and the normaliser: 1 where the sum is 0. -/
def den (x y : EReal) : EReal := ∑ k : Fin 4, raw x y k
def den' (x y : EReal) : EReal := Scalar.select (Ideal.cmp .oeq (den x y) zeroF) oneF (den x y)

/-- Corner `k`'s weight. -/
def wt (x y : EReal) (k : Fin 4) : EReal := Ideal.div (raw x y k) (den' x y)

/-- Corner `k`'s row in the feature table, as a word. -/
def flat (x y : EReal) (k : Fin 4) : BitVec 32 := gy y k * 128#32 + gx x k

/-- The feature table of batch `b`: row `h · 128 + w`, column `c` is `fg[b, c, h, w]`. -/
def fgT (fg : SFg.Idx → EReal) (b : Fin 8) (hw : Fin 16384) (c : Fin 128) : EReal :=
  fg (ix4 b c ⟨hw.val / 128, by have := hw.isLt; omega⟩ ⟨hw.val % 128, Nat.mod_lt _ (by norm_num)⟩)

/-! ### The grid coordinates are in range, so the row is a row of the table -/

/-- A signed remainder by 128, clamped below at 0, lies in `0 … 127`. -/
theorem clamp_rem (a : BitVec 32) :
    (IntOp.maxsi (a.srem 128#32) 0#32).toNat < 128 ∧
      (IntOp.maxsi (a.srem 128#32) 0#32).toInt = ((IntOp.maxsi (a.srem 128#32) 0#32).toNat : Int) := by
  have hr : (a.srem 128#32).toInt = a.toInt.tmod 128 := by
    rw [BitVec.toInt_srem]; rfl
  have hlt : (a.srem 128#32).toInt < 128 := by
    rw [hr]; exact Int.tmod_lt_of_pos _ (by norm_num)
  unfold IntOp.maxsi
  by_cases h : (0#32).slt (a.srem 128#32) = true
  · rw [if_pos h]
    have hpos : 0 < (a.srem 128#32).toInt := by
      have := (BitVec.slt_iff_toInt_lt).mp h
      simpa using this
    have hcond := BitVec.toInt_eq_toNat_cond (a.srem 128#32)
    have hN := (a.srem 128#32).isLt
    split at hcond <;> constructor <;> omega
  · rw [if_neg h]
    exact ⟨by decide, by decide⟩

theorem wrap_toNat_lt (v : EReal) : (wrap v).toNat < 128 := (clamp_rem _).1

theorem wrap_toInt (v : EReal) : (wrap v).toInt = ((wrap v).toNat : Int) := (clamp_rem _).2

theorem flat_toNat (x y : EReal) (k : Fin 4) : (flat x y k).toNat = (gy y k).toNat * 128 + (gx x k).toNat := by
  have h1 := wrap_toNat_lt (cy y k); have h2 := wrap_toNat_lt (cx x k)
  unfold flat gy gx
  rw [BitVec.toNat_add, BitVec.toNat_mul]
  simp only [BitVec.toNat_ofNat]
  omega

theorem flat_lt (x y : EReal) (k : Fin 4) : (flat x y k).toNat < 16384 := by
  rw [flat_toNat]; have h1 := wrap_toNat_lt (cy y k); have h2 := wrap_toNat_lt (cx x k); unfold gy gx; omega

theorem flat_toInt (x y : EReal) (k : Fin 4) : (flat x y k).toInt = ((flat x y k).toNat : Int) := by
  have h := flat_lt x y k
  have hcond := BitVec.toInt_eq_toNat_cond (flat x y k)
  split at hcond <;> omega

/-- Corner `k`'s row in the feature table. -/
def row (x y : EReal) (k : Fin 4) : Fin 16384 := ⟨(flat x y k).toNat, flat_lt x y k⟩

/-- Clamping the row word to `0 … 16383` changes nothing. -/
theorem clip_flat (x y : EReal) (k : Fin 4) :
    IntOp.minsi 16383#32 (IntOp.maxsi 0#32 (flat x y k)) = flat x y k := by
  have h := flat_lt x y k
  have hi := flat_toInt x y k
  have h1 : ¬ ((flat x y k).slt 0#32 = true) := by
    rw [BitVec.slt_iff_toInt_lt]; simp only [BitVec.toInt_zero]; omega
  have e1 : IntOp.maxsi 0#32 (flat x y k) = flat x y k := by
    unfold IntOp.maxsi; rw [if_neg h1]
  rw [e1]
  have h2 : ¬ ((16383#32 : BitVec 32).slt (flat x y k) = true) := by
    rw [BitVec.slt_iff_toInt_lt]
    have : (16383#32 : BitVec 32).toInt = 16383 := by decide
    omega
  unfold IntOp.minsi; rw [if_neg h2]

/-! ### The weights are not negative -/

theorem zeroF_eq : zeroF = 0 := Ideal.ofBits_zero_f32

theorem oneF_eq : oneF = 1 := Ideal.ofBits_one_f32

/-- ε is a positive real. -/
theorem epsF_pos : 0 < epsF := by
  simp [epsF, Ideal.ofBits, Ideal.ieee, -EReal.coe_mul]

/-- A square is not negative, at the infinities too. -/
theorem mul_self_nonneg' (a : EReal) : 0 ≤ a * a := by
  induction a using EReal.rec with
  | bot => simp
  | top => simp
  | coe r => rw [← EReal.coe_mul]; exact EReal.coe_nonneg.mpr (mul_self_nonneg r)

/-- The square root of a value that is not negative is not negative. -/
theorem sqrt_nonneg' {s : EReal} (hs : 0 ≤ s) : 0 ≤ Ideal.sqrt s := by
  induction s using EReal.rec with
  | bot => simp at hs
  | top => simp
  | coe r =>
    have hr : 0 ≤ r := EReal.coe_nonneg.mp hs
    rw [Ideal.sqrt_coe, if_neg (not_lt.mpr hr)]
    exact EReal.coe_nonneg.mpr (Real.sqrt_nonneg r)

theorem dist_pos (x y : EReal) (k : Fin 4) : 0 < dist x y k := by
  unfold dist
  exact Right.add_pos_of_nonneg_of_pos (sqrt_nonneg' (add_nonneg (mul_self_nonneg' _) (mul_self_nonneg' _))) epsF_pos

theorem inbF_nonneg (x y : EReal) : 0 ≤ inbF x y := by
  unfold inbF; exact EReal.coe_nonneg.mpr (Nat.cast_nonneg _)

/-- The quotient of a value that is not negative by a positive one is not negative. -/
theorem div_nonneg' {a d : EReal} (ha : 0 ≤ a) (hd : 0 < d) : 0 ≤ Ideal.div a d := by
  unfold Ideal.div; rw [if_neg hd.ne']
  exact mul_nonneg ha (EReal.inv_nonneg_of_nonneg hd.le)

theorem raw_nonneg (x y : EReal) (k : Fin 4) : 0 ≤ raw x y k := by
  unfold raw
  exact mul_nonneg (inbF_nonneg x y) (div_nonneg' (by rw [oneF_eq]; exact zero_le_one) (dist_pos x y k))

theorem den_nonneg (x y : EReal) : 0 ≤ den x y := Finset.sum_nonneg fun k _ => raw_nonneg x y k

theorem den'_pos (x y : EReal) : 0 < den' x y := by
  unfold den'
  by_cases h : den x y = zeroF
  · have : Ideal.cmp .oeq (den x y) zeroF = 1#1 := by simp [Ideal.cmp, h]
    rw [this]; simp only [Scalar.select]; rw [oneF_eq]; simp
  · have : Ideal.cmp .oeq (den x y) zeroF = 0#1 := by simp [Ideal.cmp, h]
    rw [this]; simp only [Scalar.select]
    rw [zeroF_eq] at h
    exact lt_of_le_of_ne (den_nonneg x y) (Ne.symm h)

theorem wt_nonneg (x y : EReal) (k : Fin 4) : 0 ≤ wt x y k :=
  div_nonneg' (raw_nonneg x y k) (den'_pos x y)

/-! ### The common value -/

/-- The result at batch `b`, point `p`, channel `c`. -/
def Gval (tk : STk.Idx → EReal) (fg : SFg.Idx → EReal) (b : Fin 8) (p : Fin 32768) (c : Fin 128) : EReal :=
  ∑ k : Fin 4, wt (tk (ix3 b p 0)) (tk (ix3 b p 1)) k * fgT fg b (row (tk (ix3 b p 0)) (tk (ix3 b p 1)) k) c

/-- The result array. -/
def G (tk : STk.Idx → EReal) (fg : SFg.Idx → EReal) : SOut.Idx → EReal := fun i => Gval tk fg (i 0) (i 1) (i 2)

end Cert.Spec

end
-- ==== Proof.KernelPoint.lean ====
import proofs.«427828_j9345848836388_3_alg».proof.Proof.Gen.KernelIdeal.Loops
import proofs.«427828_j9345848836388_3_alg».proof.Proof.Spec
import Idealize.ShloMosaic.Lib.ValueIdx
import Idealize.ShloMosaic.Lib.Pipeline.Value
import Idealize.ShloMosaic.PureOps.Ideal.Laws
import Idealize.ShloMosaic.Lib.WholeRead
import Idealize.ShloMosaic.Lib.ValueLayout

/-!
One grid point of the kernel, as values.

From the point block (2048 points, x and y) the kernel computes, per point, the four corners' rows in the feature
table and their weights; then it walks the table in 64 chunks of 256 rows, and for each chunk multiplies the
2048 × 256 matrix "the weight of every corner whose row is this one, else 0" by the chunk, adding the products up.
Every row lies in exactly one chunk, the weights are not negative, so the sum over the chunks is, per point and
channel, the sum over the four corners of weight times the table's row.
-/

noncomputable section

namespace Cert.KernelIdeal.Point

open Cert.KernelIdeal Cert.KernelIdeal.Gen Cert.Spec Idealize.ShloMosaic Idealize.ShloMosaic.TcCoe Idealize.ShloMosaic.ValueIdx

/-- The corners' rows and weights as the kernel's body computes them from the point block `v3`. -/
abbrev idx0 (v3 : Vec Ideal S1x2048x2 .f32) : IVec S2048 32 := k0_pay16 (k0_pay13 v3) (k0_pay14 v3)
abbrev idx1 (v3 : Vec Ideal S1x2048x2 .f32) : IVec S2048 32 := k0_pay22 (k0_pay17 (k0_pay9 v3)) (k0_pay18 (k0_pay12 v3))
abbrev idx2 (v3 : Vec Ideal S1x2048x2 .f32) : IVec S2048 32 := k0_pay26 (k0_pay10 v3) (k0_pay11 v3)
abbrev idx3 (v3 : Vec Ideal S1x2048x2 .f32) : IVec S2048 32 := k0_pay31 (k0_pay12 v3) (k0_pay27 (k0_pay10 v3))
abbrev raw0 (v3 : Vec Ideal S1x2048x2 .f32) : FVec Ideal S2048 .f32 := k0_pay15 (k0_pay6 v3) (k0_pay7 v3) (k0_pay8 v3) (k0_pay13 v3) (k0_pay14 v3)
abbrev raw1 (v3 : Vec Ideal S1x2048x2 .f32) : FVec Ideal S2048 .f32 := k0_pay21 (k0_pay8 v3) (k0_pay19 (k0_pay6 v3) (k0_pay7 v3) (k0_pay9 v3) (k0_pay12 v3)) k0_pay20
abbrev raw2 (v3 : Vec Ideal S1x2048x2 .f32) : FVec Ideal S2048 .f32 := k0_pay25 (k0_pay6 v3) (k0_pay7 v3) (k0_pay8 v3) (k0_pay10 v3) (k0_pay11 v3)
abbrev wgt0 (v3 : Vec Ideal S1x2048x2 .f32) : FVec Ideal S2048 .f32 := k0_pay33 (k0_pay6 v3) (k0_pay7 v3) (k0_pay8 v3) (k0_pay12 v3) (raw0 v3) (raw1 v3) (raw2 v3) (k0_pay27 (k0_pay10 v3))
abbrev wgt1 (v3 : Vec Ideal S1x2048x2 .f32) : FVec Ideal S2048 .f32 := k0_pay34 (k0_pay6 v3) (k0_pay7 v3) (k0_pay8 v3) (k0_pay12 v3) (raw0 v3) (raw1 v3) (raw2 v3) (k0_pay27 (k0_pay10 v3))
abbrev wgt2 (v3 : Vec Ideal S1x2048x2 .f32) : FVec Ideal S2048 .f32 := k0_pay35 (k0_pay6 v3) (k0_pay7 v3) (k0_pay8 v3) (k0_pay12 v3) (raw0 v3) (raw1 v3) (raw2 v3) (k0_pay27 (k0_pay10 v3))
abbrev wgt3 (v3 : Vec Ideal S1x2048x2 .f32) : FVec Ideal S2048 .f32 := k0_pay36 (k0_pay6 v3) (k0_pay7 v3) (k0_pay8 v3) (k0_pay12 v3) (raw0 v3) (raw1 v3) (raw2 v3) (k0_pay27 (k0_pay10 v3))

/-! ### Layout operations read at an index -/

/-- A vector viewed as a one-column matrix reads the vector's entry. -/
theorem col_apply {α : Type} {n : Nat} (v : (⟨1, ![n]⟩ : Shape).Idx → α)
    (h : (⟨1, ![n]⟩ : Shape).ShapeCasts ⟨2, ![n, 1]⟩) (p : Fin n) (z : Fin 1) :
    shapeCast ⟨2, ![n, 1]⟩ v h (ix2 p z) = v (ix1 p) := by
  refine shapeCast_apply v h (ix2 p z) (ix1 p) ?_
  rw [Shape.rowMajor_val_two, Shape.rowMajor_val_one]
  show p.val = p.val * 1 + z.val
  have := z.isLt
  omega

/-- A one-column matrix spread over the columns reads its row's entry. -/
theorem spread_apply {α : Type} {n m : Nat} (u : (⟨2, ![n, 1]⟩ : Shape).Idx → α)
    (h : (⟨2, ![n, 1]⟩ : Shape).Broadcasts ⟨2, ![n, m]⟩) (p : Fin n) (j : Fin m) :
    broadcastTo ⟨2, ![n, m]⟩ u h (ix2 p j) = u (ix2 p (0 : Fin 1)) := by
  refine broadcastTo_apply u h (ix2 p j) (ix2 p (0 : Fin 1)) fun a => ?_
  match a with
  | ⟨0, _⟩ =>
    show p.val = if n = 1 then 0 else p.val
    split
    · have := p.isLt; omega
    · rfl
  | ⟨1, _⟩ => rfl

/-- A vector spread along the rows of a matrix: the chain "one column, then over the columns". -/
theorem rowwise_apply {α : Type} (v : S2048.Idx → α) (h1 : S2048.ShapeCasts S2048x1) (h2 : S2048x1.Broadcasts S2048x256)
    (p : Fin 2048) (j : Fin 256) :
    broadcastTo S2048x256 (shapeCast S2048x1 v h1) h2 (ix2 p j) = v (ix1 p) := by
  rw [spread_apply, col_apply]

theorem rowwise_apply' {α : Type} (v : S2048.Idx → α) (h1 : S2048.ShapeCasts S2048x1) (h1' : S2048x1.ShapeCasts S2048x1)
    (h2 : S2048x1.Broadcasts S2048x256) (p : Fin 2048) (j : Fin 256) :
    broadcastTo S2048x256 (shapeCast S2048x1 (shapeCast S2048x1 v h1) h1') h2 (ix2 p j) = v (ix1 p) := by
  rw [shapeCast_self, spread_apply, col_apply]

/-! ### The product of the selection matrix and a chunk -/

section
open Facts₀

theorem dot_lhs0 (j : S2048x128.Idx) (q : dot_S2048x256_S256x128_S2048x128_1_0_0_1_n_n.contr.Idx) :
    (dot_S2048x256_S256x128_S2048x128_1_0_0_1_n_n.lhsIdx j q 0).val = (j 0).val := by
  simp [DotDims.lhsIdx, dot_S2048x256_S256x128_S2048x128_1_0_0_1_n_n]; rfl

theorem dot_lhs1 (j : S2048x128.Idx) (q : dot_S2048x256_S256x128_S2048x128_1_0_0_1_n_n.contr.Idx) :
    (dot_S2048x256_S256x128_S2048x128_1_0_0_1_n_n.lhsIdx j q 1).val = (q ⟨0, by decide⟩).val :=
  DotDims.lhsIdx_val_of_single _ rfl j q

theorem dot_rhs0 (j : S2048x128.Idx) (q : dot_S2048x256_S256x128_S2048x128_1_0_0_1_n_n.contr.Idx) :
    (dot_S2048x256_S256x128_S2048x128_1_0_0_1_n_n.rhsIdx j q 0).val = (q ⟨0, by decide⟩).val :=
  DotDims.rhsIdx_val_of_single _ rfl j q

theorem dot_rhs1 (j : S2048x128.Idx) (q : dot_S2048x256_S256x128_S2048x128_1_0_0_1_n_n.contr.Idx) :
    (dot_S2048x256_S256x128_S2048x128_1_0_0_1_n_n.rhsIdx j q 1).val = (j 1).val := by
  simp [DotDims.rhsIdx, dot_S2048x256_S256x128_S2048x128_1_0_0_1_n_n]; rfl

/-- The matrix product into the zero matrix, read at an entry: the sum over the 256 shared coordinates. -/
theorem matmul_at {φ₁ φ₂ : FTy} (A : FVec Ideal S2048x256 φ₁) (B : FVec Ideal S256x128 φ₂) (p : Fin 2048) (cc : Fin 128) :
    matmul dot_S2048x256_S256x128_S2048x128_1_0_0_1_n_n none A B (constant (F := Ideal) S2048x128 .f32 0x00000000#32) (ix2 p cc)
      = ∑ j : Fin 256, A (ix2 p j) * B (ix2 j cc) := by
  show FloatOps.matmul _ none A B _ (ix2 p cc) = _
  rw [Ideal.matmul_constant_zero_apply,
    ← Equiv.sum_comp (contrEquiv1 dot_S2048x256_S256x128_S2048x128_1_0_0_1_n_n 256 rfl rfl).symm]
  refine Finset.sum_congr rfl fun j _ => ?_
  have hq := contrEquiv1_symm_val dot_S2048x256_S256x128_S2048x128_1_0_0_1_n_n 256 rfl rfl j
  have hl : dot_S2048x256_S256x128_S2048x128_1_0_0_1_n_n.lhsIdx (ix2 p cc)
      ((contrEquiv1 dot_S2048x256_S256x128_S2048x128_1_0_0_1_n_n 256 rfl rfl).symm j) = ix2 p j := by
    funext ax; apply Fin.ext
    match ax with
    | ⟨0, _⟩ => exact dot_lhs0 _ _
    | ⟨1, _⟩ => exact (dot_lhs1 _ _).trans hq
  have hr : dot_S2048x256_S256x128_S2048x128_1_0_0_1_n_n.rhsIdx (ix2 p cc)
      ((contrEquiv1 dot_S2048x256_S256x128_S2048x128_1_0_0_1_n_n 256 rfl rfl).symm j) = ix2 j cc := by
    funext ax; apply Fin.ext
    match ax with
    | ⟨0, _⟩ => exact (dot_rhs0 _ _).trans hq
    | ⟨1, _⟩ => exact dot_rhs1 _ _
  rw [hl, hr]

end

/-! ### One trip's payload at an entry -/

theorem cmpi_at {s : Shape} {w : Nat} (pr : CmpIPredicate) (a b : IVec s w) (i : s.Idx) :
    cmpi pr a b i = IntOp.cmpi pr (a i) (b i) := rfl
theorem addi_at {s : Shape} {w : Nat} (a b : IVec s w) (i : s.Idx) : addi a b i = IntOp.addi (a i) (b i) := rfl

/-- The column counter reads the column's number. -/
theorem iota_at (h : S2048x256.Iotas .tc 32 [1]) (p : Fin 2048) (j : Fin 256) :
    iota .tc S2048x256 32 [1] h (ix2 p j) = BitVec.ofNat 32 j.val :=
  iota_single_apply .tc S2048x256 32 1 h (ix2 p j)

/-- One corner's entry of the selection matrix: the corner's weight where its row word is the target word, else zero. -/
def pick (i t : BitVec 32) (w : EReal) : EReal :=
  Scalar.select (IntOp.cmpi .eq i t) w (Ideal.ofBits .f32 0x00000000#32)

/-- The row word trip `k`'s column `j` stands for. -/
def tgt (k : Fin k0_t1_loop.trips) (j : Fin 256) : BitVec 32 :=
  IntOp.addi (Scalar.muli (Scf.iv 0#32 1#32 k) 256#32) (BitVec.ofNat 32 j.val)

/-- Trip `k`'s yield at `(p, cc)`: the carried value plus the selection matrix's row `p` times the chunk's column. -/
theorem pay2_apply (i0 i1 i2 i3 : IVec S2048 32) (w0 w1 w2 w3 : FVec Ideal S2048 .f32) (k : Fin k0_t1_loop.trips)
    (acc : FVec Ideal S2048x128 .f32) (v : Vec Ideal S256x128 .f32) (p : Fin 2048) (cc : Fin 128) :
    k0_pay2 i0 i1 i2 i3 w0 w1 w2 w3 k acc v (ix2 p cc)
      = acc (ix2 p cc) + ∑ j : Fin 256,
          ((((Ideal.ofBits .f32 0x00000000#32 + pick (i0 (ix1 p)) (tgt k j) (w0 (ix1 p))) + pick (i1 (ix1 p)) (tgt k j) (w1 (ix1 p)))
            + pick (i2 (ix1 p)) (tgt k j) (w2 (ix1 p))) + pick (i3 (ix1 p)) (tgt k j) (w3 (ix1 p))) * v (ix2 j cc) := by
  unfold k0_pay2
  dsimp only
  rw [addf_apply, matmul_at]
  refine congrArg (acc (ix2 p cc) + ·) (Finset.sum_congr rfl fun j _ => ?_)
  rw [truncf_apply, truncf_apply]
  simp only [addf_apply, select_apply, broadcast_apply, rowwise_apply, rowwise_apply', cmpi_at, addi_at]
  rw [iota_at]
  rfl

/-! ### The arithmetic of the chunks -/

theorem pick_eq (i t : BitVec 32) (w : EReal) : pick i t w = if i = t then w else 0 := by
  have hc : IntOp.cmpi .eq i t = BitVec.ofBool (i == t) := rfl
  unfold pick Scalar.select
  rw [hc, Ideal.ofBits_zero_f32]
  by_cases h : i = t
  · rw [if_pos h, h]; simp
  · rw [if_neg h, if_neg]
    rw [beq_eq_false_iff_ne.mpr h]; decide

theorem pick_nonneg (i t : BitVec 32) {w : EReal} (hw : 0 ≤ w) : 0 ≤ pick i t w := by
  rw [pick_eq]; split
  · exact hw
  · exact le_rfl

/-- A row of the selection matrix times a chunk entry: the four corners' terms apart (the terms are not negative). -/
theorem four_mul {a b c d X : EReal} (ha : 0 ≤ a) (hb : 0 ≤ b) (hc : 0 ≤ c) (hd : 0 ≤ d) :
    ((((Ideal.ofBits .f32 0x00000000#32 + a) + b) + c) + d) * X = ((a * X + b * X) + c * X) + d * X := by
  rw [Ideal.ofBits_zero_f32, zero_add, EReal.right_distrib_of_nonneg (add_nonneg (add_nonneg ha hb) hc) hd,
    EReal.right_distrib_of_nonneg (add_nonneg ha hb) hc, EReal.right_distrib_of_nonneg ha hb]

theorem trip_lt (k : Fin k0_t1_loop.trips) : k.val < 64 := Nat.lt_of_lt_of_le k.isLt k0_t1_abs.2.1

/-- The target word of trip `k`, column `j` is the number `256 k + j`. -/
theorem tgt_toNat (k : Fin k0_t1_loop.trips) (j : Fin 256) : (tgt k j).toNat = 256 * k.val + j.val := by
  have hk := trip_lt k
  have hj := j.isLt
  unfold tgt IntOp.addi Scalar.muli IntOp.muli Scf.iv
  bv_omega

/-- The row of the table that trip `k`'s chunk holds at its row `j`. -/
def chunkRow (k : Fin k0_t1_loop.trips) (j : Fin 256) : Fin 16384 :=
  ⟨256 * k.val + j.val, by have := trip_lt k; have := j.isLt; omega⟩

/-- One corner's column of the selection matrix against one chunk: the corner's term where its row lies in the chunk. -/
theorem chunk_sum (i : BitVec 32) (hi : i.toNat < 16384) (k : Fin k0_t1_loop.trips) (w : EReal) (g : Fin 16384 → EReal) :
    ∑ j : Fin 256, pick i (tgt k j) w * g (chunkRow k j)
      = if 256 * k.val ≤ i.toNat ∧ i.toNat < 256 * (k.val + 1) then w * g ⟨i.toNat, hi⟩ else 0 := by
  have hk := trip_lt k
  have hcond : ∀ j : Fin 256, i = tgt k j ↔ i.toNat = 256 * k.val + j.val := fun j => by
    rw [← tgt_toNat k j]; exact BitVec.toNat_inj.symm
  by_cases h : 256 * k.val ≤ i.toNat ∧ i.toNat < 256 * (k.val + 1)
  · rw [if_pos h, Finset.sum_eq_single (⟨i.toNat - 256 * k.val, by omega⟩ : Fin 256)]
    · rw [pick_eq, if_pos ((hcond _).mpr (by show i.toNat = 256 * k.val + (i.toNat - 256 * k.val); omega))]
      congr 2
      apply Fin.ext
      show 256 * k.val + (i.toNat - 256 * k.val) = i.toNat
      omega
    · intro j _ hj
      rw [pick_eq, if_neg, zero_mul]
      intro he
      apply hj
      apply Fin.ext
      have := (hcond j).mp he
      show j.val = i.toNat - 256 * k.val
      omega
    · intro hn; exact absurd (Finset.mem_univ _) hn
  · rw [if_neg h]
    refine Finset.sum_eq_zero fun j _ => ?_
    rw [pick_eq, if_neg, zero_mul]
    intro he
    have := (hcond j).mp he
    have := j.isLt
    exact h ⟨by omega, by omega⟩

/-! ### One trip at an entry -/

/-- Trip `k` from the carried value `acc`, the scratch holding the table `xs`, at `(p, cc)`. -/
theorem trip_at (𝒱 : Variants) (c : Dev nD) (bd : Option 𝒱.V) (i : grid0.Coords)
    (arg2 : Memref sig .tc .vmem S1x2048x2 .f32) (harg2 : arg2.IsWhole) (arg3 : Memref sig .tc .vmem S1x128x128x128 .f32) (harg3 : arg3.IsWhole)
    (arg4 : Memref sig .tc .vmem S1x2048x128 .f32) (harg4 : arg4.IsWhole) (arg5 : Memref sig .tc .vmem S16384x128 .f32) (harg5 : arg5.IsWhole)
    (i0 i1 i2 i3 : IVec S2048 32) (w0 w1 w2 w3 : FVec Ideal S2048 .f32)
    (xs : Vec Ideal S16384x128 .f32) (k : Fin k0_t1_loop.trips) (acc : FVec Ideal S2048x128 .f32) (p : Fin 2048) (cc : Fin 128) :
    tripR_k0_t1 (F := Ideal) 𝒱 c bd i arg2 harg2 arg3 harg3 arg4 harg4 arg5 harg5 i0 i1 i2 i3 w0 w1 w2 w3 (harg5.unread xs) k acc (ix2 p cc)
      = acc (ix2 p cc) + ∑ j : Fin 256,
          ((((Ideal.ofBits .f32 0x00000000#32 + pick (i0 (ix1 p)) (tgt k j) (w0 (ix1 p))) + pick (i1 (ix1 p)) (tgt k j) (w1 (ix1 p)))
            + pick (i2 (ix1 p)) (tgt k j) (w2 (ix1 p))) + pick (i3 (ix1 p)) (tgt k j) (w3 (ix1 p))) * xs (ix2 (chunkRow k j) cc) := by
  unfold tripR_k0_t1 trip_k0_t1
  dsimp only
  rw [pay2_apply]
  refine congrArg (acc (ix2 p cc) + ·) (Finset.sum_congr rfl fun j _ => ?_)
  congr 1
  have hrd := harg5.readAt_unread xs
    (Rect.unit (s := S16384x128) (k0_off1 k) S256x128.size (Facts₀.k0_off1_inb k)).toLoadRect (ix2 j cc)
  refine hrd.trans (congrArg xs ?_)
  funext a
  apply Fin.ext
  match a with
  | ⟨0, _⟩ =>
    show k0_off1 k 0 + 1 * j.val = 256 * k.val + j.val
    rw [k0_off1_eq]
    show 256 * k.val + 1 * j.val = 256 * k.val + j.val
    omega
  | ⟨1, _⟩ =>
    show k0_off1 k 1 + 1 * cc.val = cc.val
    rw [k0_off1_eq]
    show 0 + 1 * cc.val = cc.val
    omega

/-! ### The point's coordinates, rows and weights -/

/-- A one-column matrix viewed as a vector reads the column's entry. -/
theorem uncol_apply {α : Type} {n : Nat} (u : (⟨2, ![n, 1]⟩ : Shape).Idx → α)
    (h : (⟨2, ![n, 1]⟩ : Shape).ShapeCasts ⟨1, ![n]⟩) (p : Fin n) :
    shapeCast ⟨1, ![n]⟩ u h (ix1 p) = u (ix2 p (0 : Fin 1)) := by
  refine shapeCast_apply u h (ix1 p) (ix2 p (0 : Fin 1)) ?_
  rw [Shape.rowMajor_val_two, Shape.rowMajor_val_one]
  show p.val * 1 + 0 = p.val
  omega

/-- The point's first coordinate. -/
theorem pay6_at (v3 : Vec Ideal S1x2048x2 .f32) (p : Fin 2048) : k0_pay6 v3 (ix1 p) = v3 (ix3 0 p 0) := by
  unfold k0_pay6 k0_pay5
  dsimp only
  rw [uncol_apply, slice2_axis1_apply 0 _ _ p (0 : Fin 1) (0 : Fin 2) rfl, shapeCast_1ab_ab_apply]

/-- The point's second coordinate. -/
theorem pay7_at (v3 : Vec Ideal S1x2048x2 .f32) (p : Fin 2048) : k0_pay7 v3 (ix1 p) = v3 (ix3 0 p 1) := by
  unfold k0_pay7 k0_pay5
  dsimp only
  rw [uncol_apply, slice2_axis1_apply 1 _ _ p (0 : Fin 1) (1 : Fin 2) rfl, shapeCast_1ab_ab_apply]

/-- The kernel's grid coordinate of a rounded coordinate is the specification's: the remainder's divisor is 128. -/
theorem wrap_eq (b : BitVec 32) :
    IntOp.maxsi (IntOp.remsi .vector b (Scalar.select (Scalar.cmpi .eq 128#32 0#32) 1#32 128#32)) 0#32
      = IntOp.maxsi (b.srem 128#32) 0#32 := by
  have h128 : Scalar.select (Scalar.cmpi .eq 128#32 0#32) 1#32 128#32 = 128#32 := by decide
  rw [h128]
  unfold IntOp.remsi
  rw [if_neg]
  rintro (h | ⟨_, h⟩) <;> exact absurd h (by decide)

theorem pay13_at (v3 : Vec Ideal S1x2048x2 .f32) (i : S2048.Idx) : k0_pay13 v3 i = wrap (fl (k0_pay6 v3 i)) :=
  wrap_eq (Ideal.fptosi 32 (fl (k0_pay6 v3 i)))
theorem pay14_at (v3 : Vec Ideal S1x2048x2 .f32) (i : S2048.Idx) : k0_pay14 v3 i = wrap (fl (k0_pay7 v3 i)) :=
  wrap_eq (Ideal.fptosi 32 (fl (k0_pay7 v3 i)))
theorem pay17_at (v : FVec Ideal S2048 .f32) (i : S2048.Idx) : k0_pay17 v i = wrap (v i) := wrap_eq (Ideal.fptosi 32 (v i))
theorem pay18_at (v : FVec Ideal S2048 .f32) (i : S2048.Idx) : k0_pay18 v i = wrap (v i) := wrap_eq (Ideal.fptosi 32 (v i))
theorem pay23_at (v : FVec Ideal S2048 .f32) (i : S2048.Idx) : k0_pay23 v i = wrap (v i) := wrap_eq (Ideal.fptosi 32 (v i))
theorem pay24_at (v : FVec Ideal S2048 .f32) (i : S2048.Idx) : k0_pay24 v i = wrap (v i) := wrap_eq (Ideal.fptosi 32 (v i))
theorem pay29_at (v : FVec Ideal S2048 .f32) (i : S2048.Idx) : k0_pay29 v i = wrap (v i) := wrap_eq (Ideal.fptosi 32 (v i))
theorem pay28_at (v : FVec Ideal S2048 .f32) (i : S2048.Idx) : k0_pay28 (k0_pay27 v) i = wrap (v i) :=
  wrap_eq (Ideal.fptosi 32 (v i))

/-- A one-bit word widened and read signed is the bit as a number. -/
theorem bit_toInt (b : BitVec 1) : (b.setWidth 32).toInt = (b.toNat : Int) := by
  rcases BitVec.eq_zero_or_eq_one b with rfl | rfl <;> decide

/-- The in-bounds factor. -/
theorem pay8_at (v3 : Vec Ideal S1x2048x2 .f32) (i : S2048.Idx) : k0_pay8 v3 i = inbF (k0_pay6 v3 i) (k0_pay7 v3 i) := by
  show ((((inb (k0_pay6 v3 i) (k0_pay7 v3 i)).setWidth 32).toInt : ℝ) : EReal) = _
  rw [bit_toInt]
  unfold inbF
  norm_cast

/-- The kernel's raw weight from the coordinates, the in-bounds factor and the two grid words. -/
def rawK (x y f : EReal) (a b : BitVec 32) : EReal :=
  f * Ideal.div oneF (Ideal.sqrt ((x - toF a) * (x - toF a) + (y - toF b) * (y - toF b)) + epsF)

theorem raw_eq (x y : EReal) (k : Fin 4) : raw x y k = rawK x y (inbF x y) (gx x k) (gy y k) := rfl

theorem pay15_at (v6 v8 v21 : FVec Ideal S2048 .f32) (v32 v39 : IVec S2048 32) (i : S2048.Idx) :
    k0_pay15 v6 v8 v21 v32 v39 i = rawK (v6 i) (v8 i) (v21 i) (v32 i) (v39 i) := rfl
theorem pay21_at (v6 v8 v21 v22 v25 : FVec Ideal S2048 .f32) (i : S2048.Idx) :
    k0_pay21 v21 (k0_pay19 v6 v8 v22 v25) k0_pay20 i = rawK (v6 i) (v8 i) (v21 i) (k0_pay17 v22 i) (k0_pay18 v25 i) := rfl
theorem pay25_at (v6 v8 v21 v23 v24 : FVec Ideal S2048 .f32) (i : S2048.Idx) :
    k0_pay25 v6 v8 v21 v23 v24 i = rawK (v6 i) (v8 i) (v21 i) (k0_pay23 v23 i) (k0_pay24 v24 i) := rfl
theorem pay30_at (v6 v8 v21 v25 : FVec Ideal S2048 .f32) (v128 : IVec S2048 32) (i : S2048.Idx) :
    k0_pay30 v6 v8 v21 v25 v128 i = rawK (v6 i) (v8 i) (v21 i) (k0_pay28 v128 i) (k0_pay29 v25 i) := rfl

/-- The four corners' raw weights. -/
theorem raw0_at (v3 : Vec Ideal S1x2048x2 .f32) (i : S2048.Idx) : raw0 v3 i = raw (k0_pay6 v3 i) (k0_pay7 v3 i) 0 := by
  unfold raw0; rw [pay15_at, pay8_at, pay13_at, pay14_at, raw_eq]; rfl
theorem raw1_at (v3 : Vec Ideal S1x2048x2 .f32) (i : S2048.Idx) : raw1 v3 i = raw (k0_pay6 v3 i) (k0_pay7 v3 i) 1 := by
  unfold raw1; rw [pay21_at, pay8_at, pay17_at, pay18_at, raw_eq]; rfl
theorem raw2_at (v3 : Vec Ideal S1x2048x2 .f32) (i : S2048.Idx) : raw2 v3 i = raw (k0_pay6 v3 i) (k0_pay7 v3 i) 2 := by
  unfold raw2; rw [pay25_at, pay8_at, pay23_at, pay24_at, raw_eq]; rfl
theorem raw3_at (v3 : Vec Ideal S1x2048x2 .f32) (i : S2048.Idx) :
    k0_pay30 (k0_pay6 v3) (k0_pay7 v3) (k0_pay8 v3) (k0_pay12 v3) (k0_pay27 (k0_pay10 v3)) i = raw (k0_pay6 v3 i) (k0_pay7 v3 i) 3 := by
  rw [pay30_at, pay8_at, pay28_at, pay29_at, raw_eq]; rfl

/-- The normaliser. -/
theorem pay32_at (v3 : Vec Ideal S1x2048x2 .f32) (i : S2048.Idx) :
    k0_pay32 (k0_pay6 v3) (k0_pay7 v3) (k0_pay8 v3) (k0_pay12 v3) (raw0 v3) (raw1 v3) (raw2 v3) (k0_pay27 (k0_pay10 v3)) i
      = den' (k0_pay6 v3 i) (k0_pay7 v3 i) := by
  have hden : den (k0_pay6 v3 i) (k0_pay7 v3 i)
      = ((raw0 v3 i + raw1 v3 i) + raw2 v3 i)
        + k0_pay30 (k0_pay6 v3) (k0_pay7 v3) (k0_pay8 v3) (k0_pay12 v3) (k0_pay27 (k0_pay10 v3)) i := by
    rw [raw0_at, raw1_at, raw2_at, raw3_at]; unfold den; rw [Fin.sum_univ_four]
  unfold den'
  rw [hden]
  rfl

/-- The four corners' weights. -/
theorem wgt0_at (v3 : Vec Ideal S1x2048x2 .f32) (i : S2048.Idx) : wgt0 v3 i = wt (k0_pay6 v3 i) (k0_pay7 v3 i) 0 := by
  show Ideal.div (raw0 v3 i) (k0_pay32 (F := Ideal) _ _ _ _ _ _ _ _ i) = _
  rw [pay32_at, raw0_at]; rfl
theorem wgt1_at (v3 : Vec Ideal S1x2048x2 .f32) (i : S2048.Idx) : wgt1 v3 i = wt (k0_pay6 v3 i) (k0_pay7 v3 i) 1 := by
  show Ideal.div (raw1 v3 i) (k0_pay32 (F := Ideal) _ _ _ _ _ _ _ _ i) = _
  rw [pay32_at, raw1_at]; rfl
theorem wgt2_at (v3 : Vec Ideal S1x2048x2 .f32) (i : S2048.Idx) : wgt2 v3 i = wt (k0_pay6 v3 i) (k0_pay7 v3 i) 2 := by
  show Ideal.div (raw2 v3 i) (k0_pay32 (F := Ideal) _ _ _ _ _ _ _ _ i) = _
  rw [pay32_at, raw2_at]; rfl
theorem wgt3_at (v3 : Vec Ideal S1x2048x2 .f32) (i : S2048.Idx) : wgt3 v3 i = wt (k0_pay6 v3 i) (k0_pay7 v3 i) 3 := by
  show Ideal.div (k0_pay30 (F := Ideal) _ _ _ _ _ i) (k0_pay32 (F := Ideal) _ _ _ _ _ _ _ _ i) = _
  rw [pay32_at, raw3_at]; rfl

/-- The four corners' row words: the clamp to the table's rows changes nothing. -/
theorem idx0_at (v3 : Vec Ideal S1x2048x2 .f32) (i : S2048.Idx) : idx0 v3 i = flat (k0_pay6 v3 i) (k0_pay7 v3 i) 0 := by
  show IntOp.minsi 16383#32 (IntOp.maxsi 0#32 (k0_pay14 v3 i * 128#32 + k0_pay13 v3 i)) = _
  rw [pay13_at, pay14_at]; exact clip_flat _ _ 0
theorem idx1_at (v3 : Vec Ideal S1x2048x2 .f32) (i : S2048.Idx) : idx1 v3 i = flat (k0_pay6 v3 i) (k0_pay7 v3 i) 1 := by
  show IntOp.minsi 16383#32 (IntOp.maxsi 0#32 (k0_pay18 (k0_pay12 v3) i * 128#32 + k0_pay17 (k0_pay9 v3) i)) = _
  rw [pay17_at, pay18_at]; exact clip_flat _ _ 1
theorem idx2_at (v3 : Vec Ideal S1x2048x2 .f32) (i : S2048.Idx) : idx2 v3 i = flat (k0_pay6 v3 i) (k0_pay7 v3 i) 2 := by
  show IntOp.minsi 16383#32 (IntOp.maxsi 0#32 (k0_pay24 (k0_pay11 v3) i * 128#32 + k0_pay23 (k0_pay10 v3) i)) = _
  rw [pay23_at, pay24_at]; exact clip_flat _ _ 2
theorem idx3_at (v3 : Vec Ideal S1x2048x2 .f32) (i : S2048.Idx) : idx3 v3 i = flat (k0_pay6 v3 i) (k0_pay7 v3 i) 3 := by
  show IntOp.minsi 16383#32 (IntOp.maxsi 0#32 (k0_pay29 (k0_pay12 v3) i * 128#32 + k0_pay28 (k0_pay27 (k0_pay10 v3)) i)) = _
  rw [pay28_at, pay29_at]; exact clip_flat _ _ 3

/-! ### The trips added up -/

theorem trips_eq : k0_t1_loop.trips = 64 := by decide

section Loop

variable (𝒱 : Variants) (c : Dev nD) (bd : Option 𝒱.V) (i : grid0.Coords)
    (arg2 : Memref sig .tc .vmem S1x2048x2 .f32) (harg2 : arg2.IsWhole) (arg3 : Memref sig .tc .vmem S1x128x128x128 .f32) (harg3 : arg3.IsWhole)
    (arg4 : Memref sig .tc .vmem S1x2048x128 .f32) (harg4 : arg4.IsWhole) (arg5 : Memref sig .tc .vmem S16384x128 .f32) (harg5 : arg5.IsWhole)
    (i0 i1 i2 i3 : IVec S2048 32) (w0 w1 w2 w3 : FVec Ideal S2048 .f32)
    (xs : Vec Ideal S16384x128 .f32) (p : Fin 2048) (cc : Fin 128) (x y : EReal)

/-- Trip `k` adds, of the four corners' terms, those whose row lies in chunk `k`: each row of the selection matrix
    is a sum of four terms that are a weight or zero, none negative, so its product with a chunk entry is the sum of
    the four products; summed over the chunk's rows, a corner's products leave its term exactly when its row is one
    of them. -/
theorem trip_step (h0 : i0 (ix1 p) = flat x y 0) (h1 : i1 (ix1 p) = flat x y 1) (h2 : i2 (ix1 p) = flat x y 2)
    (h3 : i3 (ix1 p) = flat x y 3) (g0 : w0 (ix1 p) = wt x y 0) (g1 : w1 (ix1 p) = wt x y 1) (g2 : w2 (ix1 p) = wt x y 2)
    (g3 : w3 (ix1 p) = wt x y 3) (k : Fin k0_t1_loop.trips) (acc : FVec Ideal S2048x128 .f32) :
    tripR_k0_t1 (F := Ideal) 𝒱 c bd i arg2 harg2 arg3 harg3 arg4 harg4 arg5 harg5 i0 i1 i2 i3 w0 w1 w2 w3 (harg5.unread xs) k acc (ix2 p cc)
      = acc (ix2 p cc) + ∑ q : Fin 4,
          if 256 * k.val ≤ (row x y q).val ∧ (row x y q).val < 256 * (k.val + 1) then wt x y q * xs (ix2 (row x y q) cc) else 0 := by
  rw [trip_at, h0, h1, h2, h3, g0, g1, g2, g3]
  congr 1
  have hmul : ∀ j : Fin 256,
      ((((Ideal.ofBits .f32 0x00000000#32 + pick (flat x y 0) (tgt k j) (wt x y 0)) + pick (flat x y 1) (tgt k j) (wt x y 1))
        + pick (flat x y 2) (tgt k j) (wt x y 2)) + pick (flat x y 3) (tgt k j) (wt x y 3)) * xs (ix2 (chunkRow k j) cc)
      = ((pick (flat x y 0) (tgt k j) (wt x y 0) * xs (ix2 (chunkRow k j) cc)
          + pick (flat x y 1) (tgt k j) (wt x y 1) * xs (ix2 (chunkRow k j) cc))
          + pick (flat x y 2) (tgt k j) (wt x y 2) * xs (ix2 (chunkRow k j) cc))
          + pick (flat x y 3) (tgt k j) (wt x y 3) * xs (ix2 (chunkRow k j) cc) := fun j =>
    four_mul (pick_nonneg _ _ (wt_nonneg x y 0)) (pick_nonneg _ _ (wt_nonneg x y 1)) (pick_nonneg _ _ (wt_nonneg x y 2))
      (pick_nonneg _ _ (wt_nonneg x y 3))
  rw [Finset.sum_congr rfl fun j _ => hmul j, Finset.sum_add_distrib, Finset.sum_add_distrib, Finset.sum_add_distrib]
  have e0 := chunk_sum (flat x y 0) (flat_lt x y 0) k (wt x y 0) fun r => xs (ix2 r cc)
  have e1 := chunk_sum (flat x y 1) (flat_lt x y 1) k (wt x y 1) fun r => xs (ix2 r cc)
  have e2 := chunk_sum (flat x y 2) (flat_lt x y 2) k (wt x y 2) fun r => xs (ix2 r cc)
  have e3 := chunk_sum (flat x y 3) (flat_lt x y 3) k (wt x y 3) fun r => xs (ix2 r cc)
  beta_reduce at e0 e1 e2 e3
  rw [e0, e1, e2, e3, Fin.sum_univ_four]
  rfl

/-- Before trip `n` the carried value holds the terms of the corners whose rows lie below row `256 n`. -/
theorem loop_inv (init : FVec Ideal S2048x128 .f32)
    (h0 : i0 (ix1 p) = flat x y 0) (h1 : i1 (ix1 p) = flat x y 1) (h2 : i2 (ix1 p) = flat x y 2)
    (h3 : i3 (ix1 p) = flat x y 3) (g0 : w0 (ix1 p) = wt x y 0) (g1 : w1 (ix1 p) = wt x y 1) (g2 : w2 (ix1 p) = wt x y 2)
    (g3 : w3 (ix1 p) = wt x y 3) (n : ℕ) (hn : n ≤ 64) :
    st_k0_t1 (F := Ideal) 𝒱 c bd i arg2 harg2 arg3 harg3 arg4 harg4 arg5 harg5 i0 i1 i2 i3 w0 w1 w2 w3 (harg5.unread xs) init n (ix2 p cc)
      = init (ix2 p cc) + ∑ q : Fin 4, if (row x y q).val < 256 * n then wt x y q * xs (ix2 (row x y q) cc) else 0 := by
  induction n with
  | zero =>
    rw [st_k0_t1_zero]
    simp
  | succ n ih =>
    have hlt : n < k0_t1_loop.trips := by rw [trips_eq]; omega
    have hs := congrFun (st_k0_t1_succ (F := Ideal) 𝒱 c bd i arg2 harg2 arg3 harg3 arg4 harg4 arg5 harg5 i0 i1 i2 i3 w0 w1 w2 w3
      (harg5.unread xs) init ⟨n, hlt⟩) (ix2 p cc)
    refine hs.trans ?_
    rw [trip_step 𝒱 c bd i arg2 harg2 arg3 harg3 arg4 harg4 arg5 harg5 i0 i1 i2 i3 w0 w1 w2 w3 xs p cc x y h0 h1 h2 h3 g0 g1 g2 g3]
    dsimp only
    rw [ih (by omega), add_assoc, ← Finset.sum_add_distrib]
    congr 1
    refine Finset.sum_congr rfl fun q _ => ?_
    by_cases c1 : (row x y q).val < 256 * n
    · rw [if_pos c1, if_neg (by omega), if_pos (by omega), add_zero]
    · by_cases c2 : (row x y q).val < 256 * (n + 1)
      · rw [if_neg c1, if_pos ⟨by omega, c2⟩, if_pos c2, zero_add]
      · rw [if_neg c1, if_neg (by omega), if_neg c2, add_zero]

end Loop

/-- THE LOOP'S RESULT at point `p`, channel `cc`: the four corners' weights times the table's rows. -/
theorem loop_value (𝒱 : Variants) (c : Dev nD) (bd : Option 𝒱.V) (i : grid0.Coords)
    (arg2 : Memref sig .tc .vmem S1x2048x2 .f32) (harg2 : arg2.IsWhole) (arg3 : Memref sig .tc .vmem S1x128x128x128 .f32) (harg3 : arg3.IsWhole)
    (arg4 : Memref sig .tc .vmem S1x2048x128 .f32) (harg4 : arg4.IsWhole) (arg5 : Memref sig .tc .vmem S16384x128 .f32) (harg5 : arg5.IsWhole)
    (v3 : Vec Ideal S1x2048x2 .f32) (xs : Vec Ideal S16384x128 .f32) (p : Fin 2048) (cc : Fin 128) :
    st_k0_t1 (F := Ideal) 𝒱 c bd i arg2 harg2 arg3 harg3 arg4 harg4 arg5 harg5
        (idx0 v3) (idx1 v3) (idx2 v3) (idx3 v3) (wgt0 v3) (wgt1 v3) (wgt2 v3) (wgt3 v3)
        (harg5.unread xs) (k0_pay1 (FloatOps.ofBits .f32 0#32)) (Scf.trips (0#32) (Scalar.addi 0#32 64#32) 1#32) (ix2 p cc)
      = ∑ k : Fin 4, wt (v3 (ix3 0 p 0)) (v3 (ix3 0 p 1)) k * xs (ix2 (row (v3 (ix3 0 p 0)) (v3 (ix3 0 p 1)) k) cc) := by
  have ht : Scf.trips (0#32) (Scalar.addi 0#32 64#32) 1#32 = 64 := trips_eq
  rw [ht, loop_inv 𝒱 c bd i arg2 harg2 arg3 harg3 arg4 harg4 arg5 harg5 _ _ _ _ _ _ _ _ xs p cc
    (v3 (ix3 0 p 0)) (v3 (ix3 0 p 1)) _
    (by rw [idx0_at, pay6_at, pay7_at]) (by rw [idx1_at, pay6_at, pay7_at]) (by rw [idx2_at, pay6_at, pay7_at])
    (by rw [idx3_at, pay6_at, pay7_at]) (by rw [wgt0_at, pay6_at, pay7_at]) (by rw [wgt1_at, pay6_at, pay7_at])
    (by rw [wgt2_at, pay6_at, pay7_at]) (by rw [wgt3_at, pay6_at, pay7_at]) 64 le_rfl]
  have hz : k0_pay1 (F := Ideal) (FloatOps.ofBits .f32 0#32) (ix2 p cc) = 0 := Ideal.ofBits_zero_f32
  rw [hz, zero_add]
  refine Finset.sum_congr rfl fun q _ => ?_
  rw [if_pos]
  have := (row (v3 (ix3 0 p 0)) (v3 (ix3 0 p 1)) q).isLt
  omega

end Cert.KernelIdeal.Point

end
-- ==== Proof.KernelBody.lean ====
import proofs.«427828_j9345848836388_3_alg».proof.Proof.Gen.KernelIdeal.Value
import proofs.«427828_j9345848836388_3_alg».proof.Proof.KernelPoint
import Idealize.ShloMosaic.Lib.ValueLayout

/-!
What the kernel's body leaves in the output's staging buffer at each grid point.

Grid point `t = 16 b + q` works on batch `b` and on points `2048 q … 2048 q + 2047` of it. The first point of a
batch stores the batch's feature grid into the scratch, channel axis moved last and the two spatial axes merged; the
other fifteen find it there. Every point then leaves in the output block, per point and channel, the four corners'
weights times the scratch's rows: the common value `Gval` of the two arguments.
-/

noncomputable section

namespace Cert.KernelIdeal.Body

open Cert.KernelIdeal Cert.KernelIdeal.Gen Cert.Spec Idealize.ShloMosaic Idealize.ShloMosaic.TcCoe Idealize.ShloMosaic.ValueIdx Idealize.SL.Sem
open Idealize.ShloMosaic.Tactic

/-! ### Zero offsets, however spelt -/

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! ### What each case's stores leave -/

/-- The loop's final carried value, from the point block `v3` and the scratch's contents `xs`. -/
abbrev loopOut (c : Dev nD) (i : grid0.Coords) (arg2 : Memref sig .tc .vmem S1x2048x2 .f32) (harg2 : arg2.IsWhole) (arg3 : Memref sig .tc .vmem S1x128x128x128 .f32) (harg3 : arg3.IsWhole) (arg4 : Memref sig .tc .vmem S1x2048x128 .f32) (harg4 : arg4.IsWhole) (arg5 : Memref sig .tc .vmem S16384x128 .f32) (harg5 : arg5.IsWhole)
    (v3 : Vec Ideal S1x2048x2 .f32) (xs : Vec Ideal S16384x128 .f32) : FVec Ideal S2048x128 .f32 :=
  st_k0_t1 (F := Ideal) Variants.none c none i arg2 harg2 arg3 harg3 arg4 harg4 arg5 harg5
    (Point.idx0 v3) (Point.idx1 v3) (Point.idx2 v3) (Point.idx3 v3) (Point.wgt0 v3) (Point.wgt1 v3) (Point.wgt2 v3) (Point.wgt3 v3)
    (harg5.unread xs) (k0_pay1 (FloatOps.ofBits .f32 0#32)) (Scf.trips (0#32) (Scalar.addi 0#32 64#32) 1#32)

/-- A whole scratch written once through its whole rectangle holds the payload. -/
theorem writes_whole_eq_unread {F : FTy → Type} [FloatOps F] (arg5 : Memref sig .tc .vmem S16384x128 .f32) (harg5 : arg5.IsWhole) (w : Vec F S16384x128 .f32) :
    arg5.view.writes (Elt F) arg5.view.junk [⟨Rect.unit (s := S16384x128) ![0, 0] S16384x128.size inb_S16384x128_S16384x128_0_0, w⟩]
      = harg5.unread w :=
  harg5.eq_unread ((View.read_writes_eq_canon _ _ _ (fun y => ⟨_, List.mem_singleton_self _, View.mem_set_unit_zero hz2 inb_S16384x128_S16384x128_0_0 y⟩)).trans
    (View.canon_unit_zero hz2 inb_S16384x128_S16384x128_0_0 w))

/-- A batch's first point leaves in the scratch the feature block re-laid. -/
theorem sout_A {F : FTy → Type} [FloatOps F] (c : Dev nD) (i : grid0.Coords) (arg2 : Memref sig .tc .vmem S1x2048x2 .f32) (harg2 : arg2.IsWhole) (arg3 : Memref sig .tc .vmem S1x128x128x128 .f32) (harg3 : arg3.IsWhole) (arg4 : Memref sig .tc .vmem S1x2048x128 .f32) (harg4 : arg4.IsWhole) (arg5 : Memref sig .tc .vmem S16384x128 .f32) (harg5 : arg5.IsWhole) (hc0 : cond0_0 i)
    (x0 : Vec F S1x2048x2 .f32) (x1 : Vec F S1x128x128x128 .f32) :
    sout0_A_0 (F := F) c i arg2 harg2 arg3 harg3 arg4 harg4 arg5 harg5 hc0 x0 x1 = k0_pay4 x1 := by
  unfold sout0_A_0
  rw [View.read_writes_eq_canon _ _ _ (scover0_A_0 c i arg2 harg2 arg3 harg3 arg4 harg4 arg5 harg5 hc0 x0 x1)]
  unfold kernelRun0_A
  dsimp only
  sl_unfold_words
  rw [View.canon_unit_zero hz2]
  simp only [View.readAt_eq_ld, harg3.read_unread, View.ld_unit_zero (S := S1x128x128x128) hz4]

/-- A later point of a batch leaves in the output block the loop's value over the scratch it found. -/
theorem out_B (c : Dev nD) (i : grid0.Coords) (arg2 : Memref sig .tc .vmem S1x2048x2 .f32) (harg2 : arg2.IsWhole) (arg3 : Memref sig .tc .vmem S1x128x128x128 .f32) (harg3 : arg3.IsWhole) (arg4 : Memref sig .tc .vmem S1x2048x128 .f32) (harg4 : arg4.IsWhole) (arg5 : Memref sig .tc .vmem S16384x128 .f32) (harg5 : arg5.IsWhole) (hc0 : ¬cond0_0 i)
    (x0 : Vec Ideal S1x2048x2 .f32) (x1 : Vec Ideal S1x128x128x128 .f32) (xs0 : Vec Ideal S16384x128 .f32) :
    out0_B_2 (F := Ideal) c i arg2 harg2 arg3 harg3 arg4 harg4 arg5 harg5 hc0 x0 x1 xs0
      = k0_pay3 (loopOut c i arg2 harg2 arg3 harg3 arg4 harg4 arg5 harg5 x0 xs0) := by
  unfold out0_B_2
  rw [View.read_writes_eq_canon _ _ _ (cover0_B_2 c i arg2 harg2 arg3 harg3 arg4 harg4 arg5 harg5 hc0 x0 x1 xs0)]
  unfold kernelRun0_B
  dsimp only
  sl_unfold_words
  rw [View.canon_unit_zero hz3]
  simp only [View.readAt_eq_ld, harg2.read_unread, View.ld_unit_zero (S := S1x2048x2) hz3]

/-- A batch's first point leaves in the output block the loop's value over the scratch it has just stored. -/
theorem out_A (c : Dev nD) (i : grid0.Coords) (arg2 : Memref sig .tc .vmem S1x2048x2 .f32) (harg2 : arg2.IsWhole) (arg3 : Memref sig .tc .vmem S1x128x128x128 .f32) (harg3 : arg3.IsWhole) (arg4 : Memref sig .tc .vmem S1x2048x128 .f32) (harg4 : arg4.IsWhole) (arg5 : Memref sig .tc .vmem S16384x128 .f32) (harg5 : arg5.IsWhole) (hc0 : cond0_0 i)
    (x0 : Vec Ideal S1x2048x2 .f32) (x1 : Vec Ideal S1x128x128x128 .f32) :
    out0_A_2 (F := Ideal) c i arg2 harg2 arg3 harg3 arg4 harg4 arg5 harg5 hc0 x0 x1
      = k0_pay3 (loopOut c i arg2 harg2 arg3 harg3 arg4 harg4 arg5 harg5 x0 (k0_pay4 x1)) := by
  unfold out0_A_2
  rw [View.read_writes_eq_canon _ _ _ (cover0_A_2 c i arg2 harg2 arg3 harg3 arg4 harg4 arg5 harg5 hc0 x0 x1)]
  unfold kernelRun0_A
  dsimp only
  sl_unfold_words
  rw [View.canon_unit_zero hz3]
  simp only [View.readAt_eq_ld, harg2.read_unread, harg3.read_unread, View.ld_unit_zero (S := S1x2048x2) hz3,
    View.ld_unit_zero (S := S1x128x128x128) hz4, writes_whole_eq_unread arg5 harg5]

/-! ### The layout operations, read at an index -/

/-- The output block is the loop's value under one more unit axis. -/
theorem pay3_apply {F : FTy → Type} [FloatOps F] (v : FVec F S2048x128 .f32) (p : Fin 2048) (cc : Fin 128) :
    k0_pay3 v (ix3 0 p cc) = v (ix2 p cc) := by
  unfold k0_pay3
  exact shapeCast_ab_1ab_apply v shapeCasts_S2048x128_S1x2048x128 0 p cc

/-- The re-laid feature block: row `128 h + w`, column `cc` is the block's entry at channel `cc`, place `(h, w)` — the
unit axis dropped, the channel axis moved last, the two spatial axes merged row-major. -/
theorem pay4_apply {F : FTy → Type} [FloatOps F] (x1 : Vec F S1x128x128x128 .f32) (hw : Fin 16384) (cc : Fin 128) :
    k0_pay4 x1 (ix2 hw cc)
      = x1 (ix4 0 cc ⟨hw.val / 128, by have := hw.isLt; omega⟩ ⟨hw.val % 128, Nat.mod_lt _ (by norm_num)⟩) := by
  unfold k0_pay4
  refine (shapeCast_apply _ shapeCasts_S16384x128_S16384x128 (ix2 hw cc) (ix2 hw cc) rfl).trans ?_
  refine (shapeCast_apply _ shapeCasts_S128x128x128_S16384x128 (ix2 hw cc)
    (ix3 (⟨hw.val / 128, by have := hw.isLt; omega⟩ : Fin 128) (⟨hw.val % 128, Nat.mod_lt _ (by norm_num)⟩ : Fin 128) cc) ?_).trans ?_
  · rw [Shape.rowMajor_val_three, Shape.rowMajor_val_two]
    show (hw.val / 128 * 128 + hw.val % 128) * 128 + cc.val = hw.val * 128 + cc.val
    omega
  refine (transpose_apply _ _ transposes_S128x128x128_p1_2_0_S128x128x128
    (ix3 (⟨hw.val / 128, by have := hw.isLt; omega⟩ : Fin 128) (⟨hw.val % 128, Nat.mod_lt _ (by norm_num)⟩ : Fin 128) cc)
    (ix3 cc (⟨hw.val / 128, by have := hw.isLt; omega⟩ : Fin 128) (⟨hw.val % 128, Nat.mod_lt _ (by norm_num)⟩ : Fin 128))
    (fun b => match b with | ⟨0, _⟩ => rfl | ⟨1, _⟩ => rfl | ⟨2, _⟩ => rfl)).trans ?_
  exact shapeCast_1abc_abc_apply x1 shapeCasts_S1x128x128x128_S128x128x128 cc _ _

/-! ### The input blocks, read at an index -/

/-- Where the two input windows stand at grid point `t`: the point block is block `(t / 16, t % 16, 0)` of the points,
the feature block is block `(t / 16, 0, 0, 0)` of the feature grids. -/
theorem idx_facts : ∀ t : Fin cfg0.N,
    win0_0.index t (0 : Fin 3) = t.val / 16 ∧ win0_0.index t (1 : Fin 3) = t.val % 16 ∧ win0_0.index t (2 : Fin 3) = 0
    ∧ win0_1.index t (0 : Fin 4) = t.val / 16 ∧ win0_1.index t (1 : Fin 4) = 0 ∧ win0_1.index t (2 : Fin 4) = 0
    ∧ win0_1.index t (3 : Fin 4) = 0 :=
  (by decide +kernel : ∀ t : Fin grid0.N, _)

variable (m : (ℓ : Loc nD τ sig) → Buf (Elt Ideal) ℓ)

/-- The point block and the feature block the body meets at grid point `t`. -/
abbrev xblk (c : Dev nD) (t : Fin cfg0.N) : Vec Ideal S1x2048x2 .f32 := iblk m c 0 t
abbrev fblk (c : Dev nD) (t : Fin cfg0.N) : Vec Ideal S1x128x128x128 .f32 := iblk m c 1 t

/-- The point block of grid point `16 b + q` is points `2048 q … 2048 q + 2047` of batch `b`. -/
theorem xblk_apply (c : Dev nD) (t : Fin cfg0.N) (b : Fin 8) (q : Fin 16) (ht : t.val = 16 * b.val + q.val) (p : Fin 2048) (j : Fin 2) :
    xblk m c t (ix3 0 p j) = m ((c : Thread nD τ).loc main_arg0) (ix3 b ⟨2048 * q.val + p.val, by omega⟩ j) := by
  obtain ⟨e0, e1, e2, -⟩ := idx_facts t
  show V m c main_arg0 (((cfg0.win 0).blk t).view.emb (ix3 0 p j)) = V m c main_arg0 (ix3 b ⟨2048 * q.val + p.val, by omega⟩ j)
  refine congrArg _ (funext fun a => Fin.ext ?_)
  match a with
  | ⟨0, _⟩ => show win0_0.index t (0 : Fin 3) * 1 + 1 * 0 = b.val; omega
  | ⟨1, _⟩ => show win0_0.index t (1 : Fin 3) * 2048 + 1 * p.val = 2048 * q.val + p.val; omega
  | ⟨2, _⟩ => show win0_0.index t (2 : Fin 3) * 2 + 1 * j.val = j.val; omega

/-- The feature block of a grid point of batch `b` is batch `b`'s feature grid. -/
theorem fblk_apply (c : Dev nD) (t : Fin cfg0.N) (b : Fin 8) (hb : t.val / 16 = b.val) (ch h w : Fin 128) :
    fblk m c t (ix4 0 ch h w) = m ((c : Thread nD τ).loc main_arg1) (ix4 b ch h w) := by
  obtain ⟨-, -, -, e0, e1, e2, e3⟩ := idx_facts t
  show V m c main_arg1 (((cfg0.win 1).blk t).view.emb (ix4 0 ch h w)) = V m c main_arg1 (ix4 b ch h w)
  refine congrArg _ (funext fun a => Fin.ext ?_)
  match a with
  | ⟨0, _⟩ => show win0_1.index t (0 : Fin 4) * 1 + 1 * 0 = b.val; omega
  | ⟨1, _⟩ => show win0_1.index t (1 : Fin 4) * 128 + 1 * ch.val = ch.val; omega
  | ⟨2, _⟩ => show win0_1.index t (2 : Fin 4) * 128 + 1 * h.val = h.val; omega
  | ⟨3, _⟩ => show win0_1.index t (3 : Fin 4) * 128 + 1 * w.val = w.val; omega

/-! ### The scratch between points -/

/-- After any grid point of batch `b` the scratch holds batch `b`'s feature table: the batch's first point stores it,
the later ones leave the scratch as they found it. -/
theorem scr_eq (c : Dev nD) : ∀ (n : ℕ) (hn : n < cfg0.N) (b : Fin 8) (hb : n / 16 = b.val) (hw : Fin 16384) (cc : Fin 128),
    (outsAt0 m c n hn).2 (ix2 hw cc) = fgT (m ((c : Thread nD τ).loc main_arg1)) b hw cc := by
  intro n
  induction n using Nat.strong_induction_on with
  | _ n ih =>
    intro hn b hb hw cc
    have hN : n < 128 := lt_of_lt_of_eq hn N_0
    by_cases h0 : n % 16 = 0
    · rw [outsAt0_A m c ⟨n, hn⟩ h0]
      dsimp only
      refine (congrFun (sout_A (F := Ideal) c (grid0.coords ⟨n, hn⟩) (ms0_0 ⟨n, hn⟩) (hs0_0 ⟨n, hn⟩) (ms0_1 ⟨n, hn⟩) (hs0_1 ⟨n, hn⟩)
        (ms0_2 ⟨n, hn⟩) (hs0_2 ⟨n, hn⟩) scM0_0 (Memref.isWhole_whole _) ((hcond0_0 ⟨n, hn⟩).mpr h0)
        (xblk m c ⟨n, hn⟩) (fblk m c ⟨n, hn⟩)) (ix2 hw cc)).trans ?_
      refine (pay4_apply (fblk m c ⟨n, hn⟩) hw cc).trans ?_
      exact fblk_apply m c ⟨n, hn⟩ b hb cc _ _
    · rw [outsAt0_B m c ⟨n, hn⟩ h0]
      dsimp only
      unfold sout0_B_0
      exact ih (n - 1) (by omega) _ b (by omega) hw cc

/-! ### The output block -/

/-- The loop's value over batch `b`'s feature table, at the point block of grid point `16 b + q`, under the output
block's unit axis: the common value. -/
theorem point_eq (c : Dev nD) (t : Fin cfg0.N) (b : Fin 8) (q : Fin 16) (ht : t.val = 16 * b.val + q.val)
    (i : grid0.Coords) (arg2 : Memref sig .tc .vmem S1x2048x2 .f32) (harg2 : arg2.IsWhole) (arg3 : Memref sig .tc .vmem S1x128x128x128 .f32) (harg3 : arg3.IsWhole) (arg4 : Memref sig .tc .vmem S1x2048x128 .f32) (harg4 : arg4.IsWhole) (arg5 : Memref sig .tc .vmem S16384x128 .f32) (harg5 : arg5.IsWhole)
    (xs : Vec Ideal S16384x128 .f32)
    (hxs : ∀ (hw : Fin 16384) (cc : Fin 128), xs (ix2 hw cc) = fgT (m ((c : Thread nD τ).loc main_arg1)) b hw cc)
    (p : Fin 2048) (cc : Fin 128) :
    k0_pay3 (loopOut c i arg2 harg2 arg3 harg3 arg4 harg4 arg5 harg5 (xblk m c t) xs) (ix3 0 p cc)
      = Gval (m ((c : Thread nD τ).loc main_arg0)) (m ((c : Thread nD τ).loc main_arg1)) b ⟨2048 * q.val + p.val, by omega⟩ cc := by
  refine (pay3_apply _ p cc).trans ?_
  refine (Point.loop_value Variants.none c none i arg2 harg2 arg3 harg3 arg4 harg4 arg5 harg5 (xblk m c t) xs p cc).trans ?_
  have e0 := xblk_apply m c t b q ht p 0
  have e1 := xblk_apply m c t b q ht p 1
  rw [e0, e1]
  unfold Gval
  exact Finset.sum_congr rfl fun k _ => by rw [hxs]

/-- The output block after grid point `t = 16 b + q`, at point `p` and channel `cc`. -/
theorem outs_eq (c : Dev nD) (t : Fin cfg0.N) (b : Fin 8) (q : Fin 16) (ht : t.val = 16 * b.val + q.val) (p : Fin 2048) (cc : Fin 128) :
    (outsAt0 m c t.val t.isLt).1 (ix3 0 p cc)
      = Gval (m ((c : Thread nD τ).loc main_arg0)) (m ((c : Thread nD τ).loc main_arg1)) b ⟨2048 * q.val + p.val, by omega⟩ cc := by
  have hN : t.val < 128 := lt_of_lt_of_eq t.isLt N_0
  by_cases h0 : t.val % 16 = 0
  · rw [outsAt0_A m c t h0]
    dsimp only
    refine (congrFun (out_A c (grid0.coords t) (ms0_0 t) (hs0_0 t) (ms0_1 t) (hs0_1 t) (ms0_2 t) (hs0_2 t) scM0_0 (Memref.isWhole_whole _)
      ((hcond0_0 t).mpr h0) (xblk m c t) (fblk m c t)) (ix3 0 p cc)).trans ?_
    refine point_eq m c t b q ht (grid0.coords t) (ms0_0 t) (hs0_0 t) (ms0_1 t) (hs0_1 t) (ms0_2 t) (hs0_2 t) scM0_0 (Memref.isWhole_whole _)
      (k0_pay4 (fblk m c t)) (fun hw cc' => ?_) p cc
    refine (pay4_apply (fblk m c t) hw cc').trans ?_
    exact fblk_apply m c t b (by omega) cc' _ _
  · rw [outsAt0_B m c t h0]
    dsimp only
    refine (congrFun (out_B c (grid0.coords t) (ms0_0 t) (hs0_0 t) (ms0_1 t) (hs0_1 t) (ms0_2 t) (hs0_2 t) scM0_0 (Memref.isWhole_whole _)
      (fun h => h0 ((hcond0_0 t).mp h)) (xblk m c t) (fblk m c t)
      (outsAt0 m c (t.val - 1) (Nat.lt_of_le_of_lt (Nat.sub_le _ _) t.isLt)).2) (ix3 0 p cc)).trans ?_
    exact point_eq m c t b q ht (grid0.coords t) (ms0_0 t) (hs0_0 t) (ms0_1 t) (hs0_1 t) (ms0_2 t) (hs0_2 t) scM0_0 (Memref.isWhole_whole _)
      _ (fun hw cc' => scr_eq m c (t.val - 1) _ b (by omega) hw cc') p cc

end Cert.KernelIdeal.Body

end
-- ==== Proof.KernelArray.lean ====
import proofs.«427828_j9345848836388_3_alg».proof.Proof.Gen.KernelIdeal.Value
import proofs.«427828_j9345848836388_3_alg».proof.Proof.KernelBody

/-!
From the blocks to the output array: grid point `t = 16 b + q` writes back block `(b, q)` of the output, the blocks
tile the array, and each holds the common value's entries, so after the run the output array is the common value `G` of
the two arguments.
-/

noncomputable section

namespace Cert.KernelIdeal.Array

open Cert.KernelIdeal Cert.KernelIdeal.Gen Cert.Spec Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The output's index map over the grid: point `t = 16 b + q` owns block `(b, q, 0)`. -/
theorem block_of_point : ∀ t : Fin cfg0.N, win0_2.index t (0 : Fin 3) = t.val / 16 ∧ win0_2.index t (1 : Fin 3) = t.val % 16
    ∧ win0_2.index t (2 : Fin 3) = 0 :=
  (by decide +kernel : ∀ t : Fin grid0.N, _)

/-- The common value at an index whose coordinates are `(b, p, cc)`. -/
theorem G_at (tk : STk.Idx → EReal) (fg : SFg.Idx → EReal) (i : SOut.Idx) (b : Fin 8) (p : Fin 32768) (cc : Fin 128)
    (h0 : (i 0).val = b.val) (h1 : (i 1).val = p.val) (h2 : (i 2).val = cc.val) : G tk fg i = Gval tk fg b p cc := by
  have e0 : (i 0 : Fin 8) = b := Fin.ext h0
  have e1 : (i 1 : Fin 32768) = p := Fin.ext h1
  have e2 : (i 2 : Fin 128) = cc := Fin.ext h2
  show Gval tk fg (i 0) (i 1) (i 2) = _
  rw [e0, e1, e2]

/-- What point `t` writes back is block `t` of the common value: entry `(0, p, cc)` of the block of point
    `t = 16 b + q` sits at `(b, 2048 q + p, cc)` of the array, where the block holds the common value's entry. -/
theorem flushed_eq (c : Dev nD) (t : Fin cfg0.N) :
    (dats m 0 c).flushed 2 t = ((cfg0.win 2).blk t).view.read (Elt Ideal)
      (G (m ((c : Thread nD τ).loc main_arg0)) (m ((c : Thread nD τ).loc main_arg1))) := by
  rw [Value.flushed2]
  obtain ⟨e0, e1, e2⟩ := block_of_point t
  have hN : t.val < 128 := lt_of_lt_of_eq t.isLt N_0
  funext j
  have hj0 : (j 0).val < 1 := (j 0).isLt
  have hj1 : (j 1).val < 2048 := (j 1).isLt
  have hj2 : (j 2).val < 128 := (j 2).isLt
  have hx : win0_2.xinj (grid0.coords t) j = ix3 0 ⟨(j 1).val, hj1⟩ ⟨(j 2).val, hj2⟩ := by
    funext a; apply Fin.ext
    match a with
    | ⟨0, _⟩ => show (j 0).val = 0; omega
    | ⟨1, _⟩ => rfl
    | ⟨2, _⟩ => rfl
  show (outsAt0 m c t.val t.isLt).1 (win0_2.xinj (grid0.coords t) j) = G _ _ (((cfg0.win 2).blk t).view.emb j)
  rw [hx, Body.outs_eq m c t ⟨t.val / 16, by omega⟩ ⟨t.val % 16, Nat.mod_lt _ (by norm_num)⟩
    (by show t.val = 16 * (t.val / 16) + t.val % 16; omega)]
  symm
  refine G_at _ _ _ _ _ _ ?_ ?_ ?_
  · show win0_2.index t (0 : Fin 3) * 1 + 1 * (j 0).val = t.val / 16; omega
  · show win0_2.index t (1 : Fin 3) * 2048 + 1 * (j 1).val = 2048 * (t.val % 16) + (j 1).val; omega
  · show win0_2.index t (2 : Fin 3) * 128 + 1 * (j 2).val = (j 2).val; omega

/-- An index of the array is in point `t`'s block iff each coordinate is in the block's range on its axis. -/
theorem mem_blk (t : Fin cfg0.N) (i : S8x32768x128.Idx) :
    i ∈ ((cfg0.win 2).blk t).view.set ↔ ∀ a : Fin 3, win0_2.index t a * S1x2048x128.size a ≤ (i a).val
      ∧ (i a).val < win0_2.index t a * S1x2048x128.size a + S1x2048x128.size a := by
  show i ∈ ((View.whole main_v0).slice (win0_2.rect t)).set ↔ _
  rw [View.set_slice_whole, Rect.mem_set_unit]
  exact Iff.rfl

/-- The blocks tile the array: index `(b, r, cc)` lies in the block of point `16 b + r / 2048`. -/
theorem cover (i : S8x32768x128.Idx) :
    ∃ t : Fin cfg0.N, (cfg0.win 2).flush t = true ∧ i ∈ ((cfg0.win 2).blk t).view.set := by
  have hi0 : (i 0).val < 8 := (i 0).isLt
  have hi1 : (i 1).val < 32768 := (i 1).isLt
  have hi2 : (i 2).val < 128 := (i 2).isLt
  have hN : cfg0.N = 128 := N_0
  let t : Fin cfg0.N := ⟨16 * (i 0).val + (i 1).val / 2048, by rw [hN]; omega⟩
  have ht : t.val = 16 * (i 0).val + (i 1).val / 2048 := rfl
  obtain ⟨e0, e1, e2⟩ := block_of_point t
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 2048 ≤ (i 1).val ∧ (i 1).val < win0_2.index t (1 : Fin 3) * 2048 + 2048; omega
  | ⟨2, _⟩ => show win0_2.index t (2 : Fin 3) * 128 ≤ (i 2).val ∧ (i 2).val < win0_2.index t (2 : Fin 3) * 128 + 128; omega

/-- The output array after the run is the common value of the argument arrays. -/
theorem final (c : Dev nD) : (dats m 0 c).arrAt 2 cfg0.N
    = G (m ((c : Thread nD τ).loc main_arg0)) (m ((c : Thread nD τ).loc main_arg1)) :=
  (dats m 0 c).arrAt_eq_of_cover 2 (G (m ((c : Thread nD τ).loc main_arg0)) (m ((c : Thread nD τ).loc main_arg1)))
    (fun t _ => flushed_eq m c t) cover

/-- The kernel's run: the result array ends at the common value of the argument arrays, which end unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Array

end
-- ==== Proof.RefLine.lean ====
import proofs.«427828_j9345848836388_3_alg».proof.Proof.Gen.ReferenceIdeal
import Idealize.ShloMosaic.Lib.StableHlo.Run

/-!
The reference program as one straight line of host operations, and its run.

The reference's entry function calls four small functions (an integer remainder that guards a zero divisor, two
selects, and a gather along the row axis that first brings negative rows into range and masks rows outside the
table); each call executes the callee's operations on that call's own buffers, so the whole program is the list
below: 134 operations in order. Every weakly fair execution of it terminates, and each buffer then holds what the
operations, folded over the launch contents, leave in it.
-/

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- The reference's operations in execution order, the called functions' operations in place of their calls. -/
abbrev ops : List (HloOp τ sig (Elt F)) :=
  [ StableHlo.nullary main_cst (constant S2 .f32 0x3F800000#32),
    StableHlo.unary main_cst main_v0 (broadcastInDim S1x1x2 ![2] bcast_S2_S1x1x2_2 : (⟨S2, .f32⟩ : BufTy).Contents (Elt F) → (⟨S1x1x2, .f32⟩ : BufTy).Contents (Elt F)),
    StableHlo.unary main_v0 main_v1 (broadcastInDim S8x32768x2 ![0, 1, 2] bcast_S1x1x2_S8x32768x2_0_1_2 : (⟨S1x1x2, .f32⟩ : BufTy).Contents (Elt F) → (⟨S8x32768x2, .f32⟩ : BufTy).Contents (Elt F)),
    StableHlo.binary main_arg0 main_v1 main_v2 (Host.divf : (⟨S8x32768x2, .f32⟩ : BufTy).Contents (Elt F) → (⟨S8x32768x2, .f32⟩ : BufTy).Contents (Elt F) → (⟨S8x32768x2, .f32⟩ : BufTy).Contents (Elt F)),
    StableHlo.unary main_v2 main_v3 ((extractStridedSlice S8x32768x1 ![0, 0, 0] · slices_S8x32768x2_S8x32768x1_0_0_0) : (⟨S8x32768x2, .f32⟩ : BufTy).Contents (Elt F) → (⟨S8x32768x1, .f32⟩ : BufTy).Contents (Elt F)),
    StableHlo.reshape main_v3 main_v4 rfl shapeCasts_S8x32768x1_S8x32768,
    StableHlo.unary main_v2 main_v5 ((extractStridedSlice S8x32768x1 ![0, 0, 1] · slices_S8x32768x2_S8x32768x1_0_0_1) : (⟨S8x32768x2, .f32⟩ : BufTy).Contents (Elt F) → (⟨S8x32768x1, .f32⟩ : BufTy).Contents (Elt F)),
    StableHlo.reshape main_v5 main_v6 rfl shapeCasts_S8x32768x1_S8x32768,
    StableHlo.nullary main_cst_0 (constant S_ .f32 0x00000000#32),
    StableHlo.unary main_cst_0 main_v7 (broadcastInDim S8x32768 ![] bcast_S_S8x32768 : (⟨S_, .f32⟩ : BufTy).Contents (Elt F) → (⟨S8x32768, .f32⟩ : BufTy).Contents (Elt F)),
    StableHlo.binary main_v4 main_v7 main_v8 (cmpf .oge : (⟨S8x32768, .f32⟩ : BufTy).Contents (Elt F) → (⟨S8x32768, .f32⟩ : BufTy).Contents (Elt F) → (⟨S8x32768, .i1⟩ : BufTy).Contents (Elt F)),
    StableHlo.nullary main_cst_1 (constant S_ .f32 0x00000000#32),
    StableHlo.unary main_cst_1 main_v9 (broadcastInDim S8x32768 ![] bcast_S_S8x32768 : (⟨S_, .f32⟩ : BufTy).Contents (Elt F) → (⟨S8x32768, .f32⟩ : BufTy).Contents (Elt F)),
    StableHlo.binary main_v6 main_v9 main_v10 (cmpf .oge : (⟨S8x32768, .f32⟩ : BufTy).Contents (Elt F) → (⟨S8x32768, .f32⟩ : BufTy).Contents (Elt F) → (⟨S8x32768, .i1⟩ : BufTy).Contents (Elt F)),
    StableHlo.binary main_v8 main_v10 main_v11 (andi : (⟨S8x32768, .i1⟩ : BufTy).Contents (Elt F) → (⟨S8x32768, .i1⟩ : BufTy).Contents (Elt F) → (⟨S8x32768, .i1⟩ : BufTy).Contents (Elt F)),
    StableHlo.nullary main_cst_2 (constant S_ .f32 0x42FE0000#32),
    StableHlo.unary main_cst_2 main_v12 (broadcastInDim S8x32768 ![] bcast_S_S8x32768 : (⟨S_, .f32⟩ : BufTy).Contents (Elt F) → (⟨S8x32768, .f32⟩ : BufTy).Contents (Elt F)),
    StableHlo.binary main_v4 main_v12 main_v13 (cmpf .ole : (⟨S8x32768, .f32⟩ : BufTy).Contents (Elt F) → (⟨S8x32768, .f32⟩ : BufTy).Contents (Elt F) → (⟨S8x32768, .i1⟩ : BufTy).Contents (Elt F)),
    StableHlo.binary main_v11 main_v13 main_v14 (andi : (⟨S8x32768, .i1⟩ : BufTy).Contents (Elt F) → (⟨S8x32768, .i1⟩ : BufTy).Contents (Elt F) → (⟨S8x32768, .i1⟩ : BufTy).Contents (Elt F)),
    StableHlo.nullary main_cst_3 (constant S_ .f32 0x42FE0000#32),
    StableHlo.unary main_cst_3 main_v15 (broadcastInDim S8x32768 ![] bcast_S_S8x32768 : (⟨S_, .f32⟩ : BufTy).Contents (Elt F) → (⟨S8x32768, .f32⟩ : BufTy).Contents (Elt F)),
    StableHlo.binary main_v6 main_v15 main_v16 (cmpf .ole : (⟨S8x32768, .f32⟩ : BufTy).Contents (Elt F) → (⟨S8x32768, .f32⟩ : BufTy).Contents (Elt F) → (⟨S8x32768, .i1⟩ : BufTy).Contents (Elt F)),
    StableHlo.binary main_v14 main_v16 main_v17 (andi : (⟨S8x32768, .i1⟩ : BufTy).Contents (Elt F) → (⟨S8x32768, .i1⟩ : BufTy).Contents (Elt F) → (⟨S8x32768, .i1⟩ : BufTy).Contents (Elt F)),
    StableHlo.unary main_v4 main_v18 (Host.floor : (⟨S8x32768, .f32⟩ : BufTy).Contents (Elt F) → (⟨S8x32768, .f32⟩ : BufTy).Contents (Elt F)),
    StableHlo.unary main_v4 main_v19 (Host.ceil : (⟨S8x32768, .f32⟩ : BufTy).Contents (Elt F) → (⟨S8x32768, .f32⟩ : BufTy).Contents (Elt F)),
    StableHlo.unary main_v6 main_v20 (Host.floor : (⟨S8x32768, .f32⟩ : BufTy).Contents (Elt F) → (⟨S8x32768, .f32⟩ : BufTy).Contents (Elt F)),
    StableHlo.unary main_v6 main_v21 (Host.ceil : (⟨S8x32768, .f32⟩ : BufTy).Contents (Elt F) → (⟨S8x32768, .f32⟩ : BufTy).Contents (Elt F)),
    StableHlo.unary main_v18 main_v22 (broadcastInDim S8x32768x1 ![0, 1] bcast_S8x32768_S8x32768x1_0_1 : (⟨S8x32768, .f32⟩ : BufTy).Contents (Elt F) → (⟨S8x32768x1, .f32⟩ : BufTy).Contents (Elt F)),
    StableHlo.unary main_v18 main_v23 (broadcastInDim S8x32768x1 ![0, 1] bcast_S8x32768_S8x32768x1_0_1 : (⟨S8x32768, .f32⟩ : BufTy).Contents (Elt F) → (⟨S8x32768x1, .f32⟩ : BufTy).Contents (Elt F)),
    StableHlo.unary main_v19 main_v24 (broadcastInDim S8x32768x1 ![0, 1] bcast_S8x32768_S8x32768x1_0_1 : (⟨S8x32768, .f32⟩ : BufTy).Contents (Elt F) → (⟨S8x32768x1, .f32⟩ : BufTy).Contents (Elt F)),
    StableHlo.unary main_v19 main_v25 (broadcastInDim S8x32768x1 ![0, 1] bcast_S8x32768_S8x32768x1_0_1 : (⟨S8x32768, .f32⟩ : BufTy).Contents (Elt F) → (⟨S8x32768x1, .f32⟩ : BufTy).Contents (Elt F)),
    StableHlo.nary ![main_v22, main_v23, main_v24, main_v25] main_v26 (fun u => concatenate S8x32768x4 2 [⟨S8x32768x1, u 0⟩, ⟨S8x32768x1, u 1⟩, ⟨S8x32768x1, u 2⟩, ⟨S8x32768x1, u 3⟩] concatenates_S8x32768x1_S8x32768x1_S8x32768x1_S8x32768x1_S8x32768x4_d2),
    StableHlo.unary main_v20 main_v27 (broadcastInDim S8x32768x1 ![0, 1] bcast_S8x32768_S8x32768x1_0_1 : (⟨S8x32768, .f32⟩ : BufTy).Contents (Elt F) → (⟨S8x32768x1, .f32⟩ : BufTy).Contents (Elt F)),
    StableHlo.unary main_v21 main_v28 (broadcastInDim S8x32768x1 ![0, 1] bcast_S8x32768_S8x32768x1_0_1 : (⟨S8x32768, .f32⟩ : BufTy).Contents (Elt F) → (⟨S8x32768x1, .f32⟩ : BufTy).Contents (Elt F)),
    StableHlo.unary main_v20 main_v29 (broadcastInDim S8x32768x1 ![0, 1] bcast_S8x32768_S8x32768x1_0_1 : (⟨S8x32768, .f32⟩ : BufTy).Contents (Elt F) → (⟨S8x32768x1, .f32⟩ : BufTy).Contents (Elt F)),
    StableHlo.unary main_v21 main_v30 (broadcastInDim S8x32768x1 ![0, 1] bcast_S8x32768_S8x32768x1_0_1 : (⟨S8x32768, .f32⟩ : BufTy).Contents (Elt F) → (⟨S8x32768x1, .f32⟩ : BufTy).Contents (Elt F)),
    StableHlo.nary ![main_v27, main_v28, main_v29, main_v30] main_v31 (fun u => concatenate S8x32768x4 2 [⟨S8x32768x1, u 0⟩, ⟨S8x32768x1, u 1⟩, ⟨S8x32768x1, u 2⟩, ⟨S8x32768x1, u 3⟩] concatenates_S8x32768x1_S8x32768x1_S8x32768x1_S8x32768x1_S8x32768x4_d2),
    StableHlo.unary main_v26 main_v32 (fptosi 32 : (⟨S8x32768x4, .f32⟩ : BufTy).Contents (Elt F) → (⟨S8x32768x4, .i32⟩ : BufTy).Contents (Elt F)),
    StableHlo.nullary main_c (constantI S_ 32 128#32),
    StableHlo.TRef.nullary main_call0.c (constantI S_ 32 0#32),
    StableHlo.TRef.binary (.of main_c) main_call0.c main_call0.v0 (cmpi .eq),
    StableHlo.TRef.nullary main_call0.c_0 (constantI S_ 32 1#32),
    StableHlo.TRef.ternary main_call0.v0 main_call0.c_0 (.of main_c) main_call0.call0.v0 select,
    StableHlo.TRef.unary main_call0.call0.v0 main_call0.v2 id,
    StableHlo.TRef.unary main_call0.v2 main_call0.v3 (broadcastInDim S8x32768x4 ![] bcast_S_S8x32768x4),
    StableHlo.TRef.binary (.of main_v32) main_call0.v3 main_call0.v4 Host.remsi,
    StableHlo.unary main_v31 main_v34 (fptosi 32 : (⟨S8x32768x4, .f32⟩ : BufTy).Contents (Elt F) → (⟨S8x32768x4, .i32⟩ : BufTy).Contents (Elt F)),
    StableHlo.nullary main_c_4 (constantI S_ 32 128#32),
    StableHlo.TRef.nullary main_call1.c (constantI S_ 32 0#32),
    StableHlo.TRef.binary (.of main_c_4) main_call1.c main_call1.v0 (cmpi .eq),
    StableHlo.TRef.nullary main_call1.c_0 (constantI S_ 32 1#32),
    StableHlo.TRef.ternary main_call1.v0 main_call1.c_0 (.of main_c_4) main_call1.call0.v0 select,
    StableHlo.TRef.unary main_call1.call0.v0 main_call1.v2 id,
    StableHlo.TRef.unary main_call1.v2 main_call1.v3 (broadcastInDim S8x32768x4 ![] bcast_S_S8x32768x4),
    StableHlo.TRef.binary (.of main_v34) main_call1.v3 main_call1.v4 Host.remsi,
    StableHlo.nullary main_c_5 (constantI S_ 32 0#32),
    StableHlo.unary main_c_5 main_v36 (broadcastInDim S8x32768x4 ![] bcast_S_S8x32768x4 : (⟨S_, .i32⟩ : BufTy).Contents (Elt F) → (⟨S8x32768x4, .i32⟩ : BufTy).Contents (Elt F)),
    StableHlo.binary main_v33 main_v36 main_v37 (maxsi : (⟨S8x32768x4, .i32⟩ : BufTy).Contents (Elt F) → (⟨S8x32768x4, .i32⟩ : BufTy).Contents (Elt F) → (⟨S8x32768x4, .i32⟩ : BufTy).Contents (Elt F)),
    StableHlo.nullary main_c_6 (constantI S_ 32 0#32),
    StableHlo.unary main_c_6 main_v38 (broadcastInDim S8x32768x4 ![] bcast_S_S8x32768x4 : (⟨S_, .i32⟩ : BufTy).Contents (Elt F) → (⟨S8x32768x4, .i32⟩ : BufTy).Contents (Elt F)),
    StableHlo.binary main_v35 main_v38 main_v39 (maxsi : (⟨S8x32768x4, .i32⟩ : BufTy).Contents (Elt F) → (⟨S8x32768x4, .i32⟩ : BufTy).Contents (Elt F) → (⟨S8x32768x4, .i32⟩ : BufTy).Contents (Elt F)),
    StableHlo.unary main_v2 main_v40 ((extractStridedSlice S8x32768x1 ![0, 0, 0] · slices_S8x32768x2_S8x32768x1_0_0_0) : (⟨S8x32768x2, .f32⟩ : BufTy).Contents (Elt F) → (⟨S8x32768x1, .f32⟩ : BufTy).Contents (Elt F)),
    StableHlo.reshape main_v40 main_v41 rfl shapeCasts_S8x32768x1_S8x32768,
    StableHlo.unary main_v41 main_v42 (broadcastInDim S8x32768x1 ![0, 1] bcast_S8x32768_S8x32768x1_0_1 : (⟨S8x32768, .f32⟩ : BufTy).Contents (Elt F) → (⟨S8x32768x1, .f32⟩ : BufTy).Contents (Elt F)),
    StableHlo.unary main_v37 main_v43 (sitofp .f32 : (⟨S8x32768x4, .i32⟩ : BufTy).Contents (Elt F) → (⟨S8x32768x4, .f32⟩ : BufTy).Contents (Elt F)),
    StableHlo.unary main_v42 main_v44 (broadcastInDim S8x32768x4 ![0, 1, 2] bcast_S8x32768x1_S8x32768x4_0_1_2 : (⟨S8x32768x1, .f32⟩ : BufTy).Contents (Elt F) → (⟨S8x32768x4, .f32⟩ : BufTy).Contents (Elt F)),
    StableHlo.binary main_v44 main_v43 main_v45 (subf : (⟨S8x32768x4, .f32⟩ : BufTy).Contents (Elt F) → (⟨S8x32768x4, .f32⟩ : BufTy).Contents (Elt F) → (⟨S8x32768x4, .f32⟩ : BufTy).Contents (Elt F)),
    StableHlo.unary main_v2 main_v46 ((extractStridedSlice S8x32768x1 ![0, 0, 1] · slices_S8x32768x2_S8x32768x1_0_0_1) : (⟨S8x32768x2, .f32⟩ : BufTy).Contents (Elt F) → (⟨S8x32768x1, .f32⟩ : BufTy).Contents (Elt F)),
    StableHlo.reshape main_v46 main_v47 rfl shapeCasts_S8x32768x1_S8x32768,
    StableHlo.unary main_v47 main_v48 (broadcastInDim S8x32768x1 ![0, 1] bcast_S8x32768_S8x32768x1_0_1 : (⟨S8x32768, .f32⟩ : BufTy).Contents (Elt F) → (⟨S8x32768x1, .f32⟩ : BufTy).Contents (Elt F)),
    StableHlo.unary main_v39 main_v49 (sitofp .f32 : (⟨S8x32768x4, .i32⟩ : BufTy).Contents (Elt F) → (⟨S8x32768x4, .f32⟩ : BufTy).Contents (Elt F)),
    StableHlo.unary main_v48 main_v50 (broadcastInDim S8x32768x4 ![0, 1, 2] bcast_S8x32768x1_S8x32768x4_0_1_2 : (⟨S8x32768x1, .f32⟩ : BufTy).Contents (Elt F) → (⟨S8x32768x4, .f32⟩ : BufTy).Contents (Elt F)),
    StableHlo.binary main_v50 main_v49 main_v51 (subf : (⟨S8x32768x4, .f32⟩ : BufTy).Contents (Elt F) → (⟨S8x32768x4, .f32⟩ : BufTy).Contents (Elt F) → (⟨S8x32768x4, .f32⟩ : BufTy).Contents (Elt F)),
    StableHlo.binary main_v45 main_v45 main_v52 (mulf : (⟨S8x32768x4, .f32⟩ : BufTy).Contents (Elt F) → (⟨S8x32768x4, .f32⟩ : BufTy).Contents (Elt F) → (⟨S8x32768x4, .f32⟩ : BufTy).Contents (Elt F)),
    StableHlo.binary main_v51 main_v51 main_v53 (mulf : (⟨S8x32768x4, .f32⟩ : BufTy).Contents (Elt F) → (⟨S8x32768x4, .f32⟩ : BufTy).Contents (Elt F) → (⟨S8x32768x4, .f32⟩ : BufTy).Contents (Elt F)),
    StableHlo.binary main_v52 main_v53 main_v54 (addf : (⟨S8x32768x4, .f32⟩ : BufTy).Contents (Elt F) → (⟨S8x32768x4, .f32⟩ : BufTy).Contents (Elt F) → (⟨S8x32768x4, .f32⟩ : BufTy).Contents (Elt F)),
    StableHlo.unary main_v54 main_v55 (Host.sqrt : (⟨S8x32768x4, .f32⟩ : BufTy).Contents (Elt F) → (⟨S8x32768x4, .f32⟩ : BufTy).Contents (Elt F)),
    StableHlo.nullary main_cst_7 (constant S_ .f32 0x2EDBE6FF#32),
    StableHlo.unary main_cst_7 main_v56 (broadcastInDim S8x32768x4 ![] bcast_S_S8x32768x4 : (⟨S_, .f32⟩ : BufTy).Contents (Elt F) → (⟨S8x32768x4, .f32⟩ : BufTy).Contents (Elt F)),
    StableHlo.binary main_v55 main_v56 main_v57 (addf : (⟨S8x32768x4, .f32⟩ : BufTy).Contents (Elt F) → (⟨S8x32768x4, .f32⟩ : BufTy).Contents (Elt F) → (⟨S8x32768x4, .f32⟩ : BufTy).Contents (Elt F)),
    StableHlo.nullary main_cst_8 (constant S_ .f32 0x3F800000#32),
    StableHlo.unary main_cst_8 main_v58 (broadcastInDim S8x32768x4 ![] bcast_S_S8x32768x4 : (⟨S_, .f32⟩ : BufTy).Contents (Elt F) → (⟨S8x32768x4, .f32⟩ : BufTy).Contents (Elt F)),
    StableHlo.binary main_v58 main_v57 main_v59 (Host.divf : (⟨S8x32768x4, .f32⟩ : BufTy).Contents (Elt F) → (⟨S8x32768x4, .f32⟩ : BufTy).Contents (Elt F) → (⟨S8x32768x4, .f32⟩ : BufTy).Contents (Elt F)),
    StableHlo.unary main_v17 main_v60 (broadcastInDim S8x32768x1 ![0, 1] bcast_S8x32768_S8x32768x1_0_1 : (⟨S8x32768, .i1⟩ : BufTy).Contents (Elt F) → (⟨S8x32768x1, .i1⟩ : BufTy).Contents (Elt F)),
    StableHlo.unary main_v60 main_v61 (uitofp .f32 : (⟨S8x32768x1, .i1⟩ : BufTy).Contents (Elt F) → (⟨S8x32768x1, .f32⟩ : BufTy).Contents (Elt F)),
    StableHlo.unary main_v61 main_v62 (broadcastInDim S8x32768x4 ![0, 1, 2] bcast_S8x32768x1_S8x32768x4_0_1_2 : (⟨S8x32768x1, .f32⟩ : BufTy).Contents (Elt F) → (⟨S8x32768x4, .f32⟩ : BufTy).Contents (Elt F)),
    StableHlo.binary main_v62 main_v59 main_v63 (mulf : (⟨S8x32768x4, .f32⟩ : BufTy).Contents (Elt F) → (⟨S8x32768x4, .f32⟩ : BufTy).Contents (Elt F) → (⟨S8x32768x4, .f32⟩ : BufTy).Contents (Elt F)),
    StableHlo.nullary main_cst_9 (constant S_ .f32 0x00000000#32),
    StableHlo.binary main_v63 main_cst_9 main_v64 ((fun x v => Host.reduceAdd x v reducesTo_S8x32768x4_S8x32768_d2 h_S_) : (⟨S8x32768x4, .f32⟩ : BufTy).Contents (Elt F) → (⟨S_, .f32⟩ : BufTy).Contents (Elt F) → (⟨S8x32768, .f32⟩ : BufTy).Contents (Elt F)),
    StableHlo.unary main_v64 main_v65 (broadcastInDim S8x32768x1 ![0, 1] bcast_S8x32768_S8x32768x1_0_1 : (⟨S8x32768, .f32⟩ : BufTy).Contents (Elt F) → (⟨S8x32768x1, .f32⟩ : BufTy).Contents (Elt F)),
    StableHlo.nullary main_cst_10 (constant S_ .f32 0x00000000#32),
    StableHlo.unary main_cst_10 main_v66 (broadcastInDim S8x32768x1 ![] bcast_S_S8x32768x1 : (⟨S_, .f32⟩ : BufTy).Contents (Elt F) → (⟨S8x32768x1, .f32⟩ : BufTy).Contents (Elt F)),
    StableHlo.binary main_v65 main_v66 main_v67 (cmpf .oeq : (⟨S8x32768x1, .f32⟩ : BufTy).Contents (Elt F) → (⟨S8x32768x1, .f32⟩ : BufTy).Contents (Elt F) → (⟨S8x32768x1, .i1⟩ : BufTy).Contents (Elt F)),
    StableHlo.nullary main_cst_11 (constant S_ .f32 0x3F800000#32),
    StableHlo.TRef.unary (.of main_cst_11) main_call2.v0 id,
    StableHlo.TRef.unary main_call2.v0 main_call2.v1 (broadcastInDim S8x32768x1 ![] bcast_S_S8x32768x1),
    StableHlo.TRef.ternary (.of main_v67) main_call2.v1 (.of main_v65) main_call2.v2 select,
    StableHlo.unary main_v68 main_v69 (broadcastInDim S8x32768x4 ![0, 1, 2] bcast_S8x32768x1_S8x32768x4_0_1_2 : (⟨S8x32768x1, .f32⟩ : BufTy).Contents (Elt F) → (⟨S8x32768x4, .f32⟩ : BufTy).Contents (Elt F)),
    StableHlo.binary main_v63 main_v69 main_v70 (Host.divf : (⟨S8x32768x4, .f32⟩ : BufTy).Contents (Elt F) → (⟨S8x32768x4, .f32⟩ : BufTy).Contents (Elt F) → (⟨S8x32768x4, .f32⟩ : BufTy).Contents (Elt F)),
    StableHlo.nullary main_c_12 (constantI S_ 32 128#32),
    StableHlo.unary main_c_12 main_v71 (broadcastInDim S8x32768x4 ![] bcast_S_S8x32768x4 : (⟨S_, .i32⟩ : BufTy).Contents (Elt F) → (⟨S8x32768x4, .i32⟩ : BufTy).Contents (Elt F)),
    StableHlo.binary main_v39 main_v71 main_v72 (muli : (⟨S8x32768x4, .i32⟩ : BufTy).Contents (Elt F) → (⟨S8x32768x4, .i32⟩ : BufTy).Contents (Elt F) → (⟨S8x32768x4, .i32⟩ : BufTy).Contents (Elt F)),
    StableHlo.binary main_v72 main_v37 main_v73 (addi : (⟨S8x32768x4, .i32⟩ : BufTy).Contents (Elt F) → (⟨S8x32768x4, .i32⟩ : BufTy).Contents (Elt F) → (⟨S8x32768x4, .i32⟩ : BufTy).Contents (Elt F)),
    StableHlo.unary main_arg1 main_v74 ((transpose S8x128x128x128 [0, 2, 3, 1] · transposes_S8x128x128x128_S8x128x128x128_0_2_3_1) : (⟨S8x128x128x128, .f32⟩ : BufTy).Contents (Elt F) → (⟨S8x128x128x128, .f32⟩ : BufTy).Contents (Elt F)),
    StableHlo.reshape main_v74 main_v75 rfl shapeCasts_S8x128x128x128_S8x16384x128,
    StableHlo.reshape main_v73 main_v76 rfl shapeCasts_S8x32768x4_S8x131072x1,
    StableHlo.TRef.nullary main_call3.c (constantI S_ 32 0#32),
    StableHlo.TRef.unary main_call3.c main_call3.v0 (broadcastInDim S8x131072x1 ![] bcast_S_S8x131072x1),
    StableHlo.TRef.binary (.of main_v76) main_call3.v0 main_call3.v1 (cmpi .slt),
    StableHlo.TRef.nullary main_call3.c_0 (constantI S_ 32 16384#32),
    StableHlo.TRef.unary main_call3.c_0 main_call3.v2 (broadcastInDim S8x131072x1 ![] bcast_S_S8x131072x1),
    StableHlo.TRef.binary (.of main_v76) main_call3.v2 main_call3.v3 addi,
    StableHlo.TRef.ternary main_call3.v1 main_call3.v3 (.of main_v76) main_call3.v4 select,
    StableHlo.TRef.nullary main_call3.c_1 (constantI S1 32 16383#32),
    StableHlo.TRef.nullary main_call3.c_2 (constantI S_ 32 0#32),
    StableHlo.TRef.unary main_call3.c_2 main_call3.v5 (broadcastInDim S8x131072x1 ![] bcast_S_S8x131072x1),
    StableHlo.TRef.binary main_call3.v4 main_call3.v5 main_call3.v6 (cmpi .sge),
    StableHlo.TRef.unary main_call3.c_1 main_call3.v7 (broadcastInDim S1x1x1 ![2] bcast_S1_S1x1x1_2),
    StableHlo.TRef.unary main_call3.v7 main_call3.v8 (broadcastInDim S8x131072x1 ![0, 1, 2] bcast_S1x1x1_S8x131072x1_0_1_2),
    StableHlo.TRef.binary main_call3.v4 main_call3.v8 main_call3.v9 (cmpi .sle),
    StableHlo.TRef.binary main_call3.v6 main_call3.v9 main_call3.v10 andi,
    StableHlo.TRef.nullary main_call3.c_3 (constantI S_ 1 1#1),
    StableHlo.TRef.binary main_call3.v10 main_call3.c_3 main_call3.v11 (fun x v => Host.reduce IntOp.andi x v reducesTo_S8x131072x1_S8x131072_d2 h_S_),
    StableHlo.TRef.binary (.of main_v75) main_call3.v4 main_call3.v12 (fun x i => Host.gather gather_S8x16384x128_S8x131072x1_S8x131072x128_2_1_0_0_1_2_11128 x i),
    StableHlo.TRef.unary main_call3.v11 main_call3.v13 (broadcastInDim S8x131072x128 ![0, 1] bcast_S8x131072_S8x131072x128_0_1),
    StableHlo.TRef.nullary main_call3.cst (constant S_ .f32 0x7FC00000#32),
    StableHlo.TRef.unary main_call3.cst main_call3.v14 (broadcastInDim S8x131072x128 ![] bcast_S_S8x131072x128),
    StableHlo.TRef.ternary main_call3.v13 main_call3.v12 main_call3.v14 main_call3.v15 select,
    StableHlo.reshape main_v77 main_v78 rfl shapeCasts_S8x131072x128_S8x32768x4x128,
    StableHlo.unary main_v70 main_v79 (broadcastInDim S8x32768x4x1 ![0, 1, 2] bcast_S8x32768x4_S8x32768x4x1_0_1_2 : (⟨S8x32768x4, .f32⟩ : BufTy).Contents (Elt F) → (⟨S8x32768x4x1, .f32⟩ : BufTy).Contents (Elt F)),
    StableHlo.unary main_v79 main_v80 (broadcastInDim S8x32768x4x128 ![0, 1, 2, 3] bcast_S8x32768x4x1_S8x32768x4x128_0_1_2_3 : (⟨S8x32768x4x1, .f32⟩ : BufTy).Contents (Elt F) → (⟨S8x32768x4x128, .f32⟩ : BufTy).Contents (Elt F)),
    StableHlo.binary main_v78 main_v80 main_v81 (mulf : (⟨S8x32768x4x128, .f32⟩ : BufTy).Contents (Elt F) → (⟨S8x32768x4x128, .f32⟩ : BufTy).Contents (Elt F) → (⟨S8x32768x4x128, .f32⟩ : BufTy).Contents (Elt F)),
    StableHlo.nullary main_cst_13 (constant S_ .f32 0x00000000#32),
    StableHlo.binary main_v81 main_cst_13 main_v82 ((fun x v => Host.reduceAdd x v reducesTo_S8x32768x4x128_S8x32768x128_d2 h_S_) : (⟨S8x32768x4x128, .f32⟩ : BufTy).Contents (Elt F) → (⟨S_, .f32⟩ : BufTy).Contents (Elt F) → (⟨S8x32768x128, .f32⟩ : BufTy).Contents (Elt F)) ]

set_option maxRecDepth 4096 in
set_option maxHeartbeats 4000000 in
/-- The entry function is that list run in order: the two halves of its body and the four called functions
    unfolded, sequencing reassociated. -/
theorem main_eq (c : Dev nD) : main (F := F) c = seq ops := by
  simp only [main, main_part0, main_part1, fn_fmod.body, fn_where.body, fn_where_0.body, fn_take_along_axis.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., unary_bufs_sub .., binary_bufs_sub .., unary_bufs_sub .., reshape_bufs_sub ..,
    unary_bufs_sub .., reshape_bufs_sub .., nullary_bufs_sub .., unary_bufs_sub .., binary_bufs_sub .., nullary_bufs_sub ..,
    unary_bufs_sub .., binary_bufs_sub .., binary_bufs_sub .., nullary_bufs_sub .., unary_bufs_sub .., binary_bufs_sub ..,
    binary_bufs_sub .., nullary_bufs_sub .., unary_bufs_sub .., binary_bufs_sub .., binary_bufs_sub .., unary_bufs_sub ..,
    unary_bufs_sub .., unary_bufs_sub .., unary_bufs_sub .., unary_bufs_sub .., unary_bufs_sub .., unary_bufs_sub ..,
    unary_bufs_sub .., nary_bufs_sub .., unary_bufs_sub .., unary_bufs_sub .., unary_bufs_sub .., unary_bufs_sub ..,
    nary_bufs_sub .., unary_bufs_sub .., nullary_bufs_sub .., nullary_bufs_sub .., binary_bufs_sub .., nullary_bufs_sub ..,
    ternary_bufs_sub .., unary_bufs_sub .., unary_bufs_sub .., binary_bufs_sub .., unary_bufs_sub .., nullary_bufs_sub ..,
    nullary_bufs_sub .., binary_bufs_sub .., nullary_bufs_sub .., ternary_bufs_sub .., unary_bufs_sub .., unary_bufs_sub ..,
    binary_bufs_sub .., nullary_bufs_sub .., unary_bufs_sub .., binary_bufs_sub .., nullary_bufs_sub .., unary_bufs_sub ..,
    binary_bufs_sub .., unary_bufs_sub .., reshape_bufs_sub .., unary_bufs_sub .., unary_bufs_sub .., unary_bufs_sub ..,
    binary_bufs_sub .., unary_bufs_sub .., reshape_bufs_sub .., unary_bufs_sub .., unary_bufs_sub .., unary_bufs_sub ..,
    binary_bufs_sub .., binary_bufs_sub .., binary_bufs_sub .., binary_bufs_sub .., unary_bufs_sub .., nullary_bufs_sub ..,
    unary_bufs_sub .., binary_bufs_sub .., nullary_bufs_sub .., unary_bufs_sub .., binary_bufs_sub .., unary_bufs_sub ..,
    unary_bufs_sub .., unary_bufs_sub .., binary_bufs_sub .., nullary_bufs_sub .., binary_bufs_sub .., unary_bufs_sub ..,
    nullary_bufs_sub .., unary_bufs_sub .., binary_bufs_sub .., nullary_bufs_sub .., unary_bufs_sub .., unary_bufs_sub ..,
    ternary_bufs_sub .., unary_bufs_sub .., binary_bufs_sub .., nullary_bufs_sub .., unary_bufs_sub .., binary_bufs_sub ..,
    binary_bufs_sub .., unary_bufs_sub .., reshape_bufs_sub .., reshape_bufs_sub .., nullary_bufs_sub .., unary_bufs_sub ..,
    binary_bufs_sub .., nullary_bufs_sub .., unary_bufs_sub .., binary_bufs_sub .., ternary_bufs_sub .., nullary_bufs_sub ..,
    nullary_bufs_sub .., unary_bufs_sub .., binary_bufs_sub .., unary_bufs_sub .., unary_bufs_sub .., binary_bufs_sub ..,
    binary_bufs_sub .., nullary_bufs_sub .., binary_bufs_sub .., binary_bufs_sub .., unary_bufs_sub .., nullary_bufs_sub ..,
    unary_bufs_sub .., ternary_bufs_sub .., reshape_bufs_sub .., unary_bufs_sub .., unary_bufs_sub .., binary_bufs_sub ..,
    nullary_bufs_sub .., binary_bufs_sub ..⟩

/-- Every weakly fair execution of the reference terminates, each buffer at the operations' fold over the launch
    contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Line

end
-- ==== Proof.RefStages.lean ====
import proofs.«427828_j9345848836388_3_alg».proof.Proof.Gen.ReferenceIdeal

/-!
The reference's values, one per operation, as functions of the two argument arrays.

Each definition is one operation of the reference's straight line (the called functions' operations in place) applied
to the values it reads: `s_v4` and `s_v6` are the points' x and y; `s_v17` says which points lie inside the grid;
`s_v26` and `s_v31` stack the four corners' rounded coordinates; `s_v37` and `s_v39` are the corners' grid
coordinates; `s_v63` the raw weights, `s_v64` their sum, `s_v70` the weights; `s_v73` the corners' rows in the
feature table `s_v75`; `s_v77` the rows gathered; `s_v82` the weighted sum, the result.
-/

noncomputable section

namespace Cert.ReferenceIdeal.Stages

open Cert.ReferenceIdeal Cert.ReferenceIdeal.Gen Idealize.ShloMosaic

variable {F : FTy → Type} [FloatOps F]

def s_cst (a0 : (⟨S8x32768x2, .f32⟩ : BufTy).Contents (Elt F)) (a1 : (⟨S8x128x128x128, .f32⟩ : BufTy).Contents (Elt F)) : (⟨S2, .f32⟩ : BufTy).Contents (Elt F) :=
  (constant S2 .f32 0x3F800000#32)

def s_v0 (a0 : (⟨S8x32768x2, .f32⟩ : BufTy).Contents (Elt F)) (a1 : (⟨S8x128x128x128, .f32⟩ : BufTy).Contents (Elt F)) : (⟨S1x1x2, .f32⟩ : BufTy).Contents (Elt F) :=
  (broadcastInDim S1x1x2 ![2] bcast_S2_S1x1x2_2 : (⟨S2, .f32⟩ : BufTy).Contents (Elt F) → (⟨S1x1x2, .f32⟩ : BufTy).Contents (Elt F)) (s_cst a0 a1)

def s_v1 (a0 : (⟨S8x32768x2, .f32⟩ : BufTy).Contents (Elt F)) (a1 : (⟨S8x128x128x128, .f32⟩ : BufTy).Contents (Elt F)) : (⟨S8x32768x2, .f32⟩ : BufTy).Contents (Elt F) :=
  (broadcastInDim S8x32768x2 ![0, 1, 2] bcast_S1x1x2_S8x32768x2_0_1_2 : (⟨S1x1x2, .f32⟩ : BufTy).Contents (Elt F) → (⟨S8x32768x2, .f32⟩ : BufTy).Contents (Elt F)) (s_v0 a0 a1)

def s_v2 (a0 : (⟨S8x32768x2, .f32⟩ : BufTy).Contents (Elt F)) (a1 : (⟨S8x128x128x128, .f32⟩ : BufTy).Contents (Elt F)) : (⟨S8x32768x2, .f32⟩ : BufTy).Contents (Elt F) :=
  (Host.divf : (⟨S8x32768x2, .f32⟩ : BufTy).Contents (Elt F) → (⟨S8x32768x2, .f32⟩ : BufTy).Contents (Elt F) → (⟨S8x32768x2, .f32⟩ : BufTy).Contents (Elt F)) a0 (s_v1 a0 a1)

def s_v3 (a0 : (⟨S8x32768x2, .f32⟩ : BufTy).Contents (Elt F)) (a1 : (⟨S8x128x128x128, .f32⟩ : BufTy).Contents (Elt F)) : (⟨S8x32768x1, .f32⟩ : BufTy).Contents (Elt F) :=
  ((extractStridedSlice S8x32768x1 ![0, 0, 0] · slices_S8x32768x2_S8x32768x1_0_0_0) : (⟨S8x32768x2, .f32⟩ : BufTy).Contents (Elt F) → (⟨S8x32768x1, .f32⟩ : BufTy).Contents (Elt F)) (s_v2 a0 a1)

def s_v4 (a0 : (⟨S8x32768x2, .f32⟩ : BufTy).Contents (Elt F)) (a1 : (⟨S8x128x128x128, .f32⟩ : BufTy).Contents (Elt F)) : (⟨S8x32768, .f32⟩ : BufTy).Contents (Elt F) :=
  shapeCast S8x32768 (s_v3 a0 a1) shapeCasts_S8x32768x1_S8x32768

def s_v5 (a0 : (⟨S8x32768x2, .f32⟩ : BufTy).Contents (Elt F)) (a1 : (⟨S8x128x128x128, .f32⟩ : BufTy).Contents (Elt F)) : (⟨S8x32768x1, .f32⟩ : BufTy).Contents (Elt F) :=
  ((extractStridedSlice S8x32768x1 ![0, 0, 1] · slices_S8x32768x2_S8x32768x1_0_0_1) : (⟨S8x32768x2, .f32⟩ : BufTy).Contents (Elt F) → (⟨S8x32768x1, .f32⟩ : BufTy).Contents (Elt F)) (s_v2 a0 a1)

def s_v6 (a0 : (⟨S8x32768x2, .f32⟩ : BufTy).Contents (Elt F)) (a1 : (⟨S8x128x128x128, .f32⟩ : BufTy).Contents (Elt F)) : (⟨S8x32768, .f32⟩ : BufTy).Contents (Elt F) :=
  shapeCast S8x32768 (s_v5 a0 a1) shapeCasts_S8x32768x1_S8x32768

def s_cst_0 (a0 : (⟨S8x32768x2, .f32⟩ : BufTy).Contents (Elt F)) (a1 : (⟨S8x128x128x128, .f32⟩ : BufTy).Contents (Elt F)) : (⟨S_, .f32⟩ : BufTy).Contents (Elt F) :=
  (constant S_ .f32 0x00000000#32)

def s_v7 (a0 : (⟨S8x32768x2, .f32⟩ : BufTy).Contents (Elt F)) (a1 : (⟨S8x128x128x128, .f32⟩ : BufTy).Contents (Elt F)) : (⟨S8x32768, .f32⟩ : BufTy).Contents (Elt F) :=
  (broadcastInDim S8x32768 ![] bcast_S_S8x32768 : (⟨S_, .f32⟩ : BufTy).Contents (Elt F) → (⟨S8x32768, .f32⟩ : BufTy).Contents (Elt F)) (s_cst_0 a0 a1)

def s_v8 (a0 : (⟨S8x32768x2, .f32⟩ : BufTy).Contents (Elt F)) (a1 : (⟨S8x128x128x128, .f32⟩ : BufTy).Contents (Elt F)) : (⟨S8x32768, .i1⟩ : BufTy).Contents (Elt F) :=
  (cmpf .oge : (⟨S8x32768, .f32⟩ : BufTy).Contents (Elt F) → (⟨S8x32768, .f32⟩ : BufTy).Contents (Elt F) → (⟨S8x32768, .i1⟩ : BufTy).Contents (Elt F)) (s_v4 a0 a1) (s_v7 a0 a1)

def s_cst_1 (a0 : (⟨S8x32768x2, .f32⟩ : BufTy).Contents (Elt F)) (a1 : (⟨S8x128x128x128, .f32⟩ : BufTy).Contents (Elt F)) : (⟨S_, .f32⟩ : BufTy).Contents (Elt F) :=
  (constant S_ .f32 0x00000000#32)

def s_v9 (a0 : (⟨S8x32768x2, .f32⟩ : BufTy).Contents (Elt F)) (a1 : (⟨S8x128x128x128, .f32⟩ : BufTy).Contents (Elt F)) : (⟨S8x32768, .f32⟩ : BufTy).Contents (Elt F) :=
  (broadcastInDim S8x32768 ![] bcast_S_S8x32768 : (⟨S_, .f32⟩ : BufTy).Contents (Elt F) → (⟨S8x32768, .f32⟩ : BufTy).Contents (Elt F)) (s_cst_1 a0 a1)

def s_v10 (a0 : (⟨S8x32768x2, .f32⟩ : BufTy).Contents (Elt F)) (a1 : (⟨S8x128x128x128, .f32⟩ : BufTy).Contents (Elt F)) : (⟨S8x32768, .i1⟩ : BufTy).Contents (Elt F) :=
  (cmpf .oge : (⟨S8x32768, .f32⟩ : BufTy).Contents (Elt F) → (⟨S8x32768, .f32⟩ : BufTy).Contents (Elt F) → (⟨S8x32768, .i1⟩ : BufTy).Contents (Elt F)) (s_v6 a0 a1) (s_v9 a0 a1)

def s_v11 (a0 : (⟨S8x32768x2, .f32⟩ : BufTy).Contents (Elt F)) (a1 : (⟨S8x128x128x128, .f32⟩ : BufTy).Contents (Elt F)) : (⟨S8x32768, .i1⟩ : BufTy).Contents (Elt F) :=
  (andi : (⟨S8x32768, .i1⟩ : BufTy).Contents (Elt F) → (⟨S8x32768, .i1⟩ : BufTy).Contents (Elt F) → (⟨S8x32768, .i1⟩ : BufTy).Contents (Elt F)) (s_v8 a0 a1) (s_v10 a0 a1)

def s_cst_2 (a0 : (⟨S8x32768x2, .f32⟩ : BufTy).Contents (Elt F)) (a1 : (⟨S8x128x128x128, .f32⟩ : BufTy).Contents (Elt F)) : (⟨S_, .f32⟩ : BufTy).Contents (Elt F) :=
  (constant S_ .f32 0x42FE0000#32)

def s_v12 (a0 : (⟨S8x32768x2, .f32⟩ : BufTy).Contents (Elt F)) (a1 : (⟨S8x128x128x128, .f32⟩ : BufTy).Contents (Elt F)) : (⟨S8x32768, .f32⟩ : BufTy).Contents (Elt F) :=
  (broadcastInDim S8x32768 ![] bcast_S_S8x32768 : (⟨S_, .f32⟩ : BufTy).Contents (Elt F) → (⟨S8x32768, .f32⟩ : BufTy).Contents (Elt F)) (s_cst_2 a0 a1)

def s_v13 (a0 : (⟨S8x32768x2, .f32⟩ : BufTy).Contents (Elt F)) (a1 : (⟨S8x128x128x128, .f32⟩ : BufTy).Contents (Elt F)) : (⟨S8x32768, .i1⟩ : BufTy).Contents (Elt F) :=
  (cmpf .ole : (⟨S8x32768, .f32⟩ : BufTy).Contents (Elt F) → (⟨S8x32768, .f32⟩ : BufTy).Contents (Elt F) → (⟨S8x32768, .i1⟩ : BufTy).Contents (Elt F)) (s_v4 a0 a1) (s_v12 a0 a1)

def s_v14 (a0 : (⟨S8x32768x2, .f32⟩ : BufTy).Contents (Elt F)) (a1 : (⟨S8x128x128x128, .f32⟩ : BufTy).Contents (Elt F)) : (⟨S8x32768, .i1⟩ : BufTy).Contents (Elt F) :=
  (andi : (⟨S8x32768, .i1⟩ : BufTy).Contents (Elt F) → (⟨S8x32768, .i1⟩ : BufTy).Contents (Elt F) → (⟨S8x32768, .i1⟩ : BufTy).Contents (Elt F)) (s_v11 a0 a1) (s_v13 a0 a1)

def s_cst_3 (a0 : (⟨S8x32768x2, .f32⟩ : BufTy).Contents (Elt F)) (a1 : (⟨S8x128x128x128, .f32⟩ : BufTy).Contents (Elt F)) : (⟨S_, .f32⟩ : BufTy).Contents (Elt F) :=
  (constant S_ .f32 0x42FE0000#32)

def s_v15 (a0 : (⟨S8x32768x2, .f32⟩ : BufTy).Contents (Elt F)) (a1 : (⟨S8x128x128x128, .f32⟩ : BufTy).Contents (Elt F)) : (⟨S8x32768, .f32⟩ : BufTy).Contents (Elt F) :=
  (broadcastInDim S8x32768 ![] bcast_S_S8x32768 : (⟨S_, .f32⟩ : BufTy).Contents (Elt F) → (⟨S8x32768, .f32⟩ : BufTy).Contents (Elt F)) (s_cst_3 a0 a1)

def s_v16 (a0 : (⟨S8x32768x2, .f32⟩ : BufTy).Contents (Elt F)) (a1 : (⟨S8x128x128x128, .f32⟩ : BufTy).Contents (Elt F)) : (⟨S8x32768, .i1⟩ : BufTy).Contents (Elt F) :=
  (cmpf .ole : (⟨S8x32768, .f32⟩ : BufTy).Contents (Elt F) → (⟨S8x32768, .f32⟩ : BufTy).Contents (Elt F) → (⟨S8x32768, .i1⟩ : BufTy).Contents (Elt F)) (s_v6 a0 a1) (s_v15 a0 a1)

def s_v17 (a0 : (⟨S8x32768x2, .f32⟩ : BufTy).Contents (Elt F)) (a1 : (⟨S8x128x128x128, .f32⟩ : BufTy).Contents (Elt F)) : (⟨S8x32768, .i1⟩ : BufTy).Contents (Elt F) :=
  (andi : (⟨S8x32768, .i1⟩ : BufTy).Contents (Elt F) → (⟨S8x32768, .i1⟩ : BufTy).Contents (Elt F) → (⟨S8x32768, .i1⟩ : BufTy).Contents (Elt F)) (s_v14 a0 a1) (s_v16 a0 a1)

def s_v18 (a0 : (⟨S8x32768x2, .f32⟩ : BufTy).Contents (Elt F)) (a1 : (⟨S8x128x128x128, .f32⟩ : BufTy).Contents (Elt F)) : (⟨S8x32768, .f32⟩ : BufTy).Contents (Elt F) :=
  (Host.floor : (⟨S8x32768, .f32⟩ : BufTy).Contents (Elt F) → (⟨S8x32768, .f32⟩ : BufTy).Contents (Elt F)) (s_v4 a0 a1)

def s_v19 (a0 : (⟨S8x32768x2, .f32⟩ : BufTy).Contents (Elt F)) (a1 : (⟨S8x128x128x128, .f32⟩ : BufTy).Contents (Elt F)) : (⟨S8x32768, .f32⟩ : BufTy).Contents (Elt F) :=
  (Host.ceil : (⟨S8x32768, .f32⟩ : BufTy).Contents (Elt F) → (⟨S8x32768, .f32⟩ : BufTy).Contents (Elt F)) (s_v4 a0 a1)

def s_v20 (a0 : (⟨S8x32768x2, .f32⟩ : BufTy).Contents (Elt F)) (a1 : (⟨S8x128x128x128, .f32⟩ : BufTy).Contents (Elt F)) : (⟨S8x32768, .f32⟩ : BufTy).Contents (Elt F) :=
  (Host.floor : (⟨S8x32768, .f32⟩ : BufTy).Contents (Elt F) → (⟨S8x32768, .f32⟩ : BufTy).Contents (Elt F)) (s_v6 a0 a1)

def s_v21 (a0 : (⟨S8x32768x2, .f32⟩ : BufTy).Contents (Elt F)) (a1 : (⟨S8x128x128x128, .f32⟩ : BufTy).Contents (Elt F)) : (⟨S8x32768, .f32⟩ : BufTy).Contents (Elt F) :=
  (Host.ceil : (⟨S8x32768, .f32⟩ : BufTy).Contents (Elt F) → (⟨S8x32768, .f32⟩ : BufTy).Contents (Elt F)) (s_v6 a0 a1)

def s_v22 (a0 : (⟨S8x32768x2, .f32⟩ : BufTy).Contents (Elt F)) (a1 : (⟨S8x128x128x128, .f32⟩ : BufTy).Contents (Elt F)) : (⟨S8x32768x1, .f32⟩ : BufTy).Contents (Elt F) :=
  (broadcastInDim S8x32768x1 ![0, 1] bcast_S8x32768_S8x32768x1_0_1 : (⟨S8x32768, .f32⟩ : BufTy).Contents (Elt F) → (⟨S8x32768x1, .f32⟩ : BufTy).Contents (Elt F)) (s_v18 a0 a1)

def s_v23 (a0 : (⟨S8x32768x2, .f32⟩ : BufTy).Contents (Elt F)) (a1 : (⟨S8x128x128x128, .f32⟩ : BufTy).Contents (Elt F)) : (⟨S8x32768x1, .f32⟩ : BufTy).Contents (Elt F) :=
  (broadcastInDim S8x32768x1 ![0, 1] bcast_S8x32768_S8x32768x1_0_1 : (⟨S8x32768, .f32⟩ : BufTy).Contents (Elt F) → (⟨S8x32768x1, .f32⟩ : BufTy).Contents (Elt F)) (s_v18 a0 a1)

def s_v24 (a0 : (⟨S8x32768x2, .f32⟩ : BufTy).Contents (Elt F)) (a1 : (⟨S8x128x128x128, .f32⟩ : BufTy).Contents (Elt F)) : (⟨S8x32768x1, .f32⟩ : BufTy).Contents (Elt F) :=
  (broadcastInDim S8x32768x1 ![0, 1] bcast_S8x32768_S8x32768x1_0_1 : (⟨S8x32768, .f32⟩ : BufTy).Contents (Elt F) → (⟨S8x32768x1, .f32⟩ : BufTy).Contents (Elt F)) (s_v19 a0 a1)

def s_v25 (a0 : (⟨S8x32768x2, .f32⟩ : BufTy).Contents (Elt F)) (a1 : (⟨S8x128x128x128, .f32⟩ : BufTy).Contents (Elt F)) : (⟨S8x32768x1, .f32⟩ : BufTy).Contents (Elt F) :=
  (broadcastInDim S8x32768x1 ![0, 1] bcast_S8x32768_S8x32768x1_0_1 : (⟨S8x32768, .f32⟩ : BufTy).Contents (Elt F) → (⟨S8x32768x1, .f32⟩ : BufTy).Contents (Elt F)) (s_v19 a0 a1)

def s_v26 (a0 : (⟨S8x32768x2, .f32⟩ : BufTy).Contents (Elt F)) (a1 : (⟨S8x128x128x128, .f32⟩ : BufTy).Contents (Elt F)) : (⟨S8x32768x4, .f32⟩ : BufTy).Contents (Elt F) :=
  concatenate S8x32768x4 2 [⟨S8x32768x1, (s_v22 a0 a1)⟩, ⟨S8x32768x1, (s_v23 a0 a1)⟩, ⟨S8x32768x1, (s_v24 a0 a1)⟩, ⟨S8x32768x1, (s_v25 a0 a1)⟩] concatenates_S8x32768x1_S8x32768x1_S8x32768x1_S8x32768x1_S8x32768x4_d2

def s_v27 (a0 : (⟨S8x32768x2, .f32⟩ : BufTy).Contents (Elt F)) (a1 : (⟨S8x128x128x128, .f32⟩ : BufTy).Contents (Elt F)) : (⟨S8x32768x1, .f32⟩ : BufTy).Contents (Elt F) :=
  (broadcastInDim S8x32768x1 ![0, 1] bcast_S8x32768_S8x32768x1_0_1 : (⟨S8x32768, .f32⟩ : BufTy).Contents (Elt F) → (⟨S8x32768x1, .f32⟩ : BufTy).Contents (Elt F)) (s_v20 a0 a1)

def s_v28 (a0 : (⟨S8x32768x2, .f32⟩ : BufTy).Contents (Elt F)) (a1 : (⟨S8x128x128x128, .f32⟩ : BufTy).Contents (Elt F)) : (⟨S8x32768x1, .f32⟩ : BufTy).Contents (Elt F) :=
  (broadcastInDim S8x32768x1 ![0, 1] bcast_S8x32768_S8x32768x1_0_1 : (⟨S8x32768, .f32⟩ : BufTy).Contents (Elt F) → (⟨S8x32768x1, .f32⟩ : BufTy).Contents (Elt F)) (s_v21 a0 a1)

def s_v29 (a0 : (⟨S8x32768x2, .f32⟩ : BufTy).Contents (Elt F)) (a1 : (⟨S8x128x128x128, .f32⟩ : BufTy).Contents (Elt F)) : (⟨S8x32768x1, .f32⟩ : BufTy).Contents (Elt F) :=
  (broadcastInDim S8x32768x1 ![0, 1] bcast_S8x32768_S8x32768x1_0_1 : (⟨S8x32768, .f32⟩ : BufTy).Contents (Elt F) → (⟨S8x32768x1, .f32⟩ : BufTy).Contents (Elt F)) (s_v20 a0 a1)

def s_v30 (a0 : (⟨S8x32768x2, .f32⟩ : BufTy).Contents (Elt F)) (a1 : (⟨S8x128x128x128, .f32⟩ : BufTy).Contents (Elt F)) : (⟨S8x32768x1, .f32⟩ : BufTy).Contents (Elt F) :=
  (broadcastInDim S8x32768x1 ![0, 1] bcast_S8x32768_S8x32768x1_0_1 : (⟨S8x32768, .f32⟩ : BufTy).Contents (Elt F) → (⟨S8x32768x1, .f32⟩ : BufTy).Contents (Elt F)) (s_v21 a0 a1)

def s_v31 (a0 : (⟨S8x32768x2, .f32⟩ : BufTy).Contents (Elt F)) (a1 : (⟨S8x128x128x128, .f32⟩ : BufTy).Contents (Elt F)) : (⟨S8x32768x4, .f32⟩ : BufTy).Contents (Elt F) :=
  concatenate S8x32768x4 2 [⟨S8x32768x1, (s_v27 a0 a1)⟩, ⟨S8x32768x1, (s_v28 a0 a1)⟩, ⟨S8x32768x1, (s_v29 a0 a1)⟩, ⟨S8x32768x1, (s_v30 a0 a1)⟩] concatenates_S8x32768x1_S8x32768x1_S8x32768x1_S8x32768x1_S8x32768x4_d2

def s_v32 (a0 : (⟨S8x32768x2, .f32⟩ : BufTy).Contents (Elt F)) (a1 : (⟨S8x128x128x128, .f32⟩ : BufTy).Contents (Elt F)) : (⟨S8x32768x4, .i32⟩ : BufTy).Contents (Elt F) :=
  (fptosi 32 : (⟨S8x32768x4, .f32⟩ : BufTy).Contents (Elt F) → (⟨S8x32768x4, .i32⟩ : BufTy).Contents (Elt F)) (s_v26 a0 a1)

def s_c (a0 : (⟨S8x32768x2, .f32⟩ : BufTy).Contents (Elt F)) (a1 : (⟨S8x128x128x128, .f32⟩ : BufTy).Contents (Elt F)) : (⟨S_, .i32⟩ : BufTy).Contents (Elt F) :=
  (constantI S_ 32 128#32)

def s_call0_c (a0 : (⟨S8x32768x2, .f32⟩ : BufTy).Contents (Elt F)) (a1 : (⟨S8x128x128x128, .f32⟩ : BufTy).Contents (Elt F)) : (⟨S_, .i32⟩ : BufTy).Contents (Elt F) :=
  (constantI S_ 32 0#32)

def s_call0_v0 (a0 : (⟨S8x32768x2, .f32⟩ : BufTy).Contents (Elt F)) (a1 : (⟨S8x128x128x128, .f32⟩ : BufTy).Contents (Elt F)) : (⟨S_, .i1⟩ : BufTy).Contents (Elt F) :=
  (cmpi .eq) (s_c a0 a1) (s_call0_c a0 a1)

def s_call0_c_0 (a0 : (⟨S8x32768x2, .f32⟩ : BufTy).Contents (Elt F)) (a1 : (⟨S8x128x128x128, .f32⟩ : BufTy).Contents (Elt F)) : (⟨S_, .i32⟩ : BufTy).Contents (Elt F) :=
  (constantI S_ 32 1#32)

def s_call0_v1 (a0 : (⟨S8x32768x2, .f32⟩ : BufTy).Contents (Elt F)) (a1 : (⟨S8x128x128x128, .f32⟩ : BufTy).Contents (Elt F)) : (⟨S_, .i32⟩ : BufTy).Contents (Elt F) :=
  select (s_call0_v0 a0 a1) (s_call0_c_0 a0 a1) (s_c a0 a1)

def s_call0_v2 (a0 : (⟨S8x32768x2, .f32⟩ : BufTy).Contents (Elt F)) (a1 : (⟨S8x128x128x128, .f32⟩ : BufTy).Contents (Elt F)) : (⟨S_, .i32⟩ : BufTy).Contents (Elt F) :=
  id (s_call0_v1 a0 a1)

def s_call0_v3 (a0 : (⟨S8x32768x2, .f32⟩ : BufTy).Contents (Elt F)) (a1 : (⟨S8x128x128x128, .f32⟩ : BufTy).Contents (Elt F)) : (⟨S8x32768x4, .i32⟩ : BufTy).Contents (Elt F) :=
  (broadcastInDim S8x32768x4 ![] bcast_S_S8x32768x4) (s_call0_v2 a0 a1)

def s_v33 (a0 : (⟨S8x32768x2, .f32⟩ : BufTy).Contents (Elt F)) (a1 : (⟨S8x128x128x128, .f32⟩ : BufTy).Contents (Elt F)) : (⟨S8x32768x4, .i32⟩ : BufTy).Contents (Elt F) :=
  Host.remsi (s_v32 a0 a1) (s_call0_v3 a0 a1)

def s_v34 (a0 : (⟨S8x32768x2, .f32⟩ : BufTy).Contents (Elt F)) (a1 : (⟨S8x128x128x128, .f32⟩ : BufTy).Contents (Elt F)) : (⟨S8x32768x4, .i32⟩ : BufTy).Contents (Elt F) :=
  (fptosi 32 : (⟨S8x32768x4, .f32⟩ : BufTy).Contents (Elt F) → (⟨S8x32768x4, .i32⟩ : BufTy).Contents (Elt F)) (s_v31 a0 a1)

def s_c_4 (a0 : (⟨S8x32768x2, .f32⟩ : BufTy).Contents (Elt F)) (a1 : (⟨S8x128x128x128, .f32⟩ : BufTy).Contents (Elt F)) : (⟨S_, .i32⟩ : BufTy).Contents (Elt F) :=
  (constantI S_ 32 128#32)

def s_call1_c (a0 : (⟨S8x32768x2, .f32⟩ : BufTy).Contents (Elt F)) (a1 : (⟨S8x128x128x128, .f32⟩ : BufTy).Contents (Elt F)) : (⟨S_, .i32⟩ : BufTy).Contents (Elt F) :=
  (constantI S_ 32 0#32)

def s_call1_v0 (a0 : (⟨S8x32768x2, .f32⟩ : BufTy).Contents (Elt F)) (a1 : (⟨S8x128x128x128, .f32⟩ : BufTy).Contents (Elt F)) : (⟨S_, .i1⟩ : BufTy).Contents (Elt F) :=
  (cmpi .eq) (s_c_4 a0 a1) (s_call1_c a0 a1)

def s_call1_c_0 (a0 : (⟨S8x32768x2, .f32⟩ : BufTy).Contents (Elt F)) (a1 : (⟨S8x128x128x128, .f32⟩ : BufTy).Contents (Elt F)) : (⟨S_, .i32⟩ : BufTy).Contents (Elt F) :=
  (constantI S_ 32 1#32)

def s_call1_v1 (a0 : (⟨S8x32768x2, .f32⟩ : BufTy).Contents (Elt F)) (a1 : (⟨S8x128x128x128, .f32⟩ : BufTy).Contents (Elt F)) : (⟨S_, .i32⟩ : BufTy).Contents (Elt F) :=
  select (s_call1_v0 a0 a1) (s_call1_c_0 a0 a1) (s_c_4 a0 a1)

def s_call1_v2 (a0 : (⟨S8x32768x2, .f32⟩ : BufTy).Contents (Elt F)) (a1 : (⟨S8x128x128x128, .f32⟩ : BufTy).Contents (Elt F)) : (⟨S_, .i32⟩ : BufTy).Contents (Elt F) :=
  id (s_call1_v1 a0 a1)

def s_call1_v3 (a0 : (⟨S8x32768x2, .f32⟩ : BufTy).Contents (Elt F)) (a1 : (⟨S8x128x128x128, .f32⟩ : BufTy).Contents (Elt F)) : (⟨S8x32768x4, .i32⟩ : BufTy).Contents (Elt F) :=
  (broadcastInDim S8x32768x4 ![] bcast_S_S8x32768x4) (s_call1_v2 a0 a1)

def s_v35 (a0 : (⟨S8x32768x2, .f32⟩ : BufTy).Contents (Elt F)) (a1 : (⟨S8x128x128x128, .f32⟩ : BufTy).Contents (Elt F)) : (⟨S8x32768x4, .i32⟩ : BufTy).Contents (Elt F) :=
  Host.remsi (s_v34 a0 a1) (s_call1_v3 a0 a1)

def s_c_5 (a0 : (⟨S8x32768x2, .f32⟩ : BufTy).Contents (Elt F)) (a1 : (⟨S8x128x128x128, .f32⟩ : BufTy).Contents (Elt F)) : (⟨S_, .i32⟩ : BufTy).Contents (Elt F) :=
  (constantI S_ 32 0#32)

def s_v36 (a0 : (⟨S8x32768x2, .f32⟩ : BufTy).Contents (Elt F)) (a1 : (⟨S8x128x128x128, .f32⟩ : BufTy).Contents (Elt F)) : (⟨S8x32768x4, .i32⟩ : BufTy).Contents (Elt F) :=
  (broadcastInDim S8x32768x4 ![] bcast_S_S8x32768x4 : (⟨S_, .i32⟩ : BufTy).Contents (Elt F) → (⟨S8x32768x4, .i32⟩ : BufTy).Contents (Elt F)) (s_c_5 a0 a1)

def s_v37 (a0 : (⟨S8x32768x2, .f32⟩ : BufTy).Contents (Elt F)) (a1 : (⟨S8x128x128x128, .f32⟩ : BufTy).Contents (Elt F)) : (⟨S8x32768x4, .i32⟩ : BufTy).Contents (Elt F) :=
  (maxsi : (⟨S8x32768x4, .i32⟩ : BufTy).Contents (Elt F) → (⟨S8x32768x4, .i32⟩ : BufTy).Contents (Elt F) → (⟨S8x32768x4, .i32⟩ : BufTy).Contents (Elt F)) (s_v33 a0 a1) (s_v36 a0 a1)

def s_c_6 (a0 : (⟨S8x32768x2, .f32⟩ : BufTy).Contents (Elt F)) (a1 : (⟨S8x128x128x128, .f32⟩ : BufTy).Contents (Elt F)) : (⟨S_, .i32⟩ : BufTy).Contents (Elt F) :=
  (constantI S_ 32 0#32)

def s_v38 (a0 : (⟨S8x32768x2, .f32⟩ : BufTy).Contents (Elt F)) (a1 : (⟨S8x128x128x128, .f32⟩ : BufTy).Contents (Elt F)) : (⟨S8x32768x4, .i32⟩ : BufTy).Contents (Elt F) :=
  (broadcastInDim S8x32768x4 ![] bcast_S_S8x32768x4 : (⟨S_, .i32⟩ : BufTy).Contents (Elt F) → (⟨S8x32768x4, .i32⟩ : BufTy).Contents (Elt F)) (s_c_6 a0 a1)

def s_v39 (a0 : (⟨S8x32768x2, .f32⟩ : BufTy).Contents (Elt F)) (a1 : (⟨S8x128x128x128, .f32⟩ : BufTy).Contents (Elt F)) : (⟨S8x32768x4, .i32⟩ : BufTy).Contents (Elt F) :=
  (maxsi : (⟨S8x32768x4, .i32⟩ : BufTy).Contents (Elt F) → (⟨S8x32768x4, .i32⟩ : BufTy).Contents (Elt F) → (⟨S8x32768x4, .i32⟩ : BufTy).Contents (Elt F)) (s_v35 a0 a1) (s_v38 a0 a1)

def s_v40 (a0 : (⟨S8x32768x2, .f32⟩ : BufTy).Contents (Elt F)) (a1 : (⟨S8x128x128x128, .f32⟩ : BufTy).Contents (Elt F)) : (⟨S8x32768x1, .f32⟩ : BufTy).Contents (Elt F) :=
  ((extractStridedSlice S8x32768x1 ![0, 0, 0] · slices_S8x32768x2_S8x32768x1_0_0_0) : (⟨S8x32768x2, .f32⟩ : BufTy).Contents (Elt F) → (⟨S8x32768x1, .f32⟩ : BufTy).Contents (Elt F)) (s_v2 a0 a1)

def s_v41 (a0 : (⟨S8x32768x2, .f32⟩ : BufTy).Contents (Elt F)) (a1 : (⟨S8x128x128x128, .f32⟩ : BufTy).Contents (Elt F)) : (⟨S8x32768, .f32⟩ : BufTy).Contents (Elt F) :=
  shapeCast S8x32768 (s_v40 a0 a1) shapeCasts_S8x32768x1_S8x32768

def s_v42 (a0 : (⟨S8x32768x2, .f32⟩ : BufTy).Contents (Elt F)) (a1 : (⟨S8x128x128x128, .f32⟩ : BufTy).Contents (Elt F)) : (⟨S8x32768x1, .f32⟩ : BufTy).Contents (Elt F) :=
  (broadcastInDim S8x32768x1 ![0, 1] bcast_S8x32768_S8x32768x1_0_1 : (⟨S8x32768, .f32⟩ : BufTy).Contents (Elt F) → (⟨S8x32768x1, .f32⟩ : BufTy).Contents (Elt F)) (s_v41 a0 a1)

def s_v43 (a0 : (⟨S8x32768x2, .f32⟩ : BufTy).Contents (Elt F)) (a1 : (⟨S8x128x128x128, .f32⟩ : BufTy).Contents (Elt F)) : (⟨S8x32768x4, .f32⟩ : BufTy).Contents (Elt F) :=
  (sitofp .f32 : (⟨S8x32768x4, .i32⟩ : BufTy).Contents (Elt F) → (⟨S8x32768x4, .f32⟩ : BufTy).Contents (Elt F)) (s_v37 a0 a1)

def s_v44 (a0 : (⟨S8x32768x2, .f32⟩ : BufTy).Contents (Elt F)) (a1 : (⟨S8x128x128x128, .f32⟩ : BufTy).Contents (Elt F)) : (⟨S8x32768x4, .f32⟩ : BufTy).Contents (Elt F) :=
  (broadcastInDim S8x32768x4 ![0, 1, 2] bcast_S8x32768x1_S8x32768x4_0_1_2 : (⟨S8x32768x1, .f32⟩ : BufTy).Contents (Elt F) → (⟨S8x32768x4, .f32⟩ : BufTy).Contents (Elt F)) (s_v42 a0 a1)

def s_v45 (a0 : (⟨S8x32768x2, .f32⟩ : BufTy).Contents (Elt F)) (a1 : (⟨S8x128x128x128, .f32⟩ : BufTy).Contents (Elt F)) : (⟨S8x32768x4, .f32⟩ : BufTy).Contents (Elt F) :=
  (subf : (⟨S8x32768x4, .f32⟩ : BufTy).Contents (Elt F) → (⟨S8x32768x4, .f32⟩ : BufTy).Contents (Elt F) → (⟨S8x32768x4, .f32⟩ : BufTy).Contents (Elt F)) (s_v44 a0 a1) (s_v43 a0 a1)

def s_v46 (a0 : (⟨S8x32768x2, .f32⟩ : BufTy).Contents (Elt F)) (a1 : (⟨S8x128x128x128, .f32⟩ : BufTy).Contents (Elt F)) : (⟨S8x32768x1, .f32⟩ : BufTy).Contents (Elt F) :=
  ((extractStridedSlice S8x32768x1 ![0, 0, 1] · slices_S8x32768x2_S8x32768x1_0_0_1) : (⟨S8x32768x2, .f32⟩ : BufTy).Contents (Elt F) → (⟨S8x32768x1, .f32⟩ : BufTy).Contents (Elt F)) (s_v2 a0 a1)

def s_v47 (a0 : (⟨S8x32768x2, .f32⟩ : BufTy).Contents (Elt F)) (a1 : (⟨S8x128x128x128, .f32⟩ : BufTy).Contents (Elt F)) : (⟨S8x32768, .f32⟩ : BufTy).Contents (Elt F) :=
  shapeCast S8x32768 (s_v46 a0 a1) shapeCasts_S8x32768x1_S8x32768

def s_v48 (a0 : (⟨S8x32768x2, .f32⟩ : BufTy).Contents (Elt F)) (a1 : (⟨S8x128x128x128, .f32⟩ : BufTy).Contents (Elt F)) : (⟨S8x32768x1, .f32⟩ : BufTy).Contents (Elt F) :=
  (broadcastInDim S8x32768x1 ![0, 1] bcast_S8x32768_S8x32768x1_0_1 : (⟨S8x32768, .f32⟩ : BufTy).Contents (Elt F) → (⟨S8x32768x1, .f32⟩ : BufTy).Contents (Elt F)) (s_v47 a0 a1)

def s_v49 (a0 : (⟨S8x32768x2, .f32⟩ : BufTy).Contents (Elt F)) (a1 : (⟨S8x128x128x128, .f32⟩ : BufTy).Contents (Elt F)) : (⟨S8x32768x4, .f32⟩ : BufTy).Contents (Elt F) :=
  (sitofp .f32 : (⟨S8x32768x4, .i32⟩ : BufTy).Contents (Elt F) → (⟨S8x32768x4, .f32⟩ : BufTy).Contents (Elt F)) (s_v39 a0 a1)

def s_v50 (a0 : (⟨S8x32768x2, .f32⟩ : BufTy).Contents (Elt F)) (a1 : (⟨S8x128x128x128, .f32⟩ : BufTy).Contents (Elt F)) : (⟨S8x32768x4, .f32⟩ : BufTy).Contents (Elt F) :=
  (broadcastInDim S8x32768x4 ![0, 1, 2] bcast_S8x32768x1_S8x32768x4_0_1_2 : (⟨S8x32768x1, .f32⟩ : BufTy).Contents (Elt F) → (⟨S8x32768x4, .f32⟩ : BufTy).Contents (Elt F)) (s_v48 a0 a1)

def s_v51 (a0 : (⟨S8x32768x2, .f32⟩ : BufTy).Contents (Elt F)) (a1 : (⟨S8x128x128x128, .f32⟩ : BufTy).Contents (Elt F)) : (⟨S8x32768x4, .f32⟩ : BufTy).Contents (Elt F) :=
  (subf : (⟨S8x32768x4, .f32⟩ : BufTy).Contents (Elt F) → (⟨S8x32768x4, .f32⟩ : BufTy).Contents (Elt F) → (⟨S8x32768x4, .f32⟩ : BufTy).Contents (Elt F)) (s_v50 a0 a1) (s_v49 a0 a1)

def s_v52 (a0 : (⟨S8x32768x2, .f32⟩ : BufTy).Contents (Elt F)) (a1 : (⟨S8x128x128x128, .f32⟩ : BufTy).Contents (Elt F)) : (⟨S8x32768x4, .f32⟩ : BufTy).Contents (Elt F) :=
  (mulf : (⟨S8x32768x4, .f32⟩ : BufTy).Contents (Elt F) → (⟨S8x32768x4, .f32⟩ : BufTy).Contents (Elt F) → (⟨S8x32768x4, .f32⟩ : BufTy).Contents (Elt F)) (s_v45 a0 a1) (s_v45 a0 a1)

def s_v53 (a0 : (⟨S8x32768x2, .f32⟩ : BufTy).Contents (Elt F)) (a1 : (⟨S8x128x128x128, .f32⟩ : BufTy).Contents (Elt F)) : (⟨S8x32768x4, .f32⟩ : BufTy).Contents (Elt F) :=
  (mulf : (⟨S8x32768x4, .f32⟩ : BufTy).Contents (Elt F) → (⟨S8x32768x4, .f32⟩ : BufTy).Contents (Elt F) → (⟨S8x32768x4, .f32⟩ : BufTy).Contents (Elt F)) (s_v51 a0 a1) (s_v51 a0 a1)

def s_v54 (a0 : (⟨S8x32768x2, .f32⟩ : BufTy).Contents (Elt F)) (a1 : (⟨S8x128x128x128, .f32⟩ : BufTy).Contents (Elt F)) : (⟨S8x32768x4, .f32⟩ : BufTy).Contents (Elt F) :=
  (addf : (⟨S8x32768x4, .f32⟩ : BufTy).Contents (Elt F) → (⟨S8x32768x4, .f32⟩ : BufTy).Contents (Elt F) → (⟨S8x32768x4, .f32⟩ : BufTy).Contents (Elt F)) (s_v52 a0 a1) (s_v53 a0 a1)

def s_v55 (a0 : (⟨S8x32768x2, .f32⟩ : BufTy).Contents (Elt F)) (a1 : (⟨S8x128x128x128, .f32⟩ : BufTy).Contents (Elt F)) : (⟨S8x32768x4, .f32⟩ : BufTy).Contents (Elt F) :=
  (Host.sqrt : (⟨S8x32768x4, .f32⟩ : BufTy).Contents (Elt F) → (⟨S8x32768x4, .f32⟩ : BufTy).Contents (Elt F)) (s_v54 a0 a1)

def s_cst_7 (a0 : (⟨S8x32768x2, .f32⟩ : BufTy).Contents (Elt F)) (a1 : (⟨S8x128x128x128, .f32⟩ : BufTy).Contents (Elt F)) : (⟨S_, .f32⟩ : BufTy).Contents (Elt F) :=
  (constant S_ .f32 0x2EDBE6FF#32)

def s_v56 (a0 : (⟨S8x32768x2, .f32⟩ : BufTy).Contents (Elt F)) (a1 : (⟨S8x128x128x128, .f32⟩ : BufTy).Contents (Elt F)) : (⟨S8x32768x4, .f32⟩ : BufTy).Contents (Elt F) :=
  (broadcastInDim S8x32768x4 ![] bcast_S_S8x32768x4 : (⟨S_, .f32⟩ : BufTy).Contents (Elt F) → (⟨S8x32768x4, .f32⟩ : BufTy).Contents (Elt F)) (s_cst_7 a0 a1)

def s_v57 (a0 : (⟨S8x32768x2, .f32⟩ : BufTy).Contents (Elt F)) (a1 : (⟨S8x128x128x128, .f32⟩ : BufTy).Contents (Elt F)) : (⟨S8x32768x4, .f32⟩ : BufTy).Contents (Elt F) :=
  (addf : (⟨S8x32768x4, .f32⟩ : BufTy).Contents (Elt F) → (⟨S8x32768x4, .f32⟩ : BufTy).Contents (Elt F) → (⟨S8x32768x4, .f32⟩ : BufTy).Contents (Elt F)) (s_v55 a0 a1) (s_v56 a0 a1)

def s_cst_8 (a0 : (⟨S8x32768x2, .f32⟩ : BufTy).Contents (Elt F)) (a1 : (⟨S8x128x128x128, .f32⟩ : BufTy).Contents (Elt F)) : (⟨S_, .f32⟩ : BufTy).Contents (Elt F) :=
  (constant S_ .f32 0x3F800000#32)

def s_v58 (a0 : (⟨S8x32768x2, .f32⟩ : BufTy).Contents (Elt F)) (a1 : (⟨S8x128x128x128, .f32⟩ : BufTy).Contents (Elt F)) : (⟨S8x32768x4, .f32⟩ : BufTy).Contents (Elt F) :=
  (broadcastInDim S8x32768x4 ![] bcast_S_S8x32768x4 : (⟨S_, .f32⟩ : BufTy).Contents (Elt F) → (⟨S8x32768x4, .f32⟩ : BufTy).Contents (Elt F)) (s_cst_8 a0 a1)

def s_v59 (a0 : (⟨S8x32768x2, .f32⟩ : BufTy).Contents (Elt F)) (a1 : (⟨S8x128x128x128, .f32⟩ : BufTy).Contents (Elt F)) : (⟨S8x32768x4, .f32⟩ : BufTy).Contents (Elt F) :=
  (Host.divf : (⟨S8x32768x4, .f32⟩ : BufTy).Contents (Elt F) → (⟨S8x32768x4, .f32⟩ : BufTy).Contents (Elt F) → (⟨S8x32768x4, .f32⟩ : BufTy).Contents (Elt F)) (s_v58 a0 a1) (s_v57 a0 a1)

def s_v60 (a0 : (⟨S8x32768x2, .f32⟩ : BufTy).Contents (Elt F)) (a1 : (⟨S8x128x128x128, .f32⟩ : BufTy).Contents (Elt F)) : (⟨S8x32768x1, .i1⟩ : BufTy).Contents (Elt F) :=
  (broadcastInDim S8x32768x1 ![0, 1] bcast_S8x32768_S8x32768x1_0_1 : (⟨S8x32768, .i1⟩ : BufTy).Contents (Elt F) → (⟨S8x32768x1, .i1⟩ : BufTy).Contents (Elt F)) (s_v17 a0 a1)

def s_v61 (a0 : (⟨S8x32768x2, .f32⟩ : BufTy).Contents (Elt F)) (a1 : (⟨S8x128x128x128, .f32⟩ : BufTy).Contents (Elt F)) : (⟨S8x32768x1, .f32⟩ : BufTy).Contents (Elt F) :=
  (uitofp .f32 : (⟨S8x32768x1, .i1⟩ : BufTy).Contents (Elt F) → (⟨S8x32768x1, .f32⟩ : BufTy).Contents (Elt F)) (s_v60 a0 a1)

def s_v62 (a0 : (⟨S8x32768x2, .f32⟩ : BufTy).Contents (Elt F)) (a1 : (⟨S8x128x128x128, .f32⟩ : BufTy).Contents (Elt F)) : (⟨S8x32768x4, .f32⟩ : BufTy).Contents (Elt F) :=
  (broadcastInDim S8x32768x4 ![0, 1, 2] bcast_S8x32768x1_S8x32768x4_0_1_2 : (⟨S8x32768x1, .f32⟩ : BufTy).Contents (Elt F) → (⟨S8x32768x4, .f32⟩ : BufTy).Contents (Elt F)) (s_v61 a0 a1)

def s_v63 (a0 : (⟨S8x32768x2, .f32⟩ : BufTy).Contents (Elt F)) (a1 : (⟨S8x128x128x128, .f32⟩ : BufTy).Contents (Elt F)) : (⟨S8x32768x4, .f32⟩ : BufTy).Contents (Elt F) :=
  (mulf : (⟨S8x32768x4, .f32⟩ : BufTy).Contents (Elt F) → (⟨S8x32768x4, .f32⟩ : BufTy).Contents (Elt F) → (⟨S8x32768x4, .f32⟩ : BufTy).Contents (Elt F)) (s_v62 a0 a1) (s_v59 a0 a1)

def s_cst_9 (a0 : (⟨S8x32768x2, .f32⟩ : BufTy).Contents (Elt F)) (a1 : (⟨S8x128x128x128, .f32⟩ : BufTy).Contents (Elt F)) : (⟨S_, .f32⟩ : BufTy).Contents (Elt F) :=
  (constant S_ .f32 0x00000000#32)

def s_v64 (a0 : (⟨S8x32768x2, .f32⟩ : BufTy).Contents (Elt F)) (a1 : (⟨S8x128x128x128, .f32⟩ : BufTy).Contents (Elt F)) : (⟨S8x32768, .f32⟩ : BufTy).Contents (Elt F) :=
  ((fun x v => Host.reduceAdd x v reducesTo_S8x32768x4_S8x32768_d2 h_S_) : (⟨S8x32768x4, .f32⟩ : BufTy).Contents (Elt F) → (⟨S_, .f32⟩ : BufTy).Contents (Elt F) → (⟨S8x32768, .f32⟩ : BufTy).Contents (Elt F)) (s_v63 a0 a1) (s_cst_9 a0 a1)

def s_v65 (a0 : (⟨S8x32768x2, .f32⟩ : BufTy).Contents (Elt F)) (a1 : (⟨S8x128x128x128, .f32⟩ : BufTy).Contents (Elt F)) : (⟨S8x32768x1, .f32⟩ : BufTy).Contents (Elt F) :=
  (broadcastInDim S8x32768x1 ![0, 1] bcast_S8x32768_S8x32768x1_0_1 : (⟨S8x32768, .f32⟩ : BufTy).Contents (Elt F) → (⟨S8x32768x1, .f32⟩ : BufTy).Contents (Elt F)) (s_v64 a0 a1)

def s_cst_10 (a0 : (⟨S8x32768x2, .f32⟩ : BufTy).Contents (Elt F)) (a1 : (⟨S8x128x128x128, .f32⟩ : BufTy).Contents (Elt F)) : (⟨S_, .f32⟩ : BufTy).Contents (Elt F) :=
  (constant S_ .f32 0x00000000#32)

def s_v66 (a0 : (⟨S8x32768x2, .f32⟩ : BufTy).Contents (Elt F)) (a1 : (⟨S8x128x128x128, .f32⟩ : BufTy).Contents (Elt F)) : (⟨S8x32768x1, .f32⟩ : BufTy).Contents (Elt F) :=
  (broadcastInDim S8x32768x1 ![] bcast_S_S8x32768x1 : (⟨S_, .f32⟩ : BufTy).Contents (Elt F) → (⟨S8x32768x1, .f32⟩ : BufTy).Contents (Elt F)) (s_cst_10 a0 a1)

def s_v67 (a0 : (⟨S8x32768x2, .f32⟩ : BufTy).Contents (Elt F)) (a1 : (⟨S8x128x128x128, .f32⟩ : BufTy).Contents (Elt F)) : (⟨S8x32768x1, .i1⟩ : BufTy).Contents (Elt F) :=
  (cmpf .oeq : (⟨S8x32768x1, .f32⟩ : BufTy).Contents (Elt F) → (⟨S8x32768x1, .f32⟩ : BufTy).Contents (Elt F) → (⟨S8x32768x1, .i1⟩ : BufTy).Contents (Elt F)) (s_v65 a0 a1) (s_v66 a0 a1)

def s_cst_11 (a0 : (⟨S8x32768x2, .f32⟩ : BufTy).Contents (Elt F)) (a1 : (⟨S8x128x128x128, .f32⟩ : BufTy).Contents (Elt F)) : (⟨S_, .f32⟩ : BufTy).Contents (Elt F) :=
  (constant S_ .f32 0x3F800000#32)

def s_call2_v0 (a0 : (⟨S8x32768x2, .f32⟩ : BufTy).Contents (Elt F)) (a1 : (⟨S8x128x128x128, .f32⟩ : BufTy).Contents (Elt F)) : (⟨S_, .f32⟩ : BufTy).Contents (Elt F) :=
  id (s_cst_11 a0 a1)

def s_call2_v1 (a0 : (⟨S8x32768x2, .f32⟩ : BufTy).Contents (Elt F)) (a1 : (⟨S8x128x128x128, .f32⟩ : BufTy).Contents (Elt F)) : (⟨S8x32768x1, .f32⟩ : BufTy).Contents (Elt F) :=
  (broadcastInDim S8x32768x1 ![] bcast_S_S8x32768x1) (s_call2_v0 a0 a1)

def s_v68 (a0 : (⟨S8x32768x2, .f32⟩ : BufTy).Contents (Elt F)) (a1 : (⟨S8x128x128x128, .f32⟩ : BufTy).Contents (Elt F)) : (⟨S8x32768x1, .f32⟩ : BufTy).Contents (Elt F) :=
  select (s_v67 a0 a1) (s_call2_v1 a0 a1) (s_v65 a0 a1)

def s_v69 (a0 : (⟨S8x32768x2, .f32⟩ : BufTy).Contents (Elt F)) (a1 : (⟨S8x128x128x128, .f32⟩ : BufTy).Contents (Elt F)) : (⟨S8x32768x4, .f32⟩ : BufTy).Contents (Elt F) :=
  (broadcastInDim S8x32768x4 ![0, 1, 2] bcast_S8x32768x1_S8x32768x4_0_1_2 : (⟨S8x32768x1, .f32⟩ : BufTy).Contents (Elt F) → (⟨S8x32768x4, .f32⟩ : BufTy).Contents (Elt F)) (s_v68 a0 a1)

def s_v70 (a0 : (⟨S8x32768x2, .f32⟩ : BufTy).Contents (Elt F)) (a1 : (⟨S8x128x128x128, .f32⟩ : BufTy).Contents (Elt F)) : (⟨S8x32768x4, .f32⟩ : BufTy).Contents (Elt F) :=
  (Host.divf : (⟨S8x32768x4, .f32⟩ : BufTy).Contents (Elt F) → (⟨S8x32768x4, .f32⟩ : BufTy).Contents (Elt F) → (⟨S8x32768x4, .f32⟩ : BufTy).Contents (Elt F)) (s_v63 a0 a1) (s_v69 a0 a1)

def s_c_12 (a0 : (⟨S8x32768x2, .f32⟩ : BufTy).Contents (Elt F)) (a1 : (⟨S8x128x128x128, .f32⟩ : BufTy).Contents (Elt F)) : (⟨S_, .i32⟩ : BufTy).Contents (Elt F) :=
  (constantI S_ 32 128#32)

def s_v71 (a0 : (⟨S8x32768x2, .f32⟩ : BufTy).Contents (Elt F)) (a1 : (⟨S8x128x128x128, .f32⟩ : BufTy).Contents (Elt F)) : (⟨S8x32768x4, .i32⟩ : BufTy).Contents (Elt F) :=
  (broadcastInDim S8x32768x4 ![] bcast_S_S8x32768x4 : (⟨S_, .i32⟩ : BufTy).Contents (Elt F) → (⟨S8x32768x4, .i32⟩ : BufTy).Contents (Elt F)) (s_c_12 a0 a1)

def s_v72 (a0 : (⟨S8x32768x2, .f32⟩ : BufTy).Contents (Elt F)) (a1 : (⟨S8x128x128x128, .f32⟩ : BufTy).Contents (Elt F)) : (⟨S8x32768x4, .i32⟩ : BufTy).Contents (Elt F) :=
  (muli : (⟨S8x32768x4, .i32⟩ : BufTy).Contents (Elt F) → (⟨S8x32768x4, .i32⟩ : BufTy).Contents (Elt F) → (⟨S8x32768x4, .i32⟩ : BufTy).Contents (Elt F)) (s_v39 a0 a1) (s_v71 a0 a1)

def s_v73 (a0 : (⟨S8x32768x2, .f32⟩ : BufTy).Contents (Elt F)) (a1 : (⟨S8x128x128x128, .f32⟩ : BufTy).Contents (Elt F)) : (⟨S8x32768x4, .i32⟩ : BufTy).Contents (Elt F) :=
  (addi : (⟨S8x32768x4, .i32⟩ : BufTy).Contents (Elt F) → (⟨S8x32768x4, .i32⟩ : BufTy).Contents (Elt F) → (⟨S8x32768x4, .i32⟩ : BufTy).Contents (Elt F)) (s_v72 a0 a1) (s_v37 a0 a1)

def s_v74 (a0 : (⟨S8x32768x2, .f32⟩ : BufTy).Contents (Elt F)) (a1 : (⟨S8x128x128x128, .f32⟩ : BufTy).Contents (Elt F)) : (⟨S8x128x128x128, .f32⟩ : BufTy).Contents (Elt F) :=
  ((transpose S8x128x128x128 [0, 2, 3, 1] · transposes_S8x128x128x128_S8x128x128x128_0_2_3_1) : (⟨S8x128x128x128, .f32⟩ : BufTy).Contents (Elt F) → (⟨S8x128x128x128, .f32⟩ : BufTy).Contents (Elt F)) a1

def s_v75 (a0 : (⟨S8x32768x2, .f32⟩ : BufTy).Contents (Elt F)) (a1 : (⟨S8x128x128x128, .f32⟩ : BufTy).Contents (Elt F)) : (⟨S8x16384x128, .f32⟩ : BufTy).Contents (Elt F) :=
  shapeCast S8x16384x128 (s_v74 a0 a1) shapeCasts_S8x128x128x128_S8x16384x128

def s_v76 (a0 : (⟨S8x32768x2, .f32⟩ : BufTy).Contents (Elt F)) (a1 : (⟨S8x128x128x128, .f32⟩ : BufTy).Contents (Elt F)) : (⟨S8x131072x1, .i32⟩ : BufTy).Contents (Elt F) :=
  shapeCast S8x131072x1 (s_v73 a0 a1) shapeCasts_S8x32768x4_S8x131072x1

def s_call3_c (a0 : (⟨S8x32768x2, .f32⟩ : BufTy).Contents (Elt F)) (a1 : (⟨S8x128x128x128, .f32⟩ : BufTy).Contents (Elt F)) : (⟨S_, .i32⟩ : BufTy).Contents (Elt F) :=
  (constantI S_ 32 0#32)

def s_call3_v0 (a0 : (⟨S8x32768x2, .f32⟩ : BufTy).Contents (Elt F)) (a1 : (⟨S8x128x128x128, .f32⟩ : BufTy).Contents (Elt F)) : (⟨S8x131072x1, .i32⟩ : BufTy).Contents (Elt F) :=
  (broadcastInDim S8x131072x1 ![] bcast_S_S8x131072x1) (s_call3_c a0 a1)

def s_call3_v1 (a0 : (⟨S8x32768x2, .f32⟩ : BufTy).Contents (Elt F)) (a1 : (⟨S8x128x128x128, .f32⟩ : BufTy).Contents (Elt F)) : (⟨S8x131072x1, .i1⟩ : BufTy).Contents (Elt F) :=
  (cmpi .slt) (s_v76 a0 a1) (s_call3_v0 a0 a1)

def s_call3_c_0 (a0 : (⟨S8x32768x2, .f32⟩ : BufTy).Contents (Elt F)) (a1 : (⟨S8x128x128x128, .f32⟩ : BufTy).Contents (Elt F)) : (⟨S_, .i32⟩ : BufTy).Contents (Elt F) :=
  (constantI S_ 32 16384#32)

def s_call3_v2 (a0 : (⟨S8x32768x2, .f32⟩ : BufTy).Contents (Elt F)) (a1 : (⟨S8x128x128x128, .f32⟩ : BufTy).Contents (Elt F)) : (⟨S8x131072x1, .i32⟩ : BufTy).Contents (Elt F) :=
  (broadcastInDim S8x131072x1 ![] bcast_S_S8x131072x1) (s_call3_c_0 a0 a1)

def s_call3_v3 (a0 : (⟨S8x32768x2, .f32⟩ : BufTy).Contents (Elt F)) (a1 : (⟨S8x128x128x128, .f32⟩ : BufTy).Contents (Elt F)) : (⟨S8x131072x1, .i32⟩ : BufTy).Contents (Elt F) :=
  addi (s_v76 a0 a1) (s_call3_v2 a0 a1)

def s_call3_v4 (a0 : (⟨S8x32768x2, .f32⟩ : BufTy).Contents (Elt F)) (a1 : (⟨S8x128x128x128, .f32⟩ : BufTy).Contents (Elt F)) : (⟨S8x131072x1, .i32⟩ : BufTy).Contents (Elt F) :=
  select (s_call3_v1 a0 a1) (s_call3_v3 a0 a1) (s_v76 a0 a1)

def s_call3_c_1 (a0 : (⟨S8x32768x2, .f32⟩ : BufTy).Contents (Elt F)) (a1 : (⟨S8x128x128x128, .f32⟩ : BufTy).Contents (Elt F)) : (⟨S1, .i32⟩ : BufTy).Contents (Elt F) :=
  (constantI S1 32 16383#32)

def s_call3_c_2 (a0 : (⟨S8x32768x2, .f32⟩ : BufTy).Contents (Elt F)) (a1 : (⟨S8x128x128x128, .f32⟩ : BufTy).Contents (Elt F)) : (⟨S_, .i32⟩ : BufTy).Contents (Elt F) :=
  (constantI S_ 32 0#32)

def s_call3_v5 (a0 : (⟨S8x32768x2, .f32⟩ : BufTy).Contents (Elt F)) (a1 : (⟨S8x128x128x128, .f32⟩ : BufTy).Contents (Elt F)) : (⟨S8x131072x1, .i32⟩ : BufTy).Contents (Elt F) :=
  (broadcastInDim S8x131072x1 ![] bcast_S_S8x131072x1) (s_call3_c_2 a0 a1)

def s_call3_v6 (a0 : (⟨S8x32768x2, .f32⟩ : BufTy).Contents (Elt F)) (a1 : (⟨S8x128x128x128, .f32⟩ : BufTy).Contents (Elt F)) : (⟨S8x131072x1, .i1⟩ : BufTy).Contents (Elt F) :=
  (cmpi .sge) (s_call3_v4 a0 a1) (s_call3_v5 a0 a1)

def s_call3_v7 (a0 : (⟨S8x32768x2, .f32⟩ : BufTy).Contents (Elt F)) (a1 : (⟨S8x128x128x128, .f32⟩ : BufTy).Contents (Elt F)) : (⟨S1x1x1, .i32⟩ : BufTy).Contents (Elt F) :=
  (broadcastInDim S1x1x1 ![2] bcast_S1_S1x1x1_2) (s_call3_c_1 a0 a1)

def s_call3_v8 (a0 : (⟨S8x32768x2, .f32⟩ : BufTy).Contents (Elt F)) (a1 : (⟨S8x128x128x128, .f32⟩ : BufTy).Contents (Elt F)) : (⟨S8x131072x1, .i32⟩ : BufTy).Contents (Elt F) :=
  (broadcastInDim S8x131072x1 ![0, 1, 2] bcast_S1x1x1_S8x131072x1_0_1_2) (s_call3_v7 a0 a1)

def s_call3_v9 (a0 : (⟨S8x32768x2, .f32⟩ : BufTy).Contents (Elt F)) (a1 : (⟨S8x128x128x128, .f32⟩ : BufTy).Contents (Elt F)) : (⟨S8x131072x1, .i1⟩ : BufTy).Contents (Elt F) :=
  (cmpi .sle) (s_call3_v4 a0 a1) (s_call3_v8 a0 a1)

def s_call3_v10 (a0 : (⟨S8x32768x2, .f32⟩ : BufTy).Contents (Elt F)) (a1 : (⟨S8x128x128x128, .f32⟩ : BufTy).Contents (Elt F)) : (⟨S8x131072x1, .i1⟩ : BufTy).Contents (Elt F) :=
  andi (s_call3_v6 a0 a1) (s_call3_v9 a0 a1)

def s_call3_c_3 (a0 : (⟨S8x32768x2, .f32⟩ : BufTy).Contents (Elt F)) (a1 : (⟨S8x128x128x128, .f32⟩ : BufTy).Contents (Elt F)) : (⟨S_, .i1⟩ : BufTy).Contents (Elt F) :=
  (constantI S_ 1 1#1)

def s_call3_v11 (a0 : (⟨S8x32768x2, .f32⟩ : BufTy).Contents (Elt F)) (a1 : (⟨S8x128x128x128, .f32⟩ : BufTy).Contents (Elt F)) : (⟨S8x131072, .i1⟩ : BufTy).Contents (Elt F) :=
  (fun x v => Host.reduce IntOp.andi x v reducesTo_S8x131072x1_S8x131072_d2 h_S_) (s_call3_v10 a0 a1) (s_call3_c_3 a0 a1)

def s_call3_v12 (a0 : (⟨S8x32768x2, .f32⟩ : BufTy).Contents (Elt F)) (a1 : (⟨S8x128x128x128, .f32⟩ : BufTy).Contents (Elt F)) : (⟨S8x131072x128, .f32⟩ : BufTy).Contents (Elt F) :=
  (fun x i => Host.gather gather_S8x16384x128_S8x131072x1_S8x131072x128_2_1_0_0_1_2_11128 x i) (s_v75 a0 a1) (s_call3_v4 a0 a1)

def s_call3_v13 (a0 : (⟨S8x32768x2, .f32⟩ : BufTy).Contents (Elt F)) (a1 : (⟨S8x128x128x128, .f32⟩ : BufTy).Contents (Elt F)) : (⟨S8x131072x128, .i1⟩ : BufTy).Contents (Elt F) :=
  (broadcastInDim S8x131072x128 ![0, 1] bcast_S8x131072_S8x131072x128_0_1) (s_call3_v11 a0 a1)

def s_call3_cst (a0 : (⟨S8x32768x2, .f32⟩ : BufTy).Contents (Elt F)) (a1 : (⟨S8x128x128x128, .f32⟩ : BufTy).Contents (Elt F)) : (⟨S_, .f32⟩ : BufTy).Contents (Elt F) :=
  (constant S_ .f32 0x7FC00000#32)

def s_call3_v14 (a0 : (⟨S8x32768x2, .f32⟩ : BufTy).Contents (Elt F)) (a1 : (⟨S8x128x128x128, .f32⟩ : BufTy).Contents (Elt F)) : (⟨S8x131072x128, .f32⟩ : BufTy).Contents (Elt F) :=
  (broadcastInDim S8x131072x128 ![] bcast_S_S8x131072x128) (s_call3_cst a0 a1)

def s_v77 (a0 : (⟨S8x32768x2, .f32⟩ : BufTy).Contents (Elt F)) (a1 : (⟨S8x128x128x128, .f32⟩ : BufTy).Contents (Elt F)) : (⟨S8x131072x128, .f32⟩ : BufTy).Contents (Elt F) :=
  select (s_call3_v13 a0 a1) (s_call3_v12 a0 a1) (s_call3_v14 a0 a1)

def s_v78 (a0 : (⟨S8x32768x2, .f32⟩ : BufTy).Contents (Elt F)) (a1 : (⟨S8x128x128x128, .f32⟩ : BufTy).Contents (Elt F)) : (⟨S8x32768x4x128, .f32⟩ : BufTy).Contents (Elt F) :=
  shapeCast S8x32768x4x128 (s_v77 a0 a1) shapeCasts_S8x131072x128_S8x32768x4x128

def s_v79 (a0 : (⟨S8x32768x2, .f32⟩ : BufTy).Contents (Elt F)) (a1 : (⟨S8x128x128x128, .f32⟩ : BufTy).Contents (Elt F)) : (⟨S8x32768x4x1, .f32⟩ : BufTy).Contents (Elt F) :=
  (broadcastInDim S8x32768x4x1 ![0, 1, 2] bcast_S8x32768x4_S8x32768x4x1_0_1_2 : (⟨S8x32768x4, .f32⟩ : BufTy).Contents (Elt F) → (⟨S8x32768x4x1, .f32⟩ : BufTy).Contents (Elt F)) (s_v70 a0 a1)

def s_v80 (a0 : (⟨S8x32768x2, .f32⟩ : BufTy).Contents (Elt F)) (a1 : (⟨S8x128x128x128, .f32⟩ : BufTy).Contents (Elt F)) : (⟨S8x32768x4x128, .f32⟩ : BufTy).Contents (Elt F) :=
  (broadcastInDim S8x32768x4x128 ![0, 1, 2, 3] bcast_S8x32768x4x1_S8x32768x4x128_0_1_2_3 : (⟨S8x32768x4x1, .f32⟩ : BufTy).Contents (Elt F) → (⟨S8x32768x4x128, .f32⟩ : BufTy).Contents (Elt F)) (s_v79 a0 a1)

def s_v81 (a0 : (⟨S8x32768x2, .f32⟩ : BufTy).Contents (Elt F)) (a1 : (⟨S8x128x128x128, .f32⟩ : BufTy).Contents (Elt F)) : (⟨S8x32768x4x128, .f32⟩ : BufTy).Contents (Elt F) :=
  (mulf : (⟨S8x32768x4x128, .f32⟩ : BufTy).Contents (Elt F) → (⟨S8x32768x4x128, .f32⟩ : BufTy).Contents (Elt F) → (⟨S8x32768x4x128, .f32⟩ : BufTy).Contents (Elt F)) (s_v78 a0 a1) (s_v80 a0 a1)

def s_cst_13 (a0 : (⟨S8x32768x2, .f32⟩ : BufTy).Contents (Elt F)) (a1 : (⟨S8x128x128x128, .f32⟩ : BufTy).Contents (Elt F)) : (⟨S_, .f32⟩ : BufTy).Contents (Elt F) :=
  (constant S_ .f32 0x00000000#32)

def s_v82 (a0 : (⟨S8x32768x2, .f32⟩ : BufTy).Contents (Elt F)) (a1 : (⟨S8x128x128x128, .f32⟩ : BufTy).Contents (Elt F)) : (⟨S8x32768x128, .f32⟩ : BufTy).Contents (Elt F) :=
  ((fun x v => Host.reduceAdd x v reducesTo_S8x32768x4x128_S8x32768x128_d2 h_S_) : (⟨S8x32768x4x128, .f32⟩ : BufTy).Contents (Elt F) → (⟨S_, .f32⟩ : BufTy).Contents (Elt F) → (⟨S8x32768x128, .f32⟩ : BufTy).Contents (Elt F)) (s_v81 a0 a1) (s_cst_13 a0 a1)

end Cert.ReferenceIdeal.Stages

end
-- ==== Proof.RefLink.lean ====
import proofs.«427828_j9345848836388_3_alg».proof.Proof.RefLine
import proofs.«427828_j9345848836388_3_alg».proof.Proof.RefStages

/-!
The reference's run read back: after it the result buffer holds the last of the staged values (`s_v82`) of the two
argument arrays, which are unchanged.

The fold of the 134 operations is read in eight stretches. At the end of a stretch only a few buffers are still read
by later operations; for each of them the fold over the operations so far is its staged value of the two argument
arrays. The next stretch starts from any contents with those values, so that each comparison unfolds only the stages
of its own stretch.
-/

noncomputable section

namespace Cert.ReferenceIdeal.Link

open Cert.ReferenceIdeal Cert.ReferenceIdeal.Gen Cert.ReferenceIdeal.Line Cert.ReferenceIdeal.Stages Idealize.ShloMosaic Idealize.ShloMosaic.TcCoe Idealize.SL.Sem Idealize.ShloMosaic.StableHlo

variable {F : FTy → Type} [FloatOps F]

/-- The fold over a concatenation is the fold over the second list from where the first leaves the buffers. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- The fold over a list is the fold over its first `j` operations, then over the rest. -/
theorem after_drop (l : List (HloOp τ sig (Elt F))) (j : Nat) (V : Valuation τ sig (Elt F)) :
    after l V = after (l.drop j) (after (l.take j) V) := by
  conv_lhs => rw [← List.take_append_drop j l, after_app]

/-- The fold over the first `k` operations is the fold over the first `j`, then over the operations from `j` to `k`. -/
theorem after_take (l : List (HloOp τ sig (Elt F))) {j k : Nat} (h : j ≤ k) (V : Valuation τ sig (Elt F)) :
    after (l.take k) V = after ((l.take k).drop j) (after (l.take j) V) := by
  rw [after_drop (l.take k) j V, List.take_take, Nat.min_eq_left h]

/-- Contents moved to a typed reference's buffer type and back are the contents. -/
theorem ofBuf_toBuf {T : BufTy} (x : TRef sig T) (v : T.Contents (Elt F)) : x.ofBuf (x.toBuf v) = v := by
  simp only [TRef.ofBuf, TRef.toBuf, cast_cast, cast_eq]

/-- After the first `k` operations from contents `V`, buffer `b` holds `s` of the two argument arrays as `V` has them. -/
local notation:50 V:51 " ⊨[" k "] " b:51 " ↦ " s:51 =>
  after (List.take k ops) V (b : DevRef τ sig) = s (V (main_arg0 : DevRef τ sig)) (V (main_arg1 : DevRef τ sig))

/-- The second argument array itself. -/
abbrev s_arg1 (a0 : (⟨S8x32768x2, .f32⟩ : BufTy).Contents (Elt F)) (a1 : (⟨S8x128x128x128, .f32⟩ : BufTy).Contents (Elt F)) :
    (⟨S8x128x128x128, .f32⟩ : BufTy).Contents (Elt F) := a1

/-- A fold over a literal list of operations, read at one buffer, rewritten to the operations' functions of what the
    buffers held before the list: an operation's result at its own buffer is its function's value (a four-operand
    operation's operands each read at its own buffer), at any other buffer what was there. -/
local macro "read_fold" : tactic =>
  `(tactic| (simp only [after_cons, after_nil]
             repeat (first
               | rw [nary4_result] | rw [nullary_result] | rw [unary_result] | rw [binary_result] | rw [ternary_result]
               | rw [reshape_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide)
               | (rw [nary_result_ne]; rotate_left; decide))))

set_option maxRecDepth 8192 in
/-- Operations 0–22: the points' coordinates and the inside-the-grid test. -/
theorem cut23 (V : Valuation τ sig (Elt F)) :
    (V ⊨[23] main_v2 ↦ s_v2) ∧ (V ⊨[23] main_v4 ↦ s_v4) ∧ (V ⊨[23] main_v6 ↦ s_v6) ∧ (V ⊨[23] main_v17 ↦ s_v17)
      ∧ (V ⊨[23] main_arg1 ↦ s_arg1) := by
  simp only [ops, List.take_succ_cons, List.take_zero]
  refine ⟨?_, ?_, ?_, ?_, ?_⟩
  · after_results_simp; rfl
  · after_results_simp; rfl
  · after_results_simp; rfl
  · after_results_simp; rfl
  · after_results_simp

attribute [local irreducible] concatenate in
set_option maxRecDepth 8192 in
/-- Operations 23–37: the four corners' rounded coordinates, stacked. -/
theorem cut38 (V : Valuation τ sig (Elt F)) :
    (V ⊨[38] main_v2 ↦ s_v2) ∧ (V ⊨[38] main_v32 ↦ s_v32) ∧ (V ⊨[38] main_v31 ↦ s_v31) ∧ (V ⊨[38] main_v17 ↦ s_v17)
      ∧ (V ⊨[38] main_arg1 ↦ s_arg1) := by
  obtain ⟨h2, h4, h6, h17, h1⟩ := cut23 V
  rw [after_take ops (by decide : 23 ≤ 38) V]
  generalize after (ops.take 23) V = W at h2 h4 h6 h17 h1 ⊢
  simp only [ops, List.take_succ_cons, List.take_zero, List.drop_succ_cons, List.drop_zero]
  refine ⟨?_, ?_, ?_, ?_, ?_⟩
  · after_results_simp; exact h2
  · read_fold; rw [h4]; rfl
  · read_fold; rw [h6]; rfl
  · after_results_simp; exact h17
  · after_results_simp; exact h1

set_option maxRecDepth 8192 in
/-- Operations 38–60: the corners' grid coordinates (the remainder by the grid's side, guarded against a zero divisor,
    then the maximum with zero). -/
theorem cut61 (V : Valuation τ sig (Elt F)) :
    (V ⊨[61] main_v2 ↦ s_v2) ∧ (V ⊨[61] main_v37 ↦ s_v37) ∧ (V ⊨[61] main_v39 ↦ s_v39) ∧ (V ⊨[61] main_v17 ↦ s_v17)
      ∧ (V ⊨[61] main_arg1 ↦ s_arg1) := by
  obtain ⟨h2, h32, h31, h17, h1⟩ := cut38 V
  rw [after_take ops (by decide : 38 ≤ 61) V]
  generalize after (ops.take 38) V = W at h2 h32 h31 h17 h1 ⊢
  simp only [ops, List.take_succ_cons, List.take_zero, List.drop_succ_cons, List.drop_zero]
  refine ⟨?_, ?_, ?_, ?_, ?_⟩
  · after_results_simp; exact h2
  · after_results_simp; rw [h32]; rfl
  · after_results_simp; rw [h31]; rfl
  · after_results_simp; exact h17
  · after_results_simp; exact h1

attribute [local irreducible] Host.reduce Host.reduceAdd Host.gather concatenate in
set_option maxRecDepth 8192 in
/-- Operations 61–86: each corner's distance to the point, the reciprocal of the distance plus a small constant, and
    the raw weights: that reciprocal times the inside-the-grid test as a number. -/
theorem cut87 (V : Valuation τ sig (Elt F)) :
    (V ⊨[87] main_v37 ↦ s_v37) ∧ (V ⊨[87] main_v39 ↦ s_v39) ∧ (V ⊨[87] main_v63 ↦ s_v63) ∧ (V ⊨[87] main_arg1 ↦ s_arg1) := by
  obtain ⟨h2, h37, h39, h17, h1⟩ := cut61 V
  rw [after_take ops (by decide : 61 ≤ 87) V]
  generalize after (ops.take 61) V = W at h2 h37 h39 h17 h1 ⊢
  simp only [ops, List.take_succ_cons, List.take_zero, List.drop_succ_cons, List.drop_zero]
  refine ⟨?_, ?_, ?_, ?_⟩
  · after_results_simp; exact h37
  · after_results_simp; exact h39
  · after_results_simp; rw [h17, h2, h37, h39]; rfl
  · after_results_simp; exact h1

attribute [local irreducible] Host.reduce Host.reduceAdd Host.gather concatenate in
set_option maxRecDepth 8192 in
/-- Operations 87–102: the weights (the raw weights over their sum, the sum replaced by one where it is zero) and the
    corners' rows in the feature table. -/
theorem cut103 (V : Valuation τ sig (Elt F)) :
    (V ⊨[103] main_arg1 ↦ s_arg1) ∧ (V ⊨[103] main_v73 ↦ s_v73) ∧ (V ⊨[103] main_v70 ↦ s_v70) := by
  obtain ⟨h37, h39, h63, h1⟩ := cut87 V
  rw [after_take ops (by decide : 87 ≤ 103) V]
  generalize after (ops.take 87) V = W at h37 h39 h63 h1 ⊢
  simp only [ops, List.take_succ_cons, List.take_zero, List.drop_succ_cons, List.drop_zero]
  refine ⟨?_, ?_, ?_⟩
  · after_results_simp; exact h1
  · after_results_simp; rw [h39, h37]; rfl
  · after_results_simp; rw [h63]; rfl

attribute [local irreducible] Host.reduce Host.reduceAdd Host.gather concatenate in
set_option maxRecDepth 8192 in
/-- Operations 103–112: the feature table with the channels last, and the rows with negative ones brought into range. -/
theorem cut113 (V : Valuation τ sig (Elt F)) :
    (V ⊨[113] main_call3_v4 ↦ s_call3_v4) ∧ (V ⊨[113] main_v75 ↦ s_v75) ∧ (V ⊨[113] main_v70 ↦ s_v70) := by
  obtain ⟨h1, h73, h70⟩ := cut103 V
  rw [after_take ops (by decide : 103 ≤ 113) V]
  generalize after (ops.take 103) V = W at h1 h73 h70 ⊢
  simp only [ops, List.take_succ_cons, List.take_zero, List.drop_succ_cons, List.drop_zero]
  refine ⟨?_, ?_, ?_⟩
  · after_results_simp; rw [h73]; rfl
  · after_results_simp; rw [h1]; rfl
  · after_results_simp; exact h70

attribute [local irreducible] Host.reduce Host.reduceAdd Host.gather concatenate in
set_option maxRecDepth 8192 in
/-- Operations 113–127: the rows gathered, a row outside the table replaced by the fill value. -/
theorem cut128 (V : Valuation τ sig (Elt F)) :
    (V ⊨[128] main_v77 ↦ s_v77) ∧ (V ⊨[128] main_v70 ↦ s_v70) := by
  obtain ⟨hc4, h75, h70⟩ := cut113 V
  rw [after_take ops (by decide : 113 ≤ 128) V]
  generalize after (ops.take 113) V = W at hc4 h75 h70 ⊢
  simp only [ops, List.take_succ_cons, List.take_zero, List.drop_succ_cons, List.drop_zero]
  refine ⟨?_, ?_⟩
  · after_results_simp; rw [hc4, h75]; simp only [ofBuf_toBuf]; rfl
  · after_results_simp; exact h70

attribute [local irreducible] Host.reduce Host.reduceAdd Host.gather concatenate in
set_option maxRecDepth 8192 in
/-- Operations 128–133: the weighted sum of the gathered rows: the result. -/
theorem out_eq (V : Valuation τ sig (Elt F)) :
    after ops V (main_v82 : DevRef τ sig) = s_v82 (V (main_arg0 : DevRef τ sig)) (V (main_arg1 : DevRef τ sig)) := by
  obtain ⟨h77, h70⟩ := cut128 V
  rw [after_drop ops 128 V]
  generalize after (ops.take 128) V = W at h77 h70 ⊢
  simp only [ops, List.drop_succ_cons, List.drop_zero]
  after_results_simp; rw [h77, h70]; rfl

set_option maxRecDepth 8192 in
/-- No operation writes the first argument array. -/
theorem arg0_eq (V : Valuation τ sig (Elt F)) :
    after ops V (main_arg0 : DevRef τ sig) = V (main_arg0 : DevRef τ sig) := by
  after_results_simp

set_option maxRecDepth 8192 in
/-- No operation writes the second argument array. -/
theorem arg1_eq (V : Valuation τ sig (Elt F)) :
    after ops V (main_arg1 : DevRef τ sig) = V (main_arg1 : DevRef τ sig) := by
  after_results_simp

/-- Every weakly fair execution of the reference terminates with the result at the staged value of the arguments and
    the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v82) = s_v82 (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v82).trans (out_eq _), (h c main_arg0).trans (arg0_eq _),
      (h c main_arg1).trans (arg1_eq _)⟩) (run_main m ρ)

end Cert.ReferenceIdeal.Link

end
-- ==== Proof.RefWeights.lean ====
import proofs.«427828_j9345848836388_3_alg».proof.Proof.RefStages
import proofs.«427828_j9345848836388_3_alg».proof.Proof.Spec
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws

/-!
The reference's corner rows and weights read at an index: at batch `b`, point `p`, corner `k` the staged weight
is the common weight of the point's coordinates, and the staged row is the common row word.

Each stage is read at explicit coordinates in terms of the stages before it: the points' x and y, the in-bounds mask,
the rounded coordinates stacked over the four corners, the corners' grid coordinates, the distances, the raw weights,
their sum over the corners, the normaliser, and last the weights and the row words.
-/

noncomputable section

namespace Cert.ReferenceIdeal.StageWeights

open Cert.ReferenceIdeal Cert.ReferenceIdeal.Gen Cert.ReferenceIdeal.Stages Cert.Spec Idealize.ShloMosaic Idealize.ShloMosaic.ValueIdx

variable (a0 : (⟨S8x32768x2, .f32⟩ : BufTy).Contents (Elt Ideal)) (a1 : (⟨S8x128x128x128, .f32⟩ : BufTy).Contents (Elt Ideal))

/-! ### Small scalar laws -/

/-- Dividing by one changes nothing. -/
theorem div_one' (x : EReal) : Ideal.div x 1 = x := by
  have h := Ideal.div_coe (y := 1) one_ne_zero x
  simpa using h

/-- The host's signed remainder by 128 is the plain signed remainder: 128 is neither zero nor minus one. -/
theorem remsi_128 (x : BitVec 32) : IntOp.remsi .host x 128#32 = x.srem 128#32 := by
  unfold IntOp.remsi
  rw [if_neg]
  rintro (h | ⟨_, h⟩) <;> exact absurd h (by decide)

/-! ### Four unit pieces stacked along the last axis -/

section Concat
variable {α : Type}

/-- Four arrays of extent one on the last axis, stacked along it: coordinate `k` reads piece `k`. -/
theorem concat4_apply (x0 x1 x2 x3 : S8x32768x1.Idx → α)
    (h : Shape.Concatenates [S8x32768x1, S8x32768x1, S8x32768x1, S8x32768x1] S8x32768x4 2)
    (b : Fin 8) (p : Fin 32768) (k : Fin 4) :
    concatenate S8x32768x4 2 [⟨S8x32768x1, x0⟩, ⟨S8x32768x1, x1⟩, ⟨S8x32768x1, x2⟩, ⟨S8x32768x1, x3⟩] h (ix3 b p k)
      = (![x0, x1, x2, x3] k) (ix3 b p 0) := by
  match k with
  | ⟨0, _⟩ =>
    show x0 _ = x0 _
    congr 1; funext d
    match d with
    | ⟨0, _⟩ => rfl
    | ⟨1, _⟩ => rfl
    | ⟨2, _⟩ => rfl
  | ⟨1, _⟩ =>
    show x1 _ = x1 _
    congr 1; funext d
    match d with
    | ⟨0, _⟩ => rfl
    | ⟨1, _⟩ => rfl
    | ⟨2, _⟩ => rfl
  | ⟨2, _⟩ =>
    show x2 _ = x2 _
    congr 1; funext d
    match d with
    | ⟨0, _⟩ => rfl
    | ⟨1, _⟩ => rfl
    | ⟨2, _⟩ => rfl
  | ⟨3, _⟩ =>
    show x3 _ = x3 _
    congr 1; funext d
    match d with
    | ⟨0, _⟩ => rfl
    | ⟨1, _⟩ => rfl
    | ⟨2, _⟩ => rfl

/-- A per-point array given a unit last axis reads the point's value. -/
theorem unitAxis_apply (v : S8x32768.Idx → α) (b : Fin 8) (p : Fin 32768) :
    broadcastInDim S8x32768x1 ![0, 1] bcast_S8x32768_S8x32768x1_0_1 v (ix3 b p 0) = v (ix2 b p) :=
  broadcastInDim_apply _ _ _ (ix3 b p 0) (ix2 b p) (fun a => match a with
    | ⟨0, _⟩ => rfl
    | ⟨1, _⟩ => rfl)

/-- An array with a unit last axis spread over the four corners reads the same value at each corner. -/
theorem corners_apply (v : S8x32768x1.Idx → α) (b : Fin 8) (p : Fin 32768) (k : Fin 4) :
    broadcastInDim S8x32768x4 ![0, 1, 2] bcast_S8x32768x1_S8x32768x4_0_1_2 v (ix3 b p k) = v (ix3 b p 0) :=
  broadcastInDim_apply _ _ _ (ix3 b p k) (ix3 b p 0) (fun a => match a with
    | ⟨0, _⟩ => rfl
    | ⟨1, _⟩ => rfl
    | ⟨2, _⟩ => rfl)

/-- The unit last axis dropped: the point's value. -/
theorem dropUnit_apply (v : S8x32768x1.Idx → α) (b : Fin 8) (p : Fin 32768) :
    shapeCast S8x32768 v shapeCasts_S8x32768x1_S8x32768 (ix2 b p) = v (ix3 b p 0) :=
  shapeCast_apply v _ (ix2 b p) (ix3 b p 0) (by
    rw [Shape.rowMajor_val_three, Shape.rowMajor_val_two]
    show (b.val * 32768 + p.val) * 1 + 0 = b.val * 32768 + p.val
    omega)

end Concat

/-! ### The points' coordinates -/

theorem s_v1_apply (b : Fin 8) (p : Fin 32768) (c : Fin 2) :
    s_v1 (F := Ideal) a0 a1 (ix3 b p c) = 1 := by
  unfold s_v1
  refine (broadcastInDim_apply _ _ _ (ix3 b p c) (ix3 0 0 c) ?_).trans ?_
  · intro a; match a with
    | ⟨0, _⟩ => rfl
    | ⟨1, _⟩ => rfl
    | ⟨2, _⟩ => rfl
  unfold s_v0
  refine (broadcastInDim_apply _ _ _ (ix3 0 0 c) (ix1 c) ?_).trans ?_
  · intro a; match a with
    | ⟨0, _⟩ => rfl
  unfold s_cst
  rw [constant_apply]; exact Ideal.ofBits_one_f32

/-- The points divided by one are the points. -/
theorem s_v2_apply (b : Fin 8) (p : Fin 32768) (c : Fin 2) :
    s_v2 (F := Ideal) a0 a1 (ix3 b p c) = a0 (ix3 b p c) := by
  unfold s_v2
  rw [hostDivf_apply, s_v1_apply, div_one']

theorem s_v3_apply (b : Fin 8) (p : Fin 32768) :
    s_v3 (F := Ideal) a0 a1 (ix3 b p 0) = a0 (ix3 b p 0) := by
  unfold s_v3
  refine (extractStridedSlice_apply _ _ _ (ix3 b p 0) (ix3 b p 0) ?_).trans (s_v2_apply a0 a1 b p 0)
  intro a; match a with
    | ⟨0, _⟩ => exact (Nat.zero_add _).symm
    | ⟨1, _⟩ => exact (Nat.zero_add _).symm
    | ⟨2, _⟩ => rfl

theorem s_v5_apply (b : Fin 8) (p : Fin 32768) :
    s_v5 (F := Ideal) a0 a1 (ix3 b p 0) = a0 (ix3 b p 1) := by
  unfold s_v5
  refine (extractStridedSlice_apply _ _ _ (ix3 b p 0) (ix3 b p 1) ?_).trans (s_v2_apply a0 a1 b p 1)
  intro a; match a with
    | ⟨0, _⟩ => exact (Nat.zero_add _).symm
    | ⟨1, _⟩ => exact (Nat.zero_add _).symm
    | ⟨2, _⟩ => rfl

/-- The point's x. -/
theorem s_v4_apply (b : Fin 8) (p : Fin 32768) :
    s_v4 (F := Ideal) a0 a1 (ix2 b p) = a0 (ix3 b p 0) := by
  unfold s_v4; rw [dropUnit_apply, s_v3_apply]

/-- The point's y. -/
theorem s_v6_apply (b : Fin 8) (p : Fin 32768) :
    s_v6 (F := Ideal) a0 a1 (ix2 b p) = a0 (ix3 b p 1) := by
  unfold s_v6; rw [dropUnit_apply, s_v5_apply]

/-! ### The in-bounds mask -/

theorem s_v7_apply (b : Fin 8) (p : Fin 32768) : s_v7 (F := Ideal) a0 a1 (ix2 b p) = zeroF := by
  unfold s_v7; rw [broadcastInDim_scalar_apply]; rfl

theorem s_v9_apply (b : Fin 8) (p : Fin 32768) : s_v9 (F := Ideal) a0 a1 (ix2 b p) = zeroF := by
  unfold s_v9; rw [broadcastInDim_scalar_apply]; rfl

theorem s_v12_apply (b : Fin 8) (p : Fin 32768) : s_v12 (F := Ideal) a0 a1 (ix2 b p) = hiF := by
  unfold s_v12; rw [broadcastInDim_scalar_apply]; rfl

theorem s_v15_apply (b : Fin 8) (p : Fin 32768) : s_v15 (F := Ideal) a0 a1 (ix2 b p) = hiF := by
  unfold s_v15; rw [broadcastInDim_scalar_apply]; rfl

/-- The point lies inside the grid, as a one-bit word. -/
theorem s_v17_apply (b : Fin 8) (p : Fin 32768) :
    s_v17 (F := Ideal) a0 a1 (ix2 b p) = inb (a0 (ix3 b p 0)) (a0 (ix3 b p 1)) := by
  show IntOp.andi (IntOp.andi (IntOp.andi
      (Ideal.cmp .oge (s_v4 (F := Ideal) a0 a1 (ix2 b p)) (s_v7 (F := Ideal) a0 a1 (ix2 b p)))
      (Ideal.cmp .oge (s_v6 (F := Ideal) a0 a1 (ix2 b p)) (s_v9 (F := Ideal) a0 a1 (ix2 b p))))
      (Ideal.cmp .ole (s_v4 (F := Ideal) a0 a1 (ix2 b p)) (s_v12 (F := Ideal) a0 a1 (ix2 b p))))
      (Ideal.cmp .ole (s_v6 (F := Ideal) a0 a1 (ix2 b p)) (s_v15 (F := Ideal) a0 a1 (ix2 b p))) = _
  rw [s_v4_apply, s_v6_apply, s_v7_apply, s_v9_apply, s_v12_apply, s_v15_apply]
  rfl

/-! ### The rounded coordinates and the four corners -/

theorem s_v18_apply (b : Fin 8) (p : Fin 32768) : s_v18 (F := Ideal) a0 a1 (ix2 b p) = fl (a0 (ix3 b p 0)) := by
  show Ideal.liftRound Int.floor (s_v4 (F := Ideal) a0 a1 (ix2 b p)) = _
  rw [s_v4_apply]; rfl

theorem s_v19_apply (b : Fin 8) (p : Fin 32768) : s_v19 (F := Ideal) a0 a1 (ix2 b p) = cl (a0 (ix3 b p 0)) := by
  show Ideal.liftRound Int.ceil (s_v4 (F := Ideal) a0 a1 (ix2 b p)) = _
  rw [s_v4_apply]; rfl

theorem s_v20_apply (b : Fin 8) (p : Fin 32768) : s_v20 (F := Ideal) a0 a1 (ix2 b p) = fl (a0 (ix3 b p 1)) := by
  show Ideal.liftRound Int.floor (s_v6 (F := Ideal) a0 a1 (ix2 b p)) = _
  rw [s_v6_apply]; rfl

theorem s_v21_apply (b : Fin 8) (p : Fin 32768) : s_v21 (F := Ideal) a0 a1 (ix2 b p) = cl (a0 (ix3 b p 1)) := by
  show Ideal.liftRound Int.ceil (s_v6 (F := Ideal) a0 a1 (ix2 b p)) = _
  rw [s_v6_apply]; rfl

/-- The four corners' rounded x, in the order down, down, up, up. -/
theorem s_v26_apply (b : Fin 8) (p : Fin 32768) (k : Fin 4) :
    s_v26 (F := Ideal) a0 a1 (ix3 b p k) = cx (a0 (ix3 b p 0)) k := by
  unfold s_v26
  rw [concat4_apply]
  match k with
  | ⟨0, _⟩ => show s_v22 (F := Ideal) a0 a1 (ix3 b p 0) = _; unfold s_v22; rw [unitAxis_apply, s_v18_apply]; rfl
  | ⟨1, _⟩ => show s_v23 (F := Ideal) a0 a1 (ix3 b p 0) = _; unfold s_v23; rw [unitAxis_apply, s_v18_apply]; rfl
  | ⟨2, _⟩ => show s_v24 (F := Ideal) a0 a1 (ix3 b p 0) = _; unfold s_v24; rw [unitAxis_apply, s_v19_apply]; rfl
  | ⟨3, _⟩ => show s_v25 (F := Ideal) a0 a1 (ix3 b p 0) = _; unfold s_v25; rw [unitAxis_apply, s_v19_apply]; rfl

/-- The four corners' rounded y, in the order down, up, down, up. -/
theorem s_v31_apply (b : Fin 8) (p : Fin 32768) (k : Fin 4) :
    s_v31 (F := Ideal) a0 a1 (ix3 b p k) = cy (a0 (ix3 b p 1)) k := by
  unfold s_v31
  rw [concat4_apply]
  match k with
  | ⟨0, _⟩ => show s_v27 (F := Ideal) a0 a1 (ix3 b p 0) = _; unfold s_v27; rw [unitAxis_apply, s_v20_apply]; rfl
  | ⟨1, _⟩ => show s_v28 (F := Ideal) a0 a1 (ix3 b p 0) = _; unfold s_v28; rw [unitAxis_apply, s_v21_apply]; rfl
  | ⟨2, _⟩ => show s_v29 (F := Ideal) a0 a1 (ix3 b p 0) = _; unfold s_v29; rw [unitAxis_apply, s_v20_apply]; rfl
  | ⟨3, _⟩ => show s_v30 (F := Ideal) a0 a1 (ix3 b p 0) = _; unfold s_v30; rw [unitAxis_apply, s_v21_apply]; rfl

/-! ### The corners' grid coordinates -/

/-- The remainder's divisor is 128 at every corner (128 is not zero, so the guard keeps it). -/
theorem s_call0_v3_apply (b : Fin 8) (p : Fin 32768) (k : Fin 4) :
    s_call0_v3 (F := Ideal) a0 a1 (ix3 b p k) = 128#32 := by
  unfold s_call0_v3; rw [broadcastInDim_scalar_apply]; rfl

theorem s_call1_v3_apply (b : Fin 8) (p : Fin 32768) (k : Fin 4) :
    s_call1_v3 (F := Ideal) a0 a1 (ix3 b p k) = 128#32 := by
  unfold s_call1_v3; rw [broadcastInDim_scalar_apply]; rfl

theorem s_v36_apply (b : Fin 8) (p : Fin 32768) (k : Fin 4) : s_v36 (F := Ideal) a0 a1 (ix3 b p k) = 0#32 := by
  unfold s_v36; rw [broadcastInDim_scalar_apply]; rfl

theorem s_v38_apply (b : Fin 8) (p : Fin 32768) (k : Fin 4) : s_v38 (F := Ideal) a0 a1 (ix3 b p k) = 0#32 := by
  unfold s_v38; rw [broadcastInDim_scalar_apply]; rfl

/-- Corner `k`'s grid x: the rounded x as a word, remainder by 128, clamped below at 0. -/
theorem s_v37_apply (b : Fin 8) (p : Fin 32768) (k : Fin 4) :
    s_v37 (F := Ideal) a0 a1 (ix3 b p k) = gx (a0 (ix3 b p 0)) k := by
  show IntOp.maxsi (IntOp.remsi .host (Ideal.fptosi 32 (s_v26 (F := Ideal) a0 a1 (ix3 b p k)))
      (s_call0_v3 (F := Ideal) a0 a1 (ix3 b p k))) (s_v36 (F := Ideal) a0 a1 (ix3 b p k)) = _
  rw [s_v26_apply, s_call0_v3_apply, s_v36_apply, remsi_128]; rfl

/-- Corner `k`'s grid y. -/
theorem s_v39_apply (b : Fin 8) (p : Fin 32768) (k : Fin 4) :
    s_v39 (F := Ideal) a0 a1 (ix3 b p k) = gy (a0 (ix3 b p 1)) k := by
  show IntOp.maxsi (IntOp.remsi .host (Ideal.fptosi 32 (s_v31 (F := Ideal) a0 a1 (ix3 b p k)))
      (s_call1_v3 (F := Ideal) a0 a1 (ix3 b p k))) (s_v38 (F := Ideal) a0 a1 (ix3 b p k)) = _
  rw [s_v31_apply, s_call1_v3_apply, s_v38_apply, remsi_128]; rfl

/-- Corner `k`'s row word at batch `b`, point `p`. -/
theorem s_v73_apply (b : Fin 8) (p : Fin 32768) (k : Fin 4) :
    s_v73 (F := Ideal) a0 a1 (ix3 b p k) = flat (a0 (ix3 b p 0)) (a0 (ix3 b p 1)) k := by
  show IntOp.addi (IntOp.muli (s_v39 (F := Ideal) a0 a1 (ix3 b p k)) (s_v71 (F := Ideal) a0 a1 (ix3 b p k)))
      (s_v37 (F := Ideal) a0 a1 (ix3 b p k)) = _
  rw [s_v39_apply, s_v37_apply]
  have h71 : s_v71 (F := Ideal) a0 a1 (ix3 b p k) = 128#32 := by
    unfold s_v71; rw [broadcastInDim_scalar_apply]; rfl
  rw [h71]; rfl

/-! ### The distances to the corners and the raw weights -/

theorem s_v41_apply (b : Fin 8) (p : Fin 32768) :
    s_v41 (F := Ideal) a0 a1 (ix2 b p) = a0 (ix3 b p 0) := by
  unfold s_v41; rw [dropUnit_apply]; exact s_v3_apply a0 a1 b p

theorem s_v47_apply (b : Fin 8) (p : Fin 32768) :
    s_v47 (F := Ideal) a0 a1 (ix2 b p) = a0 (ix3 b p 1) := by
  unfold s_v47; rw [dropUnit_apply]; exact s_v5_apply a0 a1 b p

theorem s_v44_apply (b : Fin 8) (p : Fin 32768) (k : Fin 4) :
    s_v44 (F := Ideal) a0 a1 (ix3 b p k) = a0 (ix3 b p 0) := by
  unfold s_v44; rw [corners_apply]; unfold s_v42; rw [unitAxis_apply, s_v41_apply]

theorem s_v50_apply (b : Fin 8) (p : Fin 32768) (k : Fin 4) :
    s_v50 (F := Ideal) a0 a1 (ix3 b p k) = a0 (ix3 b p 1) := by
  unfold s_v50; rw [corners_apply]; unfold s_v48; rw [unitAxis_apply, s_v47_apply]

/-- The point's x less corner `k`'s grid x. -/
theorem s_v45_apply (b : Fin 8) (p : Fin 32768) (k : Fin 4) :
    s_v45 (F := Ideal) a0 a1 (ix3 b p k) = a0 (ix3 b p 0) - toF (gx (a0 (ix3 b p 0)) k) := by
  show s_v44 (F := Ideal) a0 a1 (ix3 b p k) - toF (s_v37 (F := Ideal) a0 a1 (ix3 b p k)) = _
  rw [s_v44_apply, s_v37_apply]

/-- The point's y less corner `k`'s grid y. -/
theorem s_v51_apply (b : Fin 8) (p : Fin 32768) (k : Fin 4) :
    s_v51 (F := Ideal) a0 a1 (ix3 b p k) = a0 (ix3 b p 1) - toF (gy (a0 (ix3 b p 1)) k) := by
  show s_v50 (F := Ideal) a0 a1 (ix3 b p k) - toF (s_v39 (F := Ideal) a0 a1 (ix3 b p k)) = _
  rw [s_v50_apply, s_v39_apply]

theorem s_v56_apply (b : Fin 8) (p : Fin 32768) (k : Fin 4) : s_v56 (F := Ideal) a0 a1 (ix3 b p k) = epsF := by
  unfold s_v56; rw [broadcastInDim_scalar_apply]; rfl

theorem s_v58_apply (b : Fin 8) (p : Fin 32768) (k : Fin 4) : s_v58 (F := Ideal) a0 a1 (ix3 b p k) = oneF := by
  unfold s_v58; rw [broadcastInDim_scalar_apply]; rfl

/-- The distance from the point to corner `k`, plus ε. -/
theorem s_v57_apply (b : Fin 8) (p : Fin 32768) (k : Fin 4) :
    s_v57 (F := Ideal) a0 a1 (ix3 b p k) = dist (a0 (ix3 b p 0)) (a0 (ix3 b p 1)) k := by
  show Ideal.sqrt (s_v45 (F := Ideal) a0 a1 (ix3 b p k) * s_v45 (F := Ideal) a0 a1 (ix3 b p k)
      + s_v51 (F := Ideal) a0 a1 (ix3 b p k) * s_v51 (F := Ideal) a0 a1 (ix3 b p k))
      + s_v56 (F := Ideal) a0 a1 (ix3 b p k) = _
  rw [s_v45_apply, s_v51_apply, s_v56_apply]; rfl

/-- The mask as 0 or 1, at every corner. -/
theorem s_v62_apply (b : Fin 8) (p : Fin 32768) (k : Fin 4) :
    s_v62 (F := Ideal) a0 a1 (ix3 b p k) = inbF (a0 (ix3 b p 0)) (a0 (ix3 b p 1)) := by
  unfold s_v62; rw [corners_apply]
  show (((s_v60 (F := Ideal) a0 a1 (ix3 b p 0)).toNat : ℝ) : EReal) = _
  unfold s_v60; rw [unitAxis_apply, s_v17_apply]; rfl

/-- Corner `k`'s raw weight. -/
theorem s_v63_apply (b : Fin 8) (p : Fin 32768) (k : Fin 4) :
    s_v63 (F := Ideal) a0 a1 (ix3 b p k) = raw (a0 (ix3 b p 0)) (a0 (ix3 b p 1)) k := by
  show s_v62 (F := Ideal) a0 a1 (ix3 b p k)
      * Ideal.div (s_v58 (F := Ideal) a0 a1 (ix3 b p k)) (s_v57 (F := Ideal) a0 a1 (ix3 b p k)) = _
  rw [s_v62_apply, s_v58_apply, s_v57_apply]; rfl

/-! ### The sum of the raw weights, the normaliser, the weights -/

theorem reduces_corners : S8x32768x4.Reduces [2] S8x32768 := by decide

/-- The sum over the four corners of the raw weights. -/
theorem s_v64_apply (b : Fin 8) (p : Fin 32768) :
    s_v64 (F := Ideal) a0 a1 (ix2 b p) = den (a0 (ix3 b p 0)) (a0 (ix3 b p 1)) := by
  unfold s_v64
  refine (hostReduceAdd_apply (s_v63 (F := Ideal) a0 a1) (s_cst_9 (F := Ideal) a0 a1) reducesTo_S8x32768x4_S8x32768_d2 h_S_ (ix2 b p)).trans ?_
  rw [Ideal.hostReduceAdd_single _ reduces_corners]
  have h0 : s_cst_9 (F := Ideal) a0 a1 (Shape.Idx.first h_S_) = 0 := Ideal.ofBits_zero_f32
  rw [h0, zero_add]
  unfold den
  refine Finset.sum_congr rfl fun k _ => ?_
  have hk : reduces_corners.lift (ix2 b p) k = ix3 b p k := by
    funext d
    match d with
    | ⟨0, _⟩ => rfl
    | ⟨1, _⟩ => rfl
    | ⟨2, _⟩ => rfl
  rw [hk]; exact s_v63_apply a0 a1 b p k

/-- The normaliser: 1 where the sum is 0, else the sum. -/
theorem s_v68_apply (b : Fin 8) (p : Fin 32768) :
    s_v68 (F := Ideal) a0 a1 (ix3 b p 0) = den' (a0 (ix3 b p 0)) (a0 (ix3 b p 1)) := by
  have h65 : s_v65 (F := Ideal) a0 a1 (ix3 b p 0) = den (a0 (ix3 b p 0)) (a0 (ix3 b p 1)) := by
    unfold s_v65; rw [unitAxis_apply, s_v64_apply]
  have h66 : s_v66 (F := Ideal) a0 a1 (ix3 b p 0) = zeroF := by
    unfold s_v66; rw [broadcastInDim_scalar_apply]; rfl
  have hone : s_call2_v1 (F := Ideal) a0 a1 (ix3 b p 0) = oneF := by
    unfold s_call2_v1; rw [broadcastInDim_scalar_apply]; rfl
  unfold s_v68
  rw [select_apply]
  unfold s_v67
  rw [cmpf_apply, h65, h66, hone]; rfl

/-- Corner `k`'s weight at batch `b`, point `p`. -/
theorem s_v70_apply (b : Fin 8) (p : Fin 32768) (k : Fin 4) :
    s_v70 (F := Ideal) a0 a1 (ix3 b p k) = wt (a0 (ix3 b p 0)) (a0 (ix3 b p 1)) k := by
  unfold s_v70
  rw [hostDivf_apply, s_v63_apply]
  unfold s_v69
  rw [corners_apply, s_v68_apply]; rfl

end Cert.ReferenceIdeal.StageWeights

end
-- ==== Proof.RefValue.lean ====
import proofs.«427828_j9345848836388_3_alg».proof.Proof.RefStages
import proofs.«427828_j9345848836388_3_alg».proof.Proof.RefWeights
import proofs.«427828_j9345848836388_3_alg».proof.Proof.Spec
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

/-!
The reference's staged values read at an index: the last of them is the common value `G` of the two arguments.

From the corner weights and corner row words (read in the neighbouring module) to the result: the feature table read by
coordinates, the row words laid out one per gathered position, the gather of the table's rows at those words (each word
is a row of the table, so the range mask is 1 everywhere and the clamp changes nothing), and the weighted sum over the
four corners.
-/

noncomputable section

namespace Cert.ReferenceIdeal.StageValue

open Cert.ReferenceIdeal Cert.ReferenceIdeal.Gen Cert.ReferenceIdeal.Stages Cert.ReferenceIdeal.StageWeights Cert.Spec Idealize.ShloMosaic Idealize.ShloMosaic.ValueIdx

/-! ### Facts about indices, words and folds that do not mention the stages -/

section Word
variable {r : BitVec 32} (h1 : r.toInt = (r.toNat : Int)) (h2 : r.toNat < 16384)
include h1 h2

/-- A row word in `0 … 16383` is not negative. -/
theorem slt_zero : IntOp.cmpi .slt r 0#32 = 0#1 := by
  have h : ¬ r.toInt < 0 := by omega
  simp [IntOp.cmpi, BitVec.slt, h]

/-- … so the test `0 ≤ row` holds. -/
theorem sge_zero : IntOp.cmpi .sge r 0#32 = 1#1 := by
  have h : (0 : Int) ≤ r.toInt := by omega
  simp [IntOp.cmpi, BitVec.sle, h]

/-- … and so does the test `row ≤ 16383`. -/
theorem sle_top : IntOp.cmpi .sle r 16383#32 = 1#1 := by
  have h : r.toInt ≤ 16383 := by omega
  have e : (16383#32 : BitVec 32).toInt = 16383 := by decide
  simp [IntOp.cmpi, BitVec.sle, e, h]
end Word

/-- A reduced index `(a, n)` with coordinate `k` put back on the last axis is `(a, n, k)`. -/
theorem lift3_last {n0 n1 n2 : Nat} (h : (⟨3, ![n0, n1, n2]⟩ : Shape).Reduces [2] (⟨2, ![n0, n1]⟩ : Shape)) (a : Fin n0) (n : Fin n1)
    (k : Fin ((⟨3, ![n0, n1, n2]⟩ : Shape).size 2)) : h.lift (ix2 a n) k = ix3 a n (⟨k.val, k.isLt⟩ : Fin n2) := by
  funext c; apply Fin.ext
  fin_cases c <;> rfl

/-- A reduced index `(a, n, c)` with coordinate `k` put back on axis 2 is `(a, n, k, c)`. -/
theorem lift4_axis2 {n0 n1 n2 n3 : Nat} (h : (⟨4, ![n0, n1, n2, n3]⟩ : Shape).Reduces [2] (⟨3, ![n0, n1, n3]⟩ : Shape)) (a : Fin n0)
    (n : Fin n1) (c : Fin n3) (k : Fin ((⟨4, ![n0, n1, n2, n3]⟩ : Shape).size 2)) :
    h.lift (ix3 a n c) k = ix4 a n (⟨k.val, k.isLt⟩ : Fin n2) c := by
  funext d; apply Fin.ext
  fin_cases d <;> rfl

/-- A fold over an axis of one entry combines that entry with the initial value. -/
theorem fold_univ_one {α : Type} (op : α → α → α) [Std.Commutative op] [Std.Associative op] (init : α) {n : Nat} (hn : n = 1)
    (f : Fin n → α) : (Finset.univ : Finset (Fin n)).fold op init f = op (f ⟨0, by omega⟩) init := by
  subst hn
  rw [Finset.univ_unique, Finset.fold_singleton]
  rfl

/-- The batched row gather read at `(b, n, c)`: the table of batch `b` at the row word `idx[b, n, 0]`, read signed and clamped into
`0 … 16383`, channel `c`. -/
theorem gather_rows_apply {α : Type} (x : S8x16384x128.Idx → α) (idx : IVec S8x131072x1 32) (b : Fin 8) (n : Fin 131072) (c : Fin 128) :
    Host.gather gather_S8x16384x128_S8x131072x1_S8x131072x128_2_1_0_0_1_2_11128 x idx (ix3 b n c)
      = x (ix3 b (⟨min (idx (ix3 b n (0 : Fin 1))).toInt.toNat 16383, by omega⟩ : Fin 16384) c) := by
  unfold Host.gather
  congr 1
  funext a
  refine Fin.ext ?_
  show gather_S8x16384x128_S8x131072x1_S8x131072x128_2_1_0_0_1_2_11128.start (ix3 b n c) idx a
      + gather_S8x16384x128_S8x131072x1_S8x131072x128_2_1_0_0_1_2_11128.batchCoord (ix3 b n c) a
      + gather_S8x16384x128_S8x131072x1_S8x131072x128_2_1_0_0_1_2_11128.offCoord (ix3 b n c) a = _
  fin_cases a
  · rw [GatherDims.start_batching _ _ _ _ (by decide), GatherDims.offCoord_eq_zero _ _ _ (by decide)]
    unfold GatherDims.batchCoord
    rw [dif_pos (by decide), Nat.zero_add, Nat.add_zero]
    rfl
  · rw [GatherDims.batchCoord_eq_zero _ _ _ (by decide), GatherDims.offCoord_eq_zero _ _ _ (by decide)]
    simp only [Nat.add_zero]
    unfold GatherDims.start
    rw [dif_pos (by decide)]
    have hsi : gather_S8x16384x128_S8x131072x1_S8x131072x128_2_1_0_0_1_2_11128.siIdx (ix3 b n c)
        ⟨List.idxOf (⟨1, by decide⟩ : Fin S8x16384x128.rank) gather_S8x16384x128_S8x131072x1_S8x131072x128_2_1_0_0_1_2_11128.startIndexMap,
          List.idxOf_lt_length_iff.2 (by decide)⟩ = ix3 b n (0 : Fin 1) := by
      funext d; refine Fin.ext ?_
      fin_cases d <;> rfl
    exact congrArg (fun i => min (idx i).toInt.toNat 16383) hsi
  · rw [GatherDims.batchCoord_eq_zero _ _ _ (by decide)]
    unfold GatherDims.start GatherDims.offCoord
    rw [dif_neg (by decide), dif_pos (by decide), Nat.add_zero, Nat.zero_add]
    rfl

/-- The clamped row word is the row. -/
theorem clamp_flat (x y : EReal) (k : Fin 4) : min (flat x y k).toInt.toNat 16383 = (row x y k).val := by
  have h1 := flat_toInt x y k
  have h2 := flat_lt x y k
  show min (flat x y k).toInt.toNat 16383 = (flat x y k).toNat
  rw [h1, Int.toNat_natCast]
  omega

/-! ### The stages, one by one -/

section Stages

variable (a0 : (⟨S8x32768x2, .f32⟩ : BufTy).Contents (Elt Ideal)) (a1 : (⟨S8x128x128x128, .f32⟩ : BufTy).Contents (Elt Ideal))

/-- The feature table at batch `b`, row `hw`, channel `c`. -/
theorem s_v75_apply (b : Fin 8) (hw : Fin 16384) (c : Fin 128) :
    s_v75 (F := Ideal) a0 a1 (ix3 b hw c) = fgT a1 b hw c := by
  unfold s_v75 fgT
  refine (shapeCast_apply (s_v74 a0 a1) shapeCasts_S8x128x128x128_S8x16384x128 (ix3 b hw c)
    (ix4 b ⟨hw.val / 128, by have := hw.isLt; omega⟩ ⟨hw.val % 128, Nat.mod_lt _ (by norm_num)⟩ c) ?_).trans ?_
  · rw [Shape.rowMajor_val_four, Shape.rowMajor_val_three]
    show ((b.val * 128 + hw.val / 128) * 128 + hw.val % 128) * 128 + c.val = (b.val * 16384 + hw.val) * 128 + c.val
    omega
  · unfold s_v74
    exact transpose_apply _ a1 transposes_S8x128x128x128_S8x128x128x128_0_2_3_1 _ _
      fun d => match d with | ⟨0, _⟩ => rfl | ⟨1, _⟩ => rfl | ⟨2, _⟩ => rfl | ⟨3, _⟩ => rfl

/-- Corner `k` of point `p` as a position among the 4 · 32768 gathered rows. -/
abbrev pk (p : Fin 32768) (k : Fin 4) : Fin 131072 := ⟨4 * p.val + k.val, by have := p.isLt; have := k.isLt; omega⟩

/-- The rows reshaped: position `4p + k` holds corner `k`'s row word of point `p`. -/
theorem s_v76_apply (b : Fin 8) (p : Fin 32768) (k : Fin 4) (u : Fin 1) :
    s_v76 (F := Ideal) a0 a1 (ix3 b (pk p k) u) = flat (a0 (ix3 b p 0)) (a0 (ix3 b p 1)) k := by
  unfold s_v76
  refine (shapeCast_apply (s_v73 a0 a1) shapeCasts_S8x32768x4_S8x131072x1 (ix3 b (pk p k) u) (ix3 b p k) ?_).trans
    (s_v73_apply a0 a1 b p k)
  rw [Shape.rowMajor_val_three, Shape.rowMajor_val_three]
  show (b.val * 32768 + p.val) * 4 + k.val = (b.val * 131072 + (4 * p.val + k.val)) * 1 + u.val
  have := u.isLt
  omega

/-- The row word after the negative-row correction: unchanged, the row is not negative. -/
theorem s_call3_v4_apply (b : Fin 8) (p : Fin 32768) (k : Fin 4) (u : Fin 1) :
    s_call3_v4 (F := Ideal) a0 a1 (ix3 b (pk p k) u) = flat (a0 (ix3 b p 0)) (a0 (ix3 b p 1)) k := by
  unfold s_call3_v4
  rw [select_apply]
  have hc : s_call3_v1 (F := Ideal) a0 a1 (ix3 b (pk p k) u) = 0#1 := by
    unfold s_call3_v1 s_call3_v0 s_call3_c
    show IntOp.cmpi .slt (s_v76 a0 a1 (ix3 b (pk p k) u)) (broadcastInDim S8x131072x1 ![] bcast_S_S8x131072x1 (constantI S_ 32 0#32) (ix3 b (pk p k) u)) = 0#1
    rw [s_v76_apply, broadcastInDim_scalar_apply, constantI_apply]
    exact slt_zero (flat_toInt _ _ _) (flat_lt _ _ _)
  rw [hc, select_zero, s_v76_apply]

/-- The row is within the table: both range tests hold. -/
theorem s_call3_v10_apply (b : Fin 8) (p : Fin 32768) (k : Fin 4) (u : Fin 1) :
    s_call3_v10 (F := Ideal) a0 a1 (ix3 b (pk p k) u) = 1#1 := by
  unfold s_call3_v10 s_call3_v6 s_call3_v9 s_call3_v5 s_call3_c_2 s_call3_v8 s_call3_v7 s_call3_c_1
  show IntOp.andi
      (IntOp.cmpi .sge (s_call3_v4 a0 a1 (ix3 b (pk p k) u))
        (broadcastInDim S8x131072x1 ![] bcast_S_S8x131072x1 (constantI S_ 32 0#32) (ix3 b (pk p k) u)))
      (IntOp.cmpi .sle (s_call3_v4 a0 a1 (ix3 b (pk p k) u))
        (broadcastInDim S8x131072x1 ![0, 1, 2] bcast_S1x1x1_S8x131072x1_0_1_2
          (broadcastInDim S1x1x1 ![2] bcast_S1_S1x1x1_2 (constantI S1 32 16383#32)) (ix3 b (pk p k) u))) = 1#1
  rw [s_call3_v4_apply, broadcastInDim_scalar_apply, constantI_apply]
  have e : (broadcastInDim S8x131072x1 ![0, 1, 2] bcast_S1x1x1_S8x131072x1_0_1_2
          (broadcastInDim S1x1x1 ![2] bcast_S1_S1x1x1_2 (constantI S1 32 16383#32)) (ix3 b (pk p k) u)) = 16383#32 := rfl
  rw [e, sge_zero (flat_toInt _ _ _) (flat_lt _ _ _), sle_top (flat_toInt _ _ _) (flat_lt _ _ _)]
  rfl
/-- The range test reduced over its one-entry axis: still 1. -/
theorem s_call3_v11_apply (b : Fin 8) (p : Fin 32768) (k : Fin 4) :
    s_call3_v11 (F := Ideal) a0 a1 (ix2 b (pk p k)) = 1#1 := by
  have hR : S8x131072x1.Reduces [2] S8x131072 := by decide
  unfold s_call3_v11
  show Host.reduce IntOp.andi (s_call3_v10 a0 a1) (s_call3_c_3 a0 a1) reducesTo_S8x131072x1_S8x131072_d2 h_S_ (ix2 b (pk p k)) = 1#1
  rw [Host.reduce_eq_fold_single IntOp.andi _ _ reducesTo_S8x131072x1_S8x131072_d2 hR h_S_,
    fold_univ_one IntOp.andi _ (rfl : S8x131072x1.size 2 = 1)]
  show IntOp.andi (s_call3_v10 a0 a1 (hR.lift (ix2 b (pk p k)) ⟨0, _⟩)) (s_call3_c_3 a0 a1 (Shape.Idx.first h_S_)) = 1#1
  rw [lift3_last hR b (pk p k), s_call3_v10_apply]
  unfold s_call3_c_3
  rw [constantI_apply]
  decide

/-- The mask over the gathered rows: 1 at every position and channel. -/
theorem s_call3_v13_apply (b : Fin 8) (p : Fin 32768) (k : Fin 4) (c : Fin 128) :
    s_call3_v13 (F := Ideal) a0 a1 (ix3 b (pk p k) c) = 1#1 := by
  unfold s_call3_v13
  refine (broadcastInDim_apply _ bcast_S8x131072_S8x131072x128_0_1 (s_call3_v11 a0 a1) (ix3 b (pk p k) c) (ix2 b (pk p k))
    fun a => match a with | ⟨0, _⟩ => rfl | ⟨1, _⟩ => rfl).trans (s_call3_v11_apply a0 a1 b p k)
/-- The gathered value at position `4p + k`, channel `c`: the table's row of corner `k`. -/
theorem s_call3_v12_apply (b : Fin 8) (p : Fin 32768) (k : Fin 4) (c : Fin 128) :
    s_call3_v12 (F := Ideal) a0 a1 (ix3 b (pk p k) c)
      = fgT a1 b (row (a0 (ix3 b p 0)) (a0 (ix3 b p 1)) k) c := by
  unfold s_call3_v12
  show Host.gather gather_S8x16384x128_S8x131072x1_S8x131072x128_2_1_0_0_1_2_11128 (s_v75 a0 a1) (s_call3_v4 a0 a1) (ix3 b (pk p k) c) = _
  rw [gather_rows_apply]
  have e : (⟨min (s_call3_v4 (F := Ideal) a0 a1 (ix3 b (pk p k) (0 : Fin 1))).toInt.toNat 16383, by omega⟩ : Fin 16384)
      = row (a0 (ix3 b p 0)) (a0 (ix3 b p 1)) k := by
    refine Fin.ext ?_
    show min (s_call3_v4 (F := Ideal) a0 a1 (ix3 b (pk p k) (0 : Fin 1))).toInt.toNat 16383 = _
    rw [s_call3_v4_apply, clamp_flat]
  rw [e, s_v75_apply]

/-- The rows gathered: the mask is 1, so the gathered value stands. -/
theorem s_v77_apply (b : Fin 8) (p : Fin 32768) (k : Fin 4) (c : Fin 128) :
    s_v77 (F := Ideal) a0 a1 (ix3 b (pk p k) c)
      = fgT a1 b (row (a0 (ix3 b p 0)) (a0 (ix3 b p 1)) k) c := by
  unfold s_v77
  rw [select_apply, s_call3_v13_apply, select_one, s_call3_v12_apply]

/-- … reshaped to point, corner, channel. -/
theorem s_v78_apply (b : Fin 8) (p : Fin 32768) (k : Fin 4) (c : Fin 128) :
    s_v78 (F := Ideal) a0 a1 (ix4 b p k c)
      = fgT a1 b (row (a0 (ix3 b p 0)) (a0 (ix3 b p 1)) k) c := by
  unfold s_v78
  refine (shapeCast_apply (s_v77 a0 a1) shapeCasts_S8x131072x128_S8x32768x4x128 (ix4 b p k c) (ix3 b (pk p k) c) ?_).trans
    (s_v77_apply a0 a1 b p k c)
  rw [Shape.rowMajor_val_three, Shape.rowMajor_val_four]
  show (b.val * 131072 + (4 * p.val + k.val)) * 128 + c.val = ((b.val * 32768 + p.val) * 4 + k.val) * 128 + c.val
  omega

/-- The weights spread over the channels. -/
theorem s_v80_apply (b : Fin 8) (p : Fin 32768) (k : Fin 4) (c : Fin 128) :
    s_v80 (F := Ideal) a0 a1 (ix4 b p k c) = wt (a0 (ix3 b p 0)) (a0 (ix3 b p 1)) k := by
  unfold s_v80
  refine (broadcastInDim_apply _ bcast_S8x32768x4x1_S8x32768x4x128_0_1_2_3 (s_v79 a0 a1) (ix4 b p k c) (ix4 b p k (0 : Fin 1))
    fun a => match a with | ⟨0, _⟩ => rfl | ⟨1, _⟩ => rfl | ⟨2, _⟩ => rfl | ⟨3, _⟩ => rfl).trans ?_
  unfold s_v79
  exact (broadcastInDim_apply _ bcast_S8x32768x4_S8x32768x4x1_0_1_2 (s_v70 a0 a1) (ix4 b p k (0 : Fin 1)) (ix3 b p k)
    fun a => match a with | ⟨0, _⟩ => rfl | ⟨1, _⟩ => rfl | ⟨2, _⟩ => rfl).trans (s_v70_apply a0 a1 b p k)

/-- The gathered value times its weight. -/
theorem s_v81_apply (b : Fin 8) (p : Fin 32768) (k : Fin 4) (c : Fin 128) :
    s_v81 (F := Ideal) a0 a1 (ix4 b p k c)
      = fgT a1 b (row (a0 (ix3 b p 0)) (a0 (ix3 b p 1)) k) c * wt (a0 (ix3 b p 0)) (a0 (ix3 b p 1)) k := by
  unfold s_v81
  rw [mulf_apply, s_v78_apply, s_v80_apply]

/-- The result at batch `b`, point `p`, channel `c`: the weighted sum over the four corners. -/
theorem s_v82_apply (b : Fin 8) (p : Fin 32768) (c : Fin 128) :
    s_v82 (F := Ideal) a0 a1 (ix3 b p c) = Gval a0 a1 b p c := by
  have hR : S8x32768x4x128.Reduces [2] S8x32768x128 := by decide
  unfold s_v82
  show Host.reduceAdd (s_v81 a0 a1) (s_cst_13 a0 a1) reducesTo_S8x32768x4x128_S8x32768x128_d2 h_S_ (ix3 b p c) = _
  rw [hostReduceAdd_apply, Ideal.hostReduceAdd_single reducesTo_S8x32768x4x128_S8x32768x128_d2 hR]
  have h0 : s_cst_13 (F := Ideal) a0 a1 (Shape.Idx.first h_S_) = 0 := by
    unfold s_cst_13
    rw [constant_apply]
    exact Ideal.ofBits_zero_f32
  rw [h0, zero_add]
  unfold Gval
  show ∑ k : Fin 4, s_v81 (F := Ideal) a0 a1 (hR.lift (ix3 b p c) k) = _
  refine Finset.sum_congr rfl fun k _ => ?_
  rw [lift4_axis2 hR b p c k]
  show s_v81 (F := Ideal) a0 a1 (ix4 b p k c) = _
  rw [s_v81_apply, mul_comm]

end Stages
/-- The reference's result is the common value. -/
theorem s_v82_eq (a0 : (⟨S8x32768x2, .f32⟩ : BufTy).Contents (Elt Ideal)) (a1 : (⟨S8x128x128x128, .f32⟩ : BufTy).Contents (Elt Ideal)) :
    s_v82 (F := Ideal) a0 a1 = G a0 a1 := by
  funext i
  obtain ⟨b, p, c, rfl⟩ : ∃ (b : Fin 8) (p : Fin 32768) (c : Fin 128), i = ix3 b p c := ⟨i 0, i 1, i 2, eq_ix3 i⟩
  exact s_v82_apply a0 a1 b p c

end Cert.ReferenceIdeal.StageValue

end
-- ==== Proof.lean ====
/- The certificate's proof.

   Both programs compute, for every batch b, point p and channel c, the same extended real: the four corners of the
   point (its coordinates rounded down or up, wrapped into the 128 × 128 grid) each contribute their inverse-distance
   weight, normalised by the weights' sum, times the feature at the corner's cell. The kernel finds the corner's
   feature by multiplying a matrix that holds the weight at the corner's row and zero elsewhere with the batch's
   feature table, 256 rows at a time; the reference gathers the row. The two agree because a row word always lies
   inside the table and the weights are not negative, so the product distributes over the corners that share a row.
   The three frames come from the programs' runs; the idealization rewrote nothing. -/
import proofs.«427828_j9345848836388_3_alg».proof.Defs
import proofs.«427828_j9345848836388_3_alg».proof.Proof.Gen.Kernel
import proofs.«427828_j9345848836388_3_alg».proof.Proof.Gen.Kernel.Frame
import proofs.«427828_j9345848836388_3_alg».proof.Proof.Gen.KernelIdeal
import proofs.«427828_j9345848836388_3_alg».proof.Proof.Gen.KernelIdeal.Frame
import proofs.«427828_j9345848836388_3_alg».proof.Proof.Gen.ReferenceIdeal
import proofs.«427828_j9345848836388_3_alg».proof.Proof.Gen.Pre_finite_inputs
import proofs.«427828_j9345848836388_3_alg».proof.Proof.KernelArray
import proofs.«427828_j9345848836388_3_alg».proof.Proof.RefLink
import proofs.«427828_j9345848836388_3_alg».proof.Proof.RefValue

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Link.run (F := Ideal) m ρ)

/-- Both runs end with the result array at the common value of the argument arrays, which agree. -/
theorem algebraic : Cert.algebraic_KernelIdeal_ReferenceIdeal := by
  intro m ρ m' ρ' _ hagree
  refine ⟨_, Cert.KernelIdeal.Array.run m ρ, ?_⟩
  refine (θ_run Cert.ReferenceIdeal.defs _ _).mono (fun _ h c => ⟨(h c).1.trans ?_, (h c).2⟩)
    (Cert.ReferenceIdeal.Link.run (F := Ideal) m' ρ')
  rw [Cert.ReferenceIdeal.StageValue.s_v82_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
